-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : IVec S1x800000 32 := (extractStridedSlice S1x800000 ![0, 0] · slices_S2x800000_S1x800000_0_0) main_arg1
  let main_v55 : IVec S800000 32 := shapeCast S800000 main_v54 shapeCasts_S1x800000_S800000
  let main_c_20 : IVec S_ 32 := constantI S_ 32 4294917296#32
  let main_v56 : IVec S800000 32 := broadcastInDim S800000 ![] bcast_S_S800000 main_c_20
  let main_v57 : IVec S800000 1 := cmpi .sge main_v55 main_v56
  let main_v58 : IVec S1x800000 32 := (extractStridedSlice S1x800000 ![0, 0] · slices_S2x800000_S1x800000_0_0) main_arg1
  let main_v59 : IVec S800000 32 := shapeCast S800000 main_v58 shapeCasts_S1x800000_S800000
  let main_c_21 : IVec S_ 32 := constantI S_ 32 50000#32
  let main_v60 : IVec S800000 32 := broadcastInDim S800000 ![] bcast_S_S800000 main_c_21
  let main_v61 : IVec S800000 1 := cmpi .slt main_v59 main_v60
  let main_v62 : IVec S800000 1 := andi main_v57 main_v61
  let main_c_22 : IVec S_ 1 := constantI S_ 1 1#1
  let main_v63 : IVec S_ 1 := (fun x v => Host.reduce IntOp.andi x v reducesTo_S800000_S_d0 h_S_) main_v62 main_c_22
  let main_v64 : IVec S_ 1 := andi main_v53 main_v63
  main_v64

def fn_part2 {F : FTy → Type} [FloatOps F] (main_arg1 : IVec S2x800000 32) (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x800000 32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 212
  | .vmem => 58
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S50000, .f32⟩
  | 46 => ⟨S50000x1, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S1, .i32⟩
  | 57 => ⟨S_, .i32⟩
  | 58 => ⟨S800000x1, .i32⟩
  | 59 => ⟨S800000x1, .i1⟩
  | 60 => ⟨S1x1, .i32⟩
  | 61 => ⟨S800000x1, .i32⟩
  | 62 => ⟨S800000x1, .i1⟩
  | 63 => ⟨S800000x1, .i1⟩
  | 64 => ⟨S_, .i1⟩
  | 65 => ⟨S800000, .i1⟩
  | 66 => ⟨S800000x128, .f32⟩
  | 67 => ⟨S800000x128, .i1⟩
  | 68 => ⟨S_, .f32⟩
  | 69 => ⟨S800000x128, .f32⟩
  | 70 => ⟨S800000x128, .f32⟩
  | 71 => ⟨S800000x1, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S1x128, .f32⟩
  | 79 => ⟨S50000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x128, .f32⟩
  | 110 => ⟨S1x128, .f32⟩
  | 111 => ⟨S1x128, .f32⟩
  | 112 => ⟨S50000x128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S1, .i32⟩
  | 123 => ⟨S_, .i32⟩
  | 124 => ⟨S800000x1, .i32⟩
  | 125 => ⟨S800000x1, .i1⟩
  | 126 => ⟨S1x1, .i32⟩
  | 127 => ⟨S800000x1, .i32⟩
  | _ => ⟨S50000x128, .f32⟩

abbrev hbmTy0_1 (i : Nat) : BufTy := match i % 128 with
  | 0 => ⟨S800000x1, .i1⟩
  | 1 => ⟨S800000x1, .i1⟩
  | 2 => ⟨S_, .i1⟩
  | 3 => ⟨S800000, .i1⟩
  | 4 => ⟨S800000x128, .f32⟩
  | 5 => ⟨S800000x128, .i1⟩
  | 6 => ⟨S_, .f32⟩
  | 7 => ⟨S800000x128, .f32⟩
  | 8 => ⟨S800000x128, .f32⟩
  | 9 => ⟨S800000x1, .f32⟩
  | 10 => ⟨S800000x128, .f32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S1x128, .f32⟩
  | 17 => ⟨S50000x128, .f32⟩
  | 18 => ⟨S_, .f32⟩
  | 19 => ⟨S128, .f32⟩
  | 20 => ⟨S_, .f32⟩
  | 21 => ⟨S128, .f32⟩
  | 22 => ⟨S128, .f32⟩
  | 23 => ⟨S1x128, .f32⟩
  | 24 => ⟨S_, .i32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S_, .f32⟩
  | 36 => ⟨S_, .f32⟩
  | 37 => ⟨S_, .f32⟩
  | 38 => ⟨S128, .f32⟩
  | 39 => ⟨S128, .f32⟩
  | 40 => ⟨S128, .f32⟩
  | 41 => ⟨S_, .f32⟩
  | 42 => ⟨S_, .i1⟩
  | 43 => ⟨S_, .f32⟩
  | 44 => ⟨S_, .f32⟩
  | 45 => ⟨S128, .f32⟩
  | 46 => ⟨S128, .f32⟩
  | 47 => ⟨S1x128, .f32⟩
  | 48 => ⟨S1x128, .f32⟩
  | 49 => ⟨S1x128, .f32⟩
  | 50 => ⟨S50000x128, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S1, .i32⟩
  | 61 => ⟨S_, .i32⟩
  | 62 => ⟨S800000x1, .i32⟩
  | 63 => ⟨S800000x1, .i1⟩
  | 64 => ⟨S1x1, .i32⟩
  | 65 => ⟨S800000x1, .i32⟩
  | 66 => ⟨S800000x1, .i1⟩
  | 67 => ⟨S800000x1, .i1⟩
  | 68 => ⟨S_, .i1⟩
  | 69 => ⟨S800000, .i1⟩
  | 70 => ⟨S800000x64, .f32⟩
  | 71 => ⟨S800000x64, .i1⟩
  | 72 => ⟨S_, .f32⟩
  | 73 => ⟨S800000x64, .f32⟩
  | 74 => ⟨S800000x64, .f32⟩
  | 75 => ⟨S800000x1, .f32⟩
  | 76 => ⟨S800000x64, .f32⟩
  | 77 => ⟨S800000x64, .f32⟩
  | 78 => ⟨S_, .f32⟩
  | 79 => ⟨S50000x64, .f32⟩
  | 80 => ⟨S800000x1, .i32⟩
  | 81 => ⟨S50000x64, .f32⟩
  | 82 => ⟨S1x64, .f32⟩
  | 83 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x1, .f32⟩
  | .local _ .vmem, ⟨54, _⟩ => ⟨S5000x1, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_call0_cst : Ref sig .tc := ⟨.hbm, 68, rfl⟩
abbrev main_call0_v15 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_5 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_6 : Ref sig .tc := ⟨.hbm, 80, rfl⟩
abbrev main_v38 : Ref sig .tc := ⟨.hbm, 81, rfl⟩
abbrev main_cst_7 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_c_8 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_cst_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_cst_1 : Ref sig .tc := ⟨.hbm, 97, rfl⟩
abbrev main_call1_v8 : Ref sig .tc := ⟨.hbm, 98, rfl⟩
abbrev main_call1_cst_2 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_cst_3 : Ref sig .tc := ⟨.hbm, 103, rfl⟩
abbrev main_call1_v12 : Ref sig .tc := ⟨.hbm, 104, rfl⟩
abbrev main_call1_cst_4 : Ref sig .tc := ⟨.hbm, 105, rfl⟩
abbrev main_call1_call0_v0 : Ref sig .tc := ⟨.hbm, 106, rfl⟩
abbrev main_call1_call0_v1 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_cst_9 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_cst_10 : Ref sig .tc := ⟨.hbm, 146, rfl⟩
abbrev main_v57 : Ref sig .tc := ⟨.hbm, 147, rfl⟩
abbrev main_cst_11 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_c_12 : Ref sig .tc := ⟨.hbm, 152, rfl⟩
abbrev main_call3_cst : Ref sig .tc := ⟨.hbm, 153, rfl⟩
abbrev main_call3_v0 : Ref sig .tc := ⟨.hbm, 154, rfl⟩
abbrev main_call3_v1 : Ref sig .tc := ⟨.hbm, 155, rfl⟩
abbrev main_call3_cst_0 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_call3_v5 : Ref sig .tc := ⟨.hbm, 160, rfl⟩
abbrev main_call3_v6 : Ref sig .tc := ⟨.hbm, 161, rfl⟩
abbrev main_call3_v7 : Ref sig .tc := ⟨.hbm, 162, rfl⟩
abbrev main_call3_cst_1 : Ref sig .tc := ⟨.hbm, 163, rfl⟩
abbrev main_call3_v8 : Ref sig .tc := ⟨.hbm, 164, rfl⟩
abbrev main_call3_cst_2 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_cst_3 : Ref sig .tc := ⟨.hbm, 169, rfl⟩
abbrev main_call3_v12 : Ref sig .tc := ⟨.hbm, 170, rfl⟩
abbrev main_call3_cst_4 : Ref sig .tc := ⟨.hbm, 171, rfl⟩
abbrev main_call3_call0_v0 : Ref sig .tc := ⟨.hbm, 172, rfl⟩
abbrev main_call3_call0_v1 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_call4_c : Ref sig .tc := ⟨.hbm, 180, rfl⟩
abbrev main_call4_v0 : Ref sig .tc := ⟨.hbm, 181, rfl⟩
abbrev main_call4_v1 : Ref sig .tc := ⟨.hbm, 182, rfl⟩
abbrev main_call4_c_0 : Ref sig .tc := ⟨.hbm, 183, rfl⟩
abbrev main_call4_v2 : Ref sig .tc := ⟨.hbm, 184, rfl⟩
abbrev main_call4_v3 : Ref sig .tc := ⟨.hbm, 185, rfl⟩
abbrev main_call4_v4 : Ref sig .tc := ⟨.hbm, 186, rfl⟩
abbrev main_call4_v5 : Ref sig .tc := ⟨.hbm, 187, rfl⟩
abbrev main_call4_c_1 : Ref sig .tc := ⟨.hbm, 188, rfl⟩
abbrev main_call4_c_2 : Ref sig .tc := ⟨.hbm, 189, rfl⟩
abbrev main_call4_v6 : Ref sig .tc := ⟨.hbm, 190, rfl⟩
abbrev main_call4_v7 : Ref sig .tc := ⟨.hbm, 191, rfl⟩
abbrev main_call4_v8 : Ref sig .tc := ⟨.hbm, 192, rfl⟩
abbrev main_call4_v9 : Ref sig .tc := ⟨.hbm, 193, rfl⟩
abbrev main_call4_v10 : Ref sig .tc := ⟨.hbm, 194, rfl⟩
abbrev main_call4_v11 : Ref sig .tc := ⟨.hbm, 195, rfl⟩
abbrev main_call4_c_3 : Ref sig .tc := ⟨.hbm, 196, rfl⟩
abbrev main_call4_v12 : Ref sig .tc := ⟨.hbm, 197, rfl⟩
abbrev main_call4_v13 : Ref sig .tc := ⟨.hbm, 198, rfl⟩
abbrev main_call4_v14 : Ref sig .tc := ⟨.hbm, 199, rfl⟩
abbrev main_call4_cst : Ref sig .tc := ⟨.hbm, 200, rfl⟩
abbrev main_call4_v15 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_cst_13 : Ref sig .tc := ⟨.hbm, 206, rfl⟩
abbrev main_v71 : Ref sig .tc := ⟨.hbm, 207, rfl⟩
abbrev main_v72 : Ref sig .tc := ⟨.hbm, 208, rfl⟩
abbrev main_v73 : Ref sig .tc := ⟨.hbm, 209, rfl⟩
abbrev main_v74 : Ref sig .tc := ⟨.hbm, 210, rfl⟩
abbrev main_v75 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg4_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem2_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54
abbrev cc7_sem3_0 : DmaSem sig := 55
abbrev cc7_sem4_0 : DmaSem sig := 56
abbrev cc7_sem4_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S50000x64.size a
  hwx7_4 : ∀ i : grid7.Coords, EltTy.bits .f32 = 32 ∨ (Rect.block (s := S50000x64) S5000x64.size (cc7_transform_4 i) (hinb7_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v55) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v56) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v56) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v65) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v66) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v73) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v66) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v27) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v74) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v75) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 272
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000, .f32⟩
  | 63 => ⟨S50000x1, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S128, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S50000x128, .f32⟩
  | 118 => ⟨S_, .f32⟩
  | 119 => ⟨S800000, .f32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S50000, .f32⟩
  | 127 => ⟨S50000, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S800000x1, .f32⟩
  | 29 => ⟨S800000x128, .f32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000, .f32⟩
  | 36 => ⟨S50000x1, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x64, .f32⟩
  | 91 => ⟨S_, .f32⟩
  | 92 => ⟨S800000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_2 (i : Nat) : BufTy := match i % 128 with
  | 0 => ⟨S800000x64, .f32⟩
  | 1 => ⟨S800000x1, .f32⟩
  | 2 => ⟨S800000x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S50000, .f32⟩
  | 9 => ⟨S50000x1, .f32⟩
  | 10 => ⟨S50000x64, .f32⟩
  | 11 => ⟨S50000x64, .f32⟩
  | 12 => ⟨S50000x64, .f32⟩
  | 13 => ⟨S1x64, .f32⟩
  | 14 => ⟨S50000x64, .f32⟩
  | 15 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_11 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_call1_cst : Ref sig .tc := ⟨.hbm, 114, rfl⟩
abbrev main_call1_v0 : Ref sig .tc := ⟨.hbm, 115, rfl⟩
abbrev main_v67 : Ref sig .tc := ⟨.hbm, 116, rfl⟩
abbrev main_v68 : Ref sig .tc := ⟨.hbm, 117, rfl⟩
abbrev main_cst_12 : Ref sig .tc := ⟨.hbm, 118, rfl⟩
abbrev main_v69 : Ref sig .tc := ⟨.hbm, 119, rfl⟩
abbrev main_cst_13 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_14 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_15 : Ref sig .tc := ⟨.hbm, 128, rfl⟩
abbrev main_v76 : Ref sig .tc := ⟨.hbm, 129, rfl⟩
abbrev main_v77 : Ref sig .tc := ⟨.hbm, 130, rfl⟩
abbrev main_c_16 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_17 : Ref sig .tc := ⟨.hbm, 137, rfl⟩
abbrev main_v83 : Ref sig .tc := ⟨.hbm, 138, rfl⟩
abbrev main_v84 : Ref sig .tc := ⟨.hbm, 139, rfl⟩
abbrev main_c_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_19 : Ref sig .tc := ⟨.hbm, 147, rfl⟩
abbrev main_v91 : Ref sig .tc := ⟨.hbm, 148, rfl⟩
abbrev main_v92 : Ref sig .tc := ⟨.hbm, 149, rfl⟩
abbrev main_c_20 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_21 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_22 : Ref sig .tc := ⟨.hbm, 171, rfl⟩
abbrev main_v112 : Ref sig .tc := ⟨.hbm, 172, rfl⟩
abbrev main_cst_23 : Ref sig .tc := ⟨.hbm, 173, rfl⟩
abbrev main_v113 : Ref sig .tc := ⟨.hbm, 174, rfl⟩
abbrev main_v114 : Ref sig .tc := ⟨.hbm, 175, rfl⟩
abbrev main_c_24 : Ref sig .tc := ⟨.hbm, 176, rfl⟩
abbrev main_call2_cst : Ref sig .tc := ⟨.hbm, 177, rfl⟩
abbrev main_call2_v0 : Ref sig .tc := ⟨.hbm, 178, rfl⟩
abbrev main_call2_v1 : Ref sig .tc := ⟨.hbm, 179, rfl⟩
abbrev main_call2_cst_0 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_call2_v5 : Ref sig .tc := ⟨.hbm, 184, rfl⟩
abbrev main_call2_v6 : Ref sig .tc := ⟨.hbm, 185, rfl⟩
abbrev main_call2_v7 : Ref sig .tc := ⟨.hbm, 186, rfl⟩
abbrev main_call2_cst_1 : Ref sig .tc := ⟨.hbm, 187, rfl⟩
abbrev main_call2_v8 : Ref sig .tc := ⟨.hbm, 188, rfl⟩
abbrev main_call2_cst_2 : Ref sig .tc := ⟨.hbm, 189, rfl⟩
abbrev main_call2_v9 : Ref sig .tc := ⟨.hbm, 190, rfl⟩
abbrev main_call2_v10 : Ref sig .tc := ⟨.hbm, 191, rfl⟩
abbrev main_call2_v11 : Ref sig .tc := ⟨.hbm, 192, rfl⟩
abbrev main_call2_cst_3 : Ref sig .tc := ⟨.hbm, 193, rfl⟩
abbrev main_call2_v12 : Ref sig .tc := ⟨.hbm, 194, rfl⟩
abbrev main_call2_cst_4 : Ref sig .tc := ⟨.hbm, 195, rfl⟩
abbrev main_call2_call0_v0 : Ref sig .tc := ⟨.hbm, 196, rfl⟩
abbrev main_call2_call0_v1 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_cst_25 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_call3_cst : Ref sig .tc := ⟨.hbm, 215, rfl⟩
abbrev main_call3_v0 : Ref sig .tc := ⟨.hbm, 216, rfl⟩
abbrev main_v131 : Ref sig .tc := ⟨.hbm, 217, rfl⟩
abbrev main_v132 : Ref sig .tc := ⟨.hbm, 218, rfl⟩
abbrev main_cst_26 : Ref sig .tc := ⟨.hbm, 219, rfl⟩
abbrev main_v133 : Ref sig .tc := ⟨.hbm, 220, rfl⟩
abbrev main_cst_27 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_cst_28 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_c_29 : Ref sig .tc := ⟨.hbm, 229, rfl⟩
abbrev main_v140 : Ref sig .tc := ⟨.hbm, 230, rfl⟩
abbrev main_v141 : Ref sig .tc := ⟨.hbm, 231, rfl⟩
abbrev main_c_30 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_c_31 : Ref sig .tc := ⟨.hbm, 238, rfl⟩
abbrev main_v147 : Ref sig .tc := ⟨.hbm, 239, rfl⟩
abbrev main_v148 : Ref sig .tc := ⟨.hbm, 240, rfl⟩
abbrev main_c_32 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_c_33 : Ref sig .tc := ⟨.hbm, 248, rfl⟩
abbrev main_v155 : Ref sig .tc := ⟨.hbm, 249, rfl⟩
abbrev main_v156 : Ref sig .tc := ⟨.hbm, 250, rfl⟩
abbrev main_c_34 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_cst_35 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The graph-convolution network both programs compute, stage by stage, as pure functions of whole arrays.

  Three layers of  out = scatter-add over edges of (h[src] · coef) into row dst,  plus  h · invs²,  plus the bias,
  where h = X · W (a matrix product), invs = (1 + in-degree)^(-1/2) and coef = invs[src] · invs[dst]; after the
  first two layers a batch normalisation over the rows (mean and variance per column) followed by max(·, 0).
  Every function below is spelled with the host operations the reference program prints, over the reference
  program's dimension records, so that the reference's composed result term is these functions by unfolding.
  Negative node ids are wrapped once (NumPy's indexing), then used as start indices of a row gather.
-/
import proofs.«425463_j10161892623141_1_alg».proof.Proof.Gen.ReferenceIdeal
import Idealize.ShloMosaic.PureOps.Ideal

noncomputable section

namespace Cert.Gcn

open Idealize.ShloMosaic Cert.ReferenceIdeal Cert.ReferenceIdeal.Facts₀ Cert.ReferenceIdeal.Facts

variable {F : FTy → Type} [FloatOps F] [Cert.ReferenceIdeal.Facts]

/-! ## The graph: source and destination ids, the degree normalisation -/

/-- Row 0 of the edge table: the source node of every edge. -/
def srcOf (ei : IVec S2x800000 32) : IVec S800000 32 :=
  shapeCast S800000 (extractStridedSlice S1x800000 ![0, 0] ei slices_S2x800000_S1x800000_0_0) shapeCasts_S1x800000_S800000

/-- Row 1 of the edge table: the destination node of every edge. -/
def dstOf (ei : IVec S2x800000 32) : IVec S800000 32 :=
  shapeCast S800000 (extractStridedSlice S1x800000 ![1, 0] ei slices_S2x800000_S1x800000_1_0) shapeCasts_S1x800000_S800000

/-- A node id with a negative value moved up by the number of nodes (an id in [-N, 0) names node id + N). -/
def wrapId (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- Node ids as a column of start indices. -/
def colIdx (s : IVec S800000 32) : IVec S800000x1 32 := broadcastInDim S800000x1 ![0] bcast_S800000_S800000x1_0 s

/-- (1 + in-degree)^(-1/2) per node: ones summed into their destination rows, plus the self loop. -/
def invsOf (dst : IVec S800000 32) : FVec F S50000 .f32 :=
  Host.rsqrt (addf
    (Host.scatterAdd scatter_S50000_S800000x1_S800000_n_0_0_1
      (broadcastInDim S50000 ![] bcast_S_S50000 (constant (F := F) S_ .f32 0x00000000#32)) (colIdx dst)
      (broadcastInDim S800000 ![] bcast_S_S800000 (constant (F := F) S_ .f32 0x3F800000#32)))
    (broadcastInDim S50000 ![] bcast_S_S50000 (constant (F := F) S_ .f32 0x3F800000#32)))

/-- The edge weight invs[src] · invs[dst]. -/
def coefOf (invs : FVec F S50000 .f32) (src dst : IVec S800000 32) : FVec F S800000 .f32 :=
  mulf (Host.gather gather_S50000_S800000x1_S800000_n_0_n_n_0_1_1 invs (colIdx (wrapId src)))
    (Host.gather gather_S50000_S800000x1_S800000_n_0_n_n_0_1_1 invs (colIdx (wrapId dst)))

/-! ## One layer at width 128 -/

/-- The projection X · W. -/
def lin128 (X : FVec F S50000x128 .f32) (W : FVec F S128x128 .f32) : FVec F S50000x128 .f32 :=
  Host.dotGeneral dot_S50000x128_S128x128_S50000x128_1_0_0_1_n_n none X W

/-- The messages h[src] · coef summed into their destination rows. -/
def agg128 (h : FVec F S50000x128 .f32) (coef : FVec F S800000 .f32) (src dst : IVec S800000 32) : FVec F S50000x128 .f32 :=
  Host.scatterAdd scatter_S50000x128_S800000x1_S800000x128_1_0_0_1
    (broadcastInDim S50000x128 ![] bcast_S_S50000x128 (constant (F := F) S_ .f32 0x00000000#32)) (colIdx dst)
    (mulf (Host.gather gather_S50000x128_S800000x1_S800000x128_1_0_n_n_0_1_1128 h (colIdx (wrapId src)))
      (broadcastInDim S800000x128 ![0, 1] bcast_S800000x1_S800000x128_0_1
        (broadcastInDim S800000x1 ![0] bcast_S800000_S800000x1_0 coef)))

/-- agg + h · invs² (row-wise) + b (column-wise). -/
def comb128 (agg h : FVec F S50000x128 .f32) (invs : FVec F S50000 .f32) (b : FVec F S128 .f32) : FVec F S50000x128 .f32 :=
  addf (addf agg (mulf h (broadcastInDim S50000x128 ![0, 1] bcast_S50000x1_S50000x128_0_1
      (broadcastInDim S50000x1 ![0] bcast_S50000_S50000x1_0 (mulf invs invs)))))
    (broadcastInDim S50000x128 ![0, 1] bcast_S1x128_S50000x128_0_1 (broadcastInDim S1x128 ![1] bcast_S128_S1x128_1 b))

/-- A whole layer at width 128. -/
def layer128 (X : FVec F S50000x128 .f32) (W : FVec F S128x128 .f32) (b : FVec F S128 .f32) (src dst : IVec S800000 32) :
    FVec F S50000x128 .f32 :=
  comb128 (agg128 (lin128 X W) (coefOf (invsOf dst) src dst) src dst) (lin128 X W) (invsOf dst) b

/-! ## The last layer, at width 64 -/

def lin64 (X : FVec F S50000x128 .f32) (W : FVec F S128x64 .f32) : FVec F S50000x64 .f32 :=
  Host.dotGeneral dot_S50000x128_S128x64_S50000x64_1_0_0_1_n_n none X W

def agg64 (h : FVec F S50000x64 .f32) (coef : FVec F S800000 .f32) (src dst : IVec S800000 32) : FVec F S50000x64 .f32 :=
  Host.scatterAdd scatter_S50000x64_S800000x1_S800000x64_1_0_0_1
    (broadcastInDim S50000x64 ![] bcast_S_S50000x64 (constant (F := F) S_ .f32 0x00000000#32)) (colIdx dst)
    (mulf (Host.gather gather_S50000x64_S800000x1_S800000x64_1_0_n_n_0_1_164 h (colIdx (wrapId src)))
      (broadcastInDim S800000x64 ![0, 1] bcast_S800000x1_S800000x64_0_1
        (broadcastInDim S800000x1 ![0] bcast_S800000_S800000x1_0 coef)))

def comb64 (agg h : FVec F S50000x64 .f32) (invs : FVec F S50000 .f32) (b : FVec F S64 .f32) : FVec F S50000x64 .f32 :=
  addf (addf agg (mulf h (broadcastInDim S50000x64 ![0, 1] bcast_S50000x1_S50000x64_0_1
      (broadcastInDim S50000x1 ![0] bcast_S50000_S50000x1_0 (mulf invs invs)))))
    (broadcastInDim S50000x64 ![0, 1] bcast_S1x64_S50000x64_0_1 (broadcastInDim S1x64 ![1] bcast_S64_S1x64_1 b))

def layer64 (X : FVec F S50000x128 .f32) (W : FVec F S128x64 .f32) (b : FVec F S64 .f32) (src dst : IVec S800000 32) :
    FVec F S50000x64 .f32 :=
  comb64 (agg64 (lin64 X W) (coefOf (invsOf dst) src dst) src dst) (lin64 X W) (invsOf dst) b

/-! ## Batch normalisation over the rows, then max(·, 0) -/

/-- A vector of 128 column values laid along every row. -/
def rows128 (v : FVec F S128 .f32) : FVec F S50000x128 .f32 :=
  broadcastInDim S50000x128 ![0, 1] bcast_S1x128_S50000x128_0_1 (broadcastInDim S1x128 ![1] bcast_S128_S1x128_1 v)

/-- The column means: the column sums over 50000. -/
def meanOf (h : FVec F S50000x128 .f32) : FVec F S128 .f32 :=
  Host.divf (Host.reduceAdd h (constant (F := F) S_ .f32 0x00000000#32) reducesTo_S50000x128_S128_d0 h_S_)
    (broadcastInDim S128 ![] bcast_S_S128 (constant (F := F) S_ .f32 0x47435000#32))

/-- The column variances (jnp.var with no correction: squared deviations from the column mean, summed, over 50000 - 0;
    the guard for a non-positive divisor is part of the printed function). -/
def varOf (h : FVec F S50000x128 .f32) : FVec F S128 .f32 :=
  select
    (broadcastInDim S128 ![] bcast_S_S128
      (cmpf .ogt (subf (constant (F := F) S_ .f32 0x47435000#32) (sitofp (F := F) .f32 (constantI S_ 32 0#32))) (constant (F := F) S_ .f32 0x00000000#32)))
    (Host.divf
      (Host.reduceAdd
        (mulf
          (subf h (broadcastInDim S50000x128 ![0, 1] bcast_S1x128_S50000x128_0_1
            (Host.divf (broadcastInDim S1x128 ![1] bcast_S128_S1x128_1
                (Host.reduceAdd h (constant (F := F) S_ .f32 0x00000000#32) reducesTo_S50000x128_S128_d0 h_S_))
              (broadcastInDim S1x128 ![] bcast_S_S1x128 (constant (F := F) S_ .f32 0x47435000#32)))))
          (subf h (broadcastInDim S50000x128 ![0, 1] bcast_S1x128_S50000x128_0_1
            (Host.divf (broadcastInDim S1x128 ![1] bcast_S128_S1x128_1
                (Host.reduceAdd h (constant (F := F) S_ .f32 0x00000000#32) reducesTo_S50000x128_S128_d0 h_S_))
              (broadcastInDim S1x128 ![] bcast_S_S1x128 (constant (F := F) S_ .f32 0x47435000#32))))))
        (constant (F := F) S_ .f32 0x00000000#32) reducesTo_S50000x128_S128_d0 h_S_)
      (broadcastInDim S128 ![] bcast_S_S128
        (subf (constant (F := F) S_ .f32 0x47435000#32) (sitofp (F := F) .f32 (constantI S_ 32 0#32)))))
    (broadcastInDim S128 ![] bcast_S_S128 (id (constant (F := F) S_ .f32 0x7FC00000#32)))

/-- max(g · (h - mean) · (var + ε)^(-1/2) + bt, 0) with the column statistics given. -/
def bnApply (h : FVec F S50000x128 .f32) (mean var g bt : FVec F S128 .f32) : FVec F S50000x128 .f32 :=
  maximumf
    (addf (mulf (mulf (rows128 g) (subf h (rows128 mean)))
        (rows128 (Host.rsqrt (addf var (broadcastInDim S128 ![] bcast_S_S128 (constant (F := F) S_ .f32 0x3727C5AC#32))))))
      (rows128 bt))
    (broadcastInDim S50000x128 ![] bcast_S_S50000x128 (constant (F := F) S_ .f32 0x00000000#32))

/-- Batch normalisation with the array's own column statistics. -/
def bn128 (h : FVec F S50000x128 .f32) (g bt : FVec F S128 .f32) : FVec F S50000x128 .f32 :=
  bnApply h (meanOf h) (varOf h) g bt

/-! ## The network -/

/-- The whole network as a function of the twelve arguments. -/
def net (x : FVec F S50000x128 .f32) (ei : IVec S2x800000 32) (W1 : FVec F S128x128 .f32) (b1 g1 bt1 : FVec F S128 .f32)
    (W2 : FVec F S128x128 .f32) (b2 g2 bt2 : FVec F S128 .f32) (W3 : FVec F S128x64 .f32) (b3 : FVec F S64 .f32) :
    FVec F S50000x64 .f32 :=
  layer64 (bn128 (layer128 (bn128 (layer128 x W1 b1 (srcOf ei) (dstOf ei)) g1 bt1) W2 b2 (srcOf ei) (dstOf ei)) g2 bt2)
    W3 b3 (srcOf ei) (dstOf ei)

end Cert.Gcn

end
-- ==== Proof.TakeSpec.lean ====
/-
  The kernel program gathers the rows h[src] through a guarded form of the row gather: after the wrap of negative
  ids, a row whose id is outside [0, 49999] is not read but filled with the quiet-NaN word, which at the extended
  reals denotes the bottom element. This module names that guarded gather, the edge aggregation over it, and the
  network with the guarded gather in the place of the plain one. Where every wrapped source id is in range the
  guard is all ones and the two networks are one function (proved elsewhere).
-/
import proofs.«425463_j10161892623141_1_alg».proof.Proof.Spec
import proofs.«425463_j10161892623141_1_alg».proof.Proof.Gen.KernelIdeal

noncomputable section

namespace Cert.Gcn

open Idealize.ShloMosaic Cert.KernelIdeal Cert.KernelIdeal.Facts₀ Cert.KernelIdeal.Facts

variable {F : FTy → Type} [FloatOps F] [Cert.KernelIdeal.Facts] [Cert.ReferenceIdeal.Facts]

/-- Per edge: is the wrapped source id a row of the table, 0 ≤ id ≤ 49999 ? -/
def rowOk (src : IVec S800000 32) : IVec S800000 1 :=
  Host.reduce IntOp.andi
    (andi (cmpi .sge (colIdx (wrapId src)) (broadcastInDim S800000x1 ![] bcast_S_S800000x1 (constantI S_ 32 0#32)))
      (cmpi .sle (colIdx (wrapId src))
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The guarded row gather at width 128: the gathered row where the id is a row, the fill word elsewhere. -/
def take128 (h : FVec F S50000x128 .f32) (src : IVec S800000 32) : FVec F S800000x128 .f32 :=
  select (broadcastInDim S800000x128 ![0] bcast_S800000_S800000x128_0 (rowOk src))
    (Host.gather gather_S50000x128_S800000x1_S800000x128_1_0_n_n_0_1_1128 h (colIdx (wrapId src)))
    (broadcastInDim S800000x128 ![] bcast_S_S800000x128 (constant (F := F) S_ .f32 0x7FC00000#32))

/-- The guarded row gather at width 64. -/
def take64 (h : FVec F S50000x64 .f32) (src : IVec S800000 32) : FVec F S800000x64 .f32 :=
  select (broadcastInDim S800000x64 ![0] bcast_S800000_S800000x64_0 (rowOk src))
    (Host.gather gather_S50000x64_S800000x1_S800000x64_1_0_n_n_0_1_164 h (colIdx (wrapId src)))
    (broadcastInDim S800000x64 ![] bcast_S_S800000x64 (constant (F := F) S_ .f32 0x7FC00000#32))

/-- The edge aggregation over the guarded gather, width 128. -/
def aggK128 (h : FVec F S50000x128 .f32) (coef : FVec F S800000 .f32) (src dst : IVec S800000 32) : FVec F S50000x128 .f32 :=
  Host.scatterAdd scatter_S50000x128_S800000x1_S800000x128_1_0_0_1
    (broadcastInDim S50000x128 ![] bcast_S_S50000x128 (constant (F := F) S_ .f32 0x00000000#32)) (colIdx dst)
    (mulf (take128 h src)
      (broadcastInDim S800000x128 ![0, 1] bcast_S800000x1_S800000x128_0_1
        (broadcastInDim S800000x1 ![0] bcast_S800000_S800000x1_0 coef)))

/-- The edge aggregation over the guarded gather, width 64. -/
def aggK64 (h : FVec F S50000x64 .f32) (coef : FVec F S800000 .f32) (src dst : IVec S800000 32) : FVec F S50000x64 .f32 :=
  Host.scatterAdd scatter_S50000x64_S800000x1_S800000x64_1_0_0_1
    (broadcastInDim S50000x64 ![] bcast_S_S50000x64 (constant (F := F) S_ .f32 0x00000000#32)) (colIdx dst)
    (mulf (take64 h src)
      (broadcastInDim S800000x64 ![0, 1] bcast_S800000x1_S800000x64_0_1
        (broadcastInDim S800000x1 ![0] bcast_S800000_S800000x1_0 coef)))

def layerK128 (X : FVec F S50000x128 .f32) (W : FVec F S128x128 .f32) (b : FVec F S128 .f32) (src dst : IVec S800000 32) :
    FVec F S50000x128 .f32 :=
  comb128 (aggK128 (lin128 X W) (coefOf (invsOf dst) src dst) src dst) (lin128 X W) (invsOf dst) b

def layerK64 (X : FVec F S50000x128 .f32) (W : FVec F S128x64 .f32) (b : FVec F S64 .f32) (src dst : IVec S800000 32) :
    FVec F S50000x64 .f32 :=
  comb64 (aggK64 (lin64 X W) (coefOf (invsOf dst) src dst) src dst) (lin64 X W) (invsOf dst) b

/-- The network as the kernel program computes it: the guarded gather in each layer. -/
def netK (x : FVec F S50000x128 .f32) (ei : IVec S2x800000 32) (W1 : FVec F S128x128 .f32) (b1 g1 bt1 : FVec F S128 .f32)
    (W2 : FVec F S128x128 .f32) (b2 g2 bt2 : FVec F S128 .f32) (W3 : FVec F S128x64 .f32) (b3 : FVec F S64 .f32) :
    FVec F S50000x64 .f32 :=
  layerK64 (bn128 (layerK128 (bn128 (layerK128 x W1 b1 (srcOf ei) (dstOf ei)) g1 bt1) W2 b2 (srcOf ei) (dstOf ei)) g2 bt2)
    W3 b3 (srcOf ei) (dstOf ei)

end Cert.Gcn

end
-- ==== Proof.RegLin.lean ====
/-
  The projection regions (X · W on row blocks of 5000): after the region its output array is the whole product.

  A plain matrix product at an index is the sum over the shared axis of x(r, k) · w(k, q), for the body's product of one
  row block and for the whole product alike; the row window's block at grid point t is rows 5000·t … 5000·t + 4999 of its
  array and the weight window's block is the whole weight array, so what point t writes back is block t of the whole
  product; the ten blocks cover the output array (row r lies in the block of point r / 5000).
-/
import proofs.«425463_j10161892623141_1_alg».proof.Proof.Spec
import proofs.«425463_j10161892623141_1_alg».proof.Proof.Gen.KernelIdeal.Frame
import Idealize.ShloMosaic.Lib.Pipeline.Value
import Idealize.ShloMosaic.Lib.ValueIdx
import Idealize.ShloMosaic.PureOps.Ideal.Laws

noncomputable section

namespace Cert.Gcn.RegLin

open Idealize.ShloMosaic Idealize.ShloMosaic.TcCoe Idealize.SL.Sem Idealize.ShloMosaic.ValueIdx
open Cert.KernelIdeal Cert.KernelIdeal.Gen Cert.KernelIdeal.Facts₀ Cert.KernelIdeal.Facts

/-! ## A plain matrix product at an index -/

section Plain
variable {sl sr so : Shape} (d : DotDims sl sr so)

/-- With no batch axes and one free left axis, the left index reads the result's first coordinate on that axis. -/
theorem lhsIdx_val_free {a : Fin sl.rank} (hb : d.lhsBatch = []) (hn : d.lhsNonContracting = [a]) (h0 : 0 < so.rank)
    (j : so.Idx) (k : d.contr.Idx) : (d.lhsIdx j k a).val = (j ⟨0, h0⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one free left axis and one free right axis, the right index reads the result's second
    coordinate on its free axis. -/
theorem rhsIdx_val_free {a' : Fin sl.rank} {a : Fin sr.rank} (hlb : d.lhsBatch = []) (hln : d.lhsNonContracting = [a'])
    (hb : d.rhsBatch = []) (hn : d.rhsNonContracting = [a]) (h1 : 1 < so.rank)
    (j : so.Idx) (k : d.contr.Idx) : (d.rhsIdx j k a).val = (j ⟨1, h1⟩).val := by
  have hnb : a ∉ d.rhsBatch := by rw [hb]; exact List.not_mem_nil
  have hmem : a ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Plain

/-- THE CONTRACTION'S SUM OF A PLAIN MATRIX PRODUCT (rows × shared axis times shared axis × columns, no batch axis):
    at the result index (r, q) it is the sum over the shared coordinate k of x(r, k) · w(k, q). -/
theorem sum_contr_plain {M K N : Nat} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![M, K]⟩ : Shape).Idx → EReal) (w : (⟨2, ![K, N]⟩ : Shape).Idx → EReal) (r : Fin M) (q : Fin N) :
    ∑ k : d.contr.Idx, x (d.lhsIdx (ix2 r q) k) * w (d.rhsIdx (ix2 r q) k) = ∑ k : Fin K, x (ix2 r k) * w (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun a => Fin.ext (by
    match a with
    | ⟨0, _⟩ => exact lhsIdx_val_free d hlb hln Nat.zero_lt_two _ _
    | ⟨1, _⟩ => exact (d.lhsIdx_val_of_single hlc _ _).trans hk)
  have er : d.rhsIdx (ix2 r q) ((contrEquiv1 d K hr hs).symm k) = ix2 k q := funext fun a => Fin.ext (by
    match a with
    | ⟨0, _⟩ => exact (d.rhsIdx_val_of_single hrc _ _).trans hk
    | ⟨1, _⟩ => exact rhsIdx_val_free d hlb hln hrb hrn Nat.one_lt_two _ _)
  rw [el, er]

/-! ## The two products at an index -/

/-- The body's product of a row block at (p, q): the sum over k of x(p, k) · w(k, q) (the narrowing casts are the
    identity on extended reals, the accumulator is zero). -/
theorem blockProd128_apply (x : Vec Ideal S5000x128 .f32) (w : Vec Ideal S128x128 .f32) (p : Fin 5000) (q : Fin 128) :
    Gen.k0_pay1 (F := Ideal) x w (ix2 p q) = ∑ k : Fin 128, (x (ix2 p k) : EReal) * (w (ix2 k q) : EReal) := by
  unfold Gen.k0_pay1
  refine (Ideal.matmul_constant_zero_apply dot_S5000x128_S128x128_S5000x128_1_0_0_1_n_n none _ _ (ix2 p q)).trans ?_
  exact sum_contr_plain dot_S5000x128_S128x128_S5000x128_1_0_0_1_n_n rfl rfl rfl rfl rfl rfl rfl rfl _ _ p q

/-- The whole product at (r, q): the same sum over the whole arrays. -/
theorem lin128_apply (X : FVec Ideal S50000x128 .f32) (W : FVec Ideal S128x128 .f32) (r : Fin 50000) (q : Fin 128) :
    Cert.Gcn.lin128 (F := Ideal) X W (ix2 r q) = ∑ k : Fin 128, (X (ix2 r k) : EReal) * (W (ix2 k q) : EReal) := by
  unfold Cert.Gcn.lin128
  refine (Ideal.dotGeneral_apply Cert.ReferenceIdeal.dot_S50000x128_S128x128_S50000x128_1_0_0_1_n_n none .single X W (ix2 r q)).trans ?_
  exact sum_contr_plain Cert.ReferenceIdeal.dot_S50000x128_S128x128_S50000x128_1_0_0_1_n_n rfl rfl rfl rfl rfl rfl rfl rfl X W r q

/-- A BLOCKED PRODUCT IS THE WHOLE PRODUCT'S ROWS: if row (y 0) of the block x is row (i 0) of X and the block w is all
    of W, the block's product at y is the whole product at i (same column). -/
theorem blockProd128_eq (X : FVec Ideal S50000x128 .f32) (W : FVec Ideal S128x128 .f32)
    (x : Vec Ideal S5000x128 .f32) (w : Vec Ideal S128x128 .f32) (y : S5000x128.Idx) (i : S50000x128.Idx)
    (hx : ∀ (y' : S5000x128.Idx) (i' : S50000x128.Idx), (y' 0).val = (y 0).val → (i' 0).val = (i 0).val →
      (i' 1).val = (y' 1).val → x y' = X i')
    (hw : w = W) (h1 : (i 1).val = (y 1).val) :
    Gen.k0_pay1 (F := Ideal) x w y = Cert.Gcn.lin128 (F := Ideal) X W i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext h1
  rw [blockProd128_apply, lin128_apply, hw]
  exact Finset.sum_congr rfl fun k _ => congrArg (· * (W (ix2 k q') : EReal)) (hx (ix2 p k) (ix2 r k) rfl rfl rfl)

/-! ## Region 0: the input blocks as rows of the arrays, the write-back, the cover -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row windows' block index is (t, 0), the weight window's (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 5000·t … 5000·t + 4999 of its array. -/
theorem xblock0_apply (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c (Pipeline.arrRef spec0 0) : S50000x128.Idx → Elt Ideal .f32) i := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's block at every point is its whole array. -/
theorem wblock0_eq (c : Dev nD) (t : Fin cfg0.N) :
    (iblk0 V c 1 t : Vec Ideal S128x128 .f32) = (V c (Pipeline.arrRef spec0 1) : S128x128.Idx → Elt Ideal .f32) := by
  obtain ⟨-, -, e0, e1, -⟩ := idx_facts0 t
  funext y
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- WHAT POINT t WRITES BACK is block t of the whole product of the arrays as the region finds them. -/
theorem flushed0_eq (c : Dev nD) (t : Fin cfg0.N) :
    (dat0 (F := Ideal) V c).flushed 2 t = ((cfg0.win 2).blk t).view.read (Elt Ideal)
      (Cert.Gcn.lin128 (F := Ideal) (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨-, -, -, -, e0, e1⟩ := idx_facts0 t
  funext j
  show Gen.k0_pay1 (F := Ideal) (iblk0 V c 0 t) (iblk0 V c 1 t) j
    = Cert.Gcn.lin128 (F := Ideal) (V c (Pipeline.arrRef spec0 0)) (V c (Pipeline.arrRef spec0 1)) (((cfg0.win 2).blk t).view.emb j)
  have hj0 : ((((cfg0.win 2).blk t).view.emb j) 0).val = 5000 * t.val + (j 0).val := by
    show win0_2.index t (0 : Fin 2) * 5000 + 1 * (j 0).val = _; rw [e0]; omega
  have hj1 : ((((cfg0.win 2).blk t).view.emb j) 1).val = (j 1).val := by
    show win0_2.index t (1 : Fin 2) * 128 + 1 * (j 1).val = _; rw [e1]; omega
  refine blockProd128_eq _ _ _ _ j _ (fun y' i' h0 h0' h1' => xblock0_apply V c t y' i' ?_ h1') (wblock0_eq V c t) hj1
  rw [h0', hj0, h0]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v28).slice (win0_2.rect t)).set ↔ _
  rw [View.set_slice_whole, Rect.mem_set_unit]
  exact Iff.rfl

/-- Every row r of the output array is in the block of point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; rw [hN]; omega⟩
  have ht : t.val = (i 0).val / 5000 := rfl
  obtain ⟨-, -, -, -, e0, e1⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 128 ≤ (i 1).val ∧ (i 1).val < win0_2.index t (1 : Fin 2) * 128 + 128
    rw [e1]; omega

/-- After region 0 its output array is the whole product of its two input arrays. -/
theorem final0 (c : Dev nD) :
    (dat0 (F := Ideal) V c).arrAt 2 cfg0.N = Cert.Gcn.lin128 (F := Ideal) (V c (Pipeline.arrRef spec0 0)) (V c (Pipeline.arrRef spec0 1)) :=
  (dat0 (F := Ideal) V c).arrAt_eq_of_cover 2 _ (fun t _ => flushed0_eq V c t) cover0

/-! ## Region 3: the same product, the row block passing through a cast to its own shape first -/

/-- Region 3's body is region 0's: the cast of the block to its own shape is the identity. -/
theorem pay3_eq (x : Vec Ideal S5000x128 .f32) (w : Vec Ideal S128x128 .f32) :
    Gen.k3_pay1 (F := Ideal) x w = Gen.k0_pay1 (F := Ideal) x w :=
  (rfl : Gen.k3_pay1 (F := Ideal) x w
      = Gen.k0_pay1 (F := Ideal) (shapeCast S5000x128 x Facts₀.shapeCasts_S5000x128_S5000x128) w).trans
    (congrArg (fun v => Gen.k0_pay1 (F := Ideal) v w) (shapeCast_self x Facts₀.shapeCasts_S5000x128_S5000x128))

/-- The printed index maps of region 3, decided over the grid. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row window's block at point t is rows 5000·t … 5000·t + 4999 of its array. -/
theorem xblock3_apply (c : Dev nD) (t : Fin cfg3.N) (y : S5000x128.Idx) (i : S50000x128.Idx)
    (h0 : (i 0).val = 5000 * t.val + (y 0).val) (h1 : (i 1).val = (y 1).val) :
    (iblk3 V c 0 t : Vec Ideal S5000x128 .f32) y = (V c (Pipeline.arrRef spec3 0) : S50000x128.Idx → Elt Ideal .f32) i := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The weight window's block at every point is its whole array. -/
theorem wblock3_eq (c : Dev nD) (t : Fin cfg3.N) :
    (iblk3 V c 1 t : Vec Ideal S128x128 .f32) = (V c (Pipeline.arrRef spec3 1) : S128x128.Idx → Elt Ideal .f32) := by
  obtain ⟨-, -, e0, e1, -⟩ := idx_facts3 t
  funext y
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

/-- WHAT POINT t WRITES BACK is block t of the whole product of the arrays as the region finds them. -/
theorem flushed3_eq (c : Dev nD) (t : Fin cfg3.N) :
    (dat3 (F := Ideal) V c).flushed 2 t = ((cfg3.win 2).blk t).view.read (Elt Ideal)
      (Cert.Gcn.lin128 (F := Ideal) (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S128x128) hz]
  obtain ⟨-, -, -, -, e0, e1⟩ := idx_facts3 t
  funext j
  show Gen.k3_pay1 (F := Ideal) (iblk3 V c 0 t) (iblk3 V c 1 t) j
    = Cert.Gcn.lin128 (F := Ideal) (V c (Pipeline.arrRef spec3 0)) (V c (Pipeline.arrRef spec3 1)) (((cfg3.win 2).blk t).view.emb j)
  have hj0 : ((((cfg3.win 2).blk t).view.emb j) 0).val = 5000 * t.val + (j 0).val := by
    show win3_2.index t (0 : Fin 2) * 5000 + 1 * (j 0).val = _; rw [e0]; omega
  have hj1 : ((((cfg3.win 2).blk t).view.emb j) 1).val = (j 1).val := by
    show win3_2.index t (1 : Fin 2) * 128 + 1 * (j 1).val = _; rw [e1]; omega
  refine (congrFun (pay3_eq (iblk3 V c 0 t) (iblk3 V c 1 t)) j).trans ?_
  refine blockProd128_eq _ _ _ _ j _ (fun y' i' h0 h0' h1' => xblock3_apply V c t y' i' ?_ h1') (wblock3_eq V c t) hj1
  rw [h0', hj0, h0]

/-- An index of the output array is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v47).slice (win3_2.rect t)).set ↔ _
  rw [View.set_slice_whole, Rect.mem_set_unit]
  exact Iff.rfl

/-- Every row r of the output array is in the block of point r / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; rw [hN]; omega⟩
  have ht : t.val = (i 0).val / 5000 := rfl
  obtain ⟨-, -, -, -, e0, e1⟩ := idx_facts3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    rw [e0, ht]; omega
  | ⟨1, _⟩ =>
    show win3_2.index t (1 : Fin 2) * 128 ≤ (i 1).val ∧ (i 1).val < win3_2.index t (1 : Fin 2) * 128 + 128
    rw [e1]; omega

/-- After region 3 its output array is the whole product of its two input arrays. -/
theorem final3 (c : Dev nD) :
    (dat3 (F := Ideal) V c).arrAt 2 cfg3.N = Cert.Gcn.lin128 (F := Ideal) (V c (Pipeline.arrRef spec3 0)) (V c (Pipeline.arrRef spec3 1)) :=
  (dat3 (F := Ideal) V c).arrAt_eq_of_cover 2 _ (fun t _ => flushed3_eq V c t) cover3

/-! ## Region 6: the product at width 64 -/

/-- The body's product of a row block at (p, q), 64 columns: the sum over k of x(p, k) · w(k, q) (the cast of the block
    to its own shape and the narrowing casts are the identity, the accumulator is zero). -/
theorem blockProd64_apply (x : Vec Ideal S5000x128 .f32) (w : Vec Ideal S128x64 .f32) (p : Fin 5000) (q : Fin 64) :
    Gen.k6_pay1 (F := Ideal) x w (ix2 p q) = ∑ k : Fin 128, (x (ix2 p k) : EReal) * (w (ix2 k q) : EReal) := by
  unfold Gen.k6_pay1
  refine (Ideal.matmul_constant_zero_apply dot_S5000x128_S128x64_S5000x64_1_0_0_1_n_n none _ _ (ix2 p q)).trans ?_
  refine (sum_contr_plain dot_S5000x128_S128x64_S5000x64_1_0_0_1_n_n rfl rfl rfl rfl rfl rfl rfl rfl _ _ p q).trans ?_
  exact Finset.sum_congr rfl fun k _ => congrArg (· * (w (ix2 k q) : EReal))
    (congrFun (shapeCast_self x Facts₀.shapeCasts_S5000x128_S5000x128) (ix2 p k))

/-- The whole product at (r, q), 64 columns: the same sum over the whole arrays. -/
theorem lin64_apply (X : FVec Ideal S50000x128 .f32) (W : FVec Ideal S128x64 .f32) (r : Fin 50000) (q : Fin 64) :
    Cert.Gcn.lin64 (F := Ideal) X W (ix2 r q) = ∑ k : Fin 128, (X (ix2 r k) : EReal) * (W (ix2 k q) : EReal) := by
  unfold Cert.Gcn.lin64
  refine (Ideal.dotGeneral_apply Cert.ReferenceIdeal.dot_S50000x128_S128x64_S50000x64_1_0_0_1_n_n none .single X W (ix2 r q)).trans ?_
  exact sum_contr_plain Cert.ReferenceIdeal.dot_S50000x128_S128x64_S50000x64_1_0_0_1_n_n rfl rfl rfl rfl rfl rfl rfl rfl X W r q

/-- A BLOCKED PRODUCT IS THE WHOLE PRODUCT'S ROWS, at 64 columns. -/
theorem blockProd64_eq (X : FVec Ideal S50000x128 .f32) (W : FVec Ideal S128x64 .f32)
    (x : Vec Ideal S5000x128 .f32) (w : Vec Ideal S128x64 .f32) (y : S5000x64.Idx) (i : S50000x64.Idx)
    (hx : ∀ (y' : S5000x128.Idx) (i' : S50000x128.Idx), (y' 0).val = (y 0).val → (i' 0).val = (i 0).val →
      (i' 1).val = (y' 1).val → x y' = X i')
    (hw : w = W) (h1 : (i 1).val = (y 1).val) :
    Gen.k6_pay1 (F := Ideal) x w y = Cert.Gcn.lin64 (F := Ideal) X W i := by
  obtain ⟨p, q, rfl⟩ : ∃ (p : Fin 5000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext h1
  rw [blockProd64_apply, lin64_apply, hw]
  exact Finset.sum_congr rfl fun k _ => congrArg (· * (W (ix2 k q') : EReal)) (hx (ix2 p k) (ix2 r k) rfl rfl rfl)

/-- The printed index maps of region 6, decided over the grid. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The row window's block at point t is rows 5000·t … 5000·t + 4999 of its array. -/
theorem xblock6_apply (c : Dev nD) (t : Fin cfg6.N) (y : S5000x128.Idx) (i : S50000x128.Idx)
    (h0 : (i 0).val = 5000 * t.val + (y 0).val) (h1 : (i 1).val = (y 1).val) :
    (iblk6 V c 0 t : Vec Ideal S5000x128 .f32) y = (V c (Pipeline.arrRef spec6 0) : S50000x128.Idx → Elt Ideal .f32) i := by
  obtain ⟨e0, e1, -⟩ := idx_facts6 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * (y 0).val = (i 0).val; rw [e0, h0]; omega
  | ⟨1, _⟩ => show win6_0.index t (1 : Fin 2) * 128 + 1 * (y 1).val = (i 1).val; rw [e1, h1]; omega

/-- The weight window's block at every point is its whole array. -/
theorem wblock6_eq (c : Dev nD) (t : Fin cfg6.N) :
    (iblk6 V c 1 t : Vec Ideal S128x64 .f32) = (V c (Pipeline.arrRef spec6 1) : S128x64.Idx → Elt Ideal .f32) := by
  obtain ⟨-, -, e0, e1, -⟩ := idx_facts6 t
  funext y
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 128 + 1 * (y 0).val = (y 0).val; rw [e0]; omega
  | ⟨1, _⟩ => show win6_1.index t (1 : Fin 2) * 64 + 1 * (y 1).val = (y 1).val; rw [e1]; omega

/-- WHAT POINT t WRITES BACK is block t of the whole product of the arrays as the region finds them. -/
theorem flushed6_eq (c : Dev nD) (t : Fin cfg6.N) :
    (dat6 (F := Ideal) V c).flushed 2 t = ((cfg6.win 2).blk t).view.read (Elt Ideal)
      (Cert.Gcn.lin64 (F := Ideal) (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero hz]
  simp only [View.ld_unit_zero (S := S5000x128) hz, View.ld_unit_zero (S := S128x64) hz]
  obtain ⟨-, -, -, -, e0, e1⟩ := idx_facts6 t
  funext j
  show Gen.k6_pay1 (F := Ideal) (iblk6 V c 0 t) (iblk6 V c 1 t) j
    = Cert.Gcn.lin64 (F := Ideal) (V c (Pipeline.arrRef spec6 0)) (V c (Pipeline.arrRef spec6 1)) (((cfg6.win 2).blk t).view.emb j)
  have hj0 : ((((cfg6.win 2).blk t).view.emb j) 0).val = 5000 * t.val + (j 0).val := by
    show win6_2.index t (0 : Fin 2) * 5000 + 1 * (j 0).val = _; rw [e0]; omega
  have hj1 : ((((cfg6.win 2).blk t).view.emb j) 1).val = (j 1).val := by
    show win6_2.index t (1 : Fin 2) * 64 + 1 * (j 1).val = _; rw [e1]; omega
  refine blockProd64_eq _ _ _ _ j _ (fun y' i' h0 h0' h1' => xblock6_apply V c t y' i' ?_ h1') (wblock6_eq V c t) hj1
  rw [h0', hj0, h0]

/-- An index of the output array is in point t's block iff each coordinate is in the block's range on its axis. -/
theorem mem_blk6 (t : Fin cfg6.N) (i : S50000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v66).slice (win6_2.rect t)).set ↔ _
  rw [View.set_slice_whole, Rect.mem_set_unit]
  exact Iff.rfl

/-- Every row r of the output array is in the block of point r / 5000. -/
theorem cover6 (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hN : grid6.N = 10 := N_6
  let t : Fin cfg6.N := ⟨(i 0).val / 5000, by show (i 0).val / 5000 < grid6.N; rw [hN]; omega⟩
  have ht : t.val = (i 0).val / 5000 := rfl
  obtain ⟨-, -, -, -, e0, e1⟩ := idx_facts6 t
  refine ⟨t, flush6_2 t, ?_⟩
  rw [mem_blk6]
  intro a
  match a with
  | ⟨0, _⟩ =>
    show win6_2.index t (0 : Fin 2) * 5000 ≤ (i 0).val ∧ (i 0).val < win6_2.index t (0 : Fin 2) * 5000 + 5000
    rw [e0, ht]; omega
  | ⟨1, _⟩ =>
    show win6_2.index t (1 : Fin 2) * 64 ≤ (i 1).val ∧ (i 1).val < win6_2.index t (1 : Fin 2) * 64 + 64
    rw [e1]; omega

/-- After region 6 its output array is the whole product (64 columns) of its two input arrays. -/
theorem final6 (c : Dev nD) :
    (dat6 (F := Ideal) V c).arrAt 2 cfg6.N = Cert.Gcn.lin64 (F := Ideal) (V c (Pipeline.arrRef spec6 0)) (V c (Pipeline.arrRef spec6 1)) :=
  (dat6 (F := Ideal) V c).arrAt_eq_of_cover 2 _ (fun t _ => flushed6_eq V c t) cover6

end Cert.Gcn.RegLin

end
-- ==== Proof.RegComb.lean ====
/-
  The combine regions (agg + h · invs² + b on row blocks of 5000): after the region its output array is the whole combination.

  Each of the ten grid points takes one block of 5000 rows of agg and of h, the matching 5000 entries of the self-loop scale
  invs² (held as a column), and the whole bias (held as a row), and stores x + h · column + row. Entry (p, q) of block t is
  entry (5000 t + p, q) of the arrays, so what point t stores is block t of the one function agg + h · invs² + b of the
  whole arrays; the ten blocks cover the 50000 rows, hence the output array is that function. Regions 1 and 4 are this at
  width 128, region 7 at width 64.
-/
import proofs.«425463_j10161892623141_1_alg».proof.Proof.Spec
import proofs.«425463_j10161892623141_1_alg».proof.Proof.Gen.KernelIdeal.Frame
import Idealize.ShloMosaic.Lib.Pipeline.Value
import Idealize.ShloMosaic.Lib.ValueIdx
import Idealize.ShloMosaic.Lib.ValueLayout

noncomputable section

namespace Cert.Gcn.RegComb

open Idealize.ShloMosaic Idealize.ShloMosaic.TcCoe Idealize.SL.Sem Idealize.ShloMosaic.ValueIdx
open Cert.KernelIdeal Cert.KernelIdeal.Gen Cert.KernelIdeal.Facts₀ Cert.KernelIdeal.Facts

/-! ## Layout operations read at an index -/

section Layout
variable {α : Type}

/-- A vector of length `a` set as the one column of `[a, 1]`, that column laid across `b` columns: at row `r` it reads the
    vector's entry `r`, whatever the column. -/
theorem bcast_col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1])
    (i : (⟨2, ![a, b]⟩ : Shape).Idx) (r : Fin a) (hr : (i 0).val = r.val) :
    broadcastInDim ⟨2, ![a, b]⟩ ![0, 1] h2 (broadcastInDim ⟨2, ![a, 1]⟩ ![0] h1 v) i = v (ix1 r) := by
  refine (broadcastInDim_apply _ h2 _ i (ix2 r (0 : Fin 1)) fun ax => ?_).trans
    (broadcastInDim_apply _ h1 v (ix2 r (0 : Fin 1)) (ix1 r) fun ax => ?_)
  · match ax with
    | ⟨0, _⟩ =>
      show r.val = if a = 1 then 0 else (i 0).val
      split
      · have := r.isLt; omega
      · exact hr.symm
    | ⟨1, _⟩ => rfl
  · match ax with
    | ⟨0, _⟩ =>
      show r.val = if a = 1 then 0 else r.val
      split
      · have := r.isLt; omega
      · rfl

/-- A vector of length `b` set as the one row of `[1, b]`, that row laid down `a` rows: at column `q` it reads the vector's
    entry `q`, whatever the row. -/
theorem bcast_row_apply {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (i : (⟨2, ![a, b]⟩ : Shape).Idx) (q : Fin b) (hq : (i 1).val = q.val) :
    broadcastInDim ⟨2, ![a, b]⟩ ![0, 1] h2 (broadcastInDim ⟨2, ![1, b]⟩ ![1] h1 v) i = v (ix1 q) := by
  refine (broadcastInDim_apply _ h2 _ i (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if b = 1 then 0 else (i 1).val
      split
      · have := q.isLt; omega
      · exact hq.symm
  · match ax with
    | ⟨0, _⟩ =>
      show q.val = if b = 1 then 0 else q.val
      split
      · have := q.isLt; omega
      · rfl

/-- The one column of an `[a, 1]` block laid across `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` recast as the column `[a, 1]` reads, at row `r`, its entry `r`: the two row-major positions
    are `r` and `r · 1 + 0`. -/
theorem shapeCast_col_apply {a : ℕ} (v : (⟨1, ![a]⟩ : Shape).Idx → α) (h : (⟨1, ![a]⟩ : Shape).ShapeCasts ⟨2, ![a, 1]⟩)
    (i : (⟨2, ![a, 1]⟩ : Shape).Idx) (r : Fin a) (hr : (i 0).val = r.val) :
    shapeCast ⟨2, ![a, 1]⟩ v h i = v (ix1 r) := by
  refine shapeCast_apply v h i (ix1 r) ?_
  rw [Shape.rowMajor_val_one, Shape.rowMajor_val_two]
  show r.val = (i 0).val * 1 + (i 1).val
  have : (i 1).val < 1 := (i 1).isLt
  omega

/-- A vector of length `b` recast as the row `[1, b]` reads, at column `q`, its entry `q`: the two row-major positions
    are `q` and `0 · b + q`. -/
theorem shapeCast_row_apply {b : ℕ} (v : (⟨1, ![b]⟩ : Shape).Idx → α) (h : (⟨1, ![b]⟩ : Shape).ShapeCasts ⟨2, ![1, b]⟩)
    (i : (⟨2, ![1, b]⟩ : Shape).Idx) (q : Fin b) (hq : (i 1).val = q.val) :
    shapeCast ⟨2, ![1, b]⟩ v h i = v (ix1 q) := by
  refine shapeCast_apply v h i (ix1 q) ?_
  rw [Shape.rowMajor_val_one, Shape.rowMajor_val_two]
  show q.val = (i 0).val * b + (i 1).val
  have : (i 0).val < 1 := (i 0).isLt
  have h0 : (i 0).val = 0 := by omega
  rw [h0, hq]; omega

end Layout

/-! ## The combination at an index, width 128 -/

/-- The whole combination at row `r`, column `q`: agg + h · invs(r)² + b(q). -/
theorem comb128_at (agg h : FVec Ideal S50000x128 .f32) (invs : FVec Ideal S50000 .f32) (b : FVec Ideal S128 .f32)
    (i : S50000x128.Idx) (r : Fin 50000) (q : Fin 128) (hr : (i 0).val = r.val) (hq : (i 1).val = q.val) :
    Cert.Gcn.comb128 (F := Ideal) agg h invs b i = agg i + h i * (invs (ix1 r) * invs (ix1 r)) + b (ix1 q) := by
  unfold Cert.Gcn.comb128
  rw [addf_apply, addf_apply, mulf_apply]
  rw [bcast_col_apply (mulf invs invs) _ _ i r hr, bcast_row_apply b _ _ i q hq, mulf_apply]

/-- The body's arithmetic at `(p, q)` of a block: x + h · s(p) + b(q), the scale read in its one column, the bias in its
    one row (the recasts to the same shape are the identity). -/
theorem pay128_at (s : Vec Ideal S5000x1 .f32) (bb : Vec Ideal S1x128 .f32) (x hh : Vec Ideal S5000x128 .f32) (p : Fin 5000) (q : Fin 128) :
    k1_pay1 (F := Ideal) s bb x hh (ix2 p q) = x (ix2 p q) + hh (ix2 p q) * s (ix2 p (0 : Fin 1)) + bb (ix2 (0 : Fin 1) q) := by
  unfold k1_pay1
  simp only [shapeCast_self]
  rw [addf_apply, addf_apply, mulf_apply, broadcastTo_a1_ab_apply, broadcastTo_1b_ab_apply]

/-- One entry of a block: when the block entries are the arrays' entries at the array index `i` = (r, q), the body's
    arithmetic there is the whole combination at `i`. -/
theorem point128 (agg h : FVec Ideal S50000x128 .f32) (invs : FVec Ideal S50000 .f32) (b : FVec Ideal S128 .f32)
    (s : Vec Ideal S5000x1 .f32) (bb : Vec Ideal S1x128 .f32) (x hh : Vec Ideal S5000x128 .f32)
    (p : Fin 5000) (q : Fin 128) (i : S50000x128.Idx) (r : Fin 50000) (hr : (i 0).val = r.val) (hq : (i 1).val = q.val)
    (hx : x (ix2 p q) = agg i) (hhh : hh (ix2 p q) = h i)
    (hs : s (ix2 p (0 : Fin 1)) = invs (ix1 r) * invs (ix1 r)) (hb : bb (ix2 (0 : Fin 1) q) = b (ix1 q)) :
    k1_pay1 (F := Ideal) s bb x hh (ix2 p q) = Cert.Gcn.comb128 (F := Ideal) agg h invs b i := by
  rw [pay128_at, comb128_at agg h invs b i r q hr hq, hx, hhh, hs, hb]

/-! ## The combination at an index, width 64 -/

/-- The whole combination at row `r`, column `q`: agg + h · invs(r)² + b(q). -/
theorem comb64_at (agg h : FVec Ideal S50000x64 .f32) (invs : FVec Ideal S50000 .f32) (b : FVec Ideal S64 .f32)
    (i : S50000x64.Idx) (r : Fin 50000) (q : Fin 64) (hr : (i 0).val = r.val) (hq : (i 1).val = q.val) :
    Cert.Gcn.comb64 (F := Ideal) agg h invs b i = agg i + h i * (invs (ix1 r) * invs (ix1 r)) + b (ix1 q) := by
  unfold Cert.Gcn.comb64
  rw [addf_apply, addf_apply, mulf_apply]
  rw [bcast_col_apply (mulf invs invs) _ _ i r hr, bcast_row_apply b _ _ i q hq, mulf_apply]

/-- The body's arithmetic at `(p, q)` of a block of width 64. -/
theorem pay64_at (s : Vec Ideal S5000x1 .f32) (bb : Vec Ideal S1x64 .f32) (x hh : Vec Ideal S5000x64 .f32) (p : Fin 5000) (q : Fin 64) :
    k7_pay1 (F := Ideal) s bb x hh (ix2 p q) = x (ix2 p q) + hh (ix2 p q) * s (ix2 p (0 : Fin 1)) + bb (ix2 (0 : Fin 1) q) := by
  unfold k7_pay1
  simp only [shapeCast_self]
  rw [addf_apply, addf_apply, mulf_apply, broadcastTo_a1_ab_apply, broadcastTo_1b_ab_apply]

/-- One entry of a block of width 64 against the whole combination at the array index `i` = (r, q). -/
theorem point64 (agg h : FVec Ideal S50000x64 .f32) (invs : FVec Ideal S50000 .f32) (b : FVec Ideal S64 .f32)
    (s : Vec Ideal S5000x1 .f32) (bb : Vec Ideal S1x64 .f32) (x hh : Vec Ideal S5000x64 .f32)
    (p : Fin 5000) (q : Fin 64) (i : S50000x64.Idx) (r : Fin 50000) (hr : (i 0).val = r.val) (hq : (i 1).val = q.val)
    (hx : x (ix2 p q) = agg i) (hhh : hh (ix2 p q) = h i)
    (hs : s (ix2 p (0 : Fin 1)) = invs (ix1 r) * invs (ix1 r)) (hb : bb (ix2 (0 : Fin 1) q) = b (ix1 q)) :
    k7_pay1 (F := Ideal) s bb x hh (ix2 p q) = Cert.Gcn.comb64 (F := Ideal) agg h invs b i := by
  rw [pay64_at, comb64_at agg h invs b i r q hr hq, hx, hhh, hs, hb]

/-! ## From the blocks to the array -/

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-! ### Region 1 -/

/-- The index maps over the ten points: the row-block windows move with the output's row block, whose index is the
    point's number; the bias window stays at its one block; every window has one column block. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 1000000 in
/-- What point `t` writes back is block `t` of the whole combination of the arrays as the region finds them: entry (p, q)
    of each row-block window is the array's entry (5000 t + p, q), the scale column's entry p is invs(5000 t + p)², the
    bias row's entry q is b(q). -/
theorem flushed1_eq (c : Dev nD) (invs : FVec Ideal S50000 .f32) (b : FVec Ideal S128 .f32)
    (hs : V c (Pipeline.arrRef spec1 2) = shapeCast S50000x1 (mulf invs invs) Facts₀.shapeCasts_S50000_S50000x1)
    (hb : V c (Pipeline.arrRef spec1 3) = shapeCast S1x128 b Facts₀.shapeCasts_S128_S1x128) (t : Fin cfg1.N) :
    (dat1 (F := Ideal) V c).flushed 4 t = ((cfg1.win 4).blk t).view.read (Elt Ideal)
      (Cert.Gcn.comb128 (F := Ideal) (V c (Pipeline.arrRef spec1 0)) (V c (Pipeline.arrRef spec1 1)) invs b) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41⟩ := idx_facts1 t
  funext j
  obtain ⟨p, q, rfl⟩ : ∃ (p : Fin 5000) (q : Fin 128), j = ix2 p q := ⟨j 0, j 1, eq_ix2 j⟩
  have hp : p.val < 5000 := p.isLt
  have ht : t.val < 10 := Nat.lt_of_lt_of_eq t.isLt N_1
  show k1_pay1 (F := Ideal) (iblk1 V c 2 t) (iblk1 V c 3 t) (iblk1 V c 0 t) (iblk1 V c 1 t) (ix2 p q)
    = Cert.Gcn.comb128 (F := Ideal) (V c (Pipeline.arrRef spec1 0)) (V c (Pipeline.arrRef spec1 1)) invs b (((cfg1.win 4).blk t).view.emb (ix2 p q))
  refine point128 (V c (Pipeline.arrRef spec1 0)) (V c (Pipeline.arrRef spec1 1)) invs b (iblk1 V c 2 t) (iblk1 V c 3 t) (iblk1 V c 0 t) (iblk1 V c 1 t)
    p q (((cfg1.win 4).blk t).view.emb (ix2 p q)) ⟨t.val * 5000 + p.val, by omega⟩ ?_ ?_ ?_ ?_ ?_ ?_
  · show win1_4.index t (0 : Fin 2) * 5000 + 1 * p.val = t.val * 5000 + p.val
    omega
  · show win1_4.index t (1 : Fin 2) * 128 + 1 * q.val = q.val
    omega
  · show V c (Pipeline.arrRef spec1 0) (((cfg1.win 0).blk t).view.emb (ix2 p q)) = V c (Pipeline.arrRef spec1 0) (((cfg1.win 4).blk t).view.emb (ix2 p q))
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  · show V c (Pipeline.arrRef spec1 1) (((cfg1.win 1).blk t).view.emb (ix2 p q)) = V c (Pipeline.arrRef spec1 1) (((cfg1.win 4).blk t).view.emb (ix2 p q))
    refine congrArg _ (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  · show V c (Pipeline.arrRef spec1 2) (((cfg1.win 2).blk t).view.emb (ix2 p (0 : Fin 1))) = _
    rw [hs]
    refine (shapeCast_col_apply (mulf invs invs) _ _ ⟨t.val * 5000 + p.val, by omega⟩ ?_).trans (mulf_apply _ _ _)
    show win1_2.index t (0 : Fin 2) * 5000 + 1 * p.val = t.val * 5000 + p.val
    omega
  · show V c (Pipeline.arrRef spec1 3) (((cfg1.win 3).blk t).view.emb (ix2 (0 : Fin 1) q)) = _
    rw [hb]
    refine shapeCast_row_apply b _ _ q ?_
    show win1_3.index t (1 : Fin 2) * 128 + 1 * q.val = q.val
    omega

/-- An index of the array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v37).slice (win1_4.rect t)).set ↔ _
  rw [View.set_slice_whole, Rect.mem_set_unit]
  exact Iff.rfl

/-- Row `r` lies in the block of point `r / 5000`. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hlt : (i 0).val / 5000 < cfg1.N := by rw [show cfg1.N = 10 from N_1]; omega
  refine ⟨⟨(i 0).val / 5000, hlt⟩, flush1_4 _, ?_⟩
  rw [mem_blk1]
  obtain ⟨-, -, -, -, -, -, -, -, e40, e41⟩ := idx_facts1 ⟨(i 0).val / 5000, hlt⟩
  have e40' : win1_4.index ⟨(i 0).val / 5000, hlt⟩ (0 : Fin 2) = (i 0).val / 5000 := e40
  intro a
  match a with
  | ⟨0, _⟩ =>
    show win1_4.index _ (0 : Fin 2) * 5000 ≤ (i 0).val ∧ (i 0).val < win1_4.index _ (0 : Fin 2) * 5000 + 5000
    rw [e40']; omega
  | ⟨1, _⟩ =>
    show win1_4.index _ (1 : Fin 2) * 128 ≤ (i 1).val ∧ (i 1).val < win1_4.index _ (1 : Fin 2) * 128 + 128
    rw [e41]; omega

/-- After region 1 the output array is the whole combination: the ten blocks written are its blocks and cover the rows. -/
theorem final1 (c : Dev nD) (invs : FVec Ideal S50000 .f32) (b : FVec Ideal S128 .f32)
    (hs : V c (Pipeline.arrRef spec1 2) = shapeCast S50000x1 (mulf invs invs) Facts₀.shapeCasts_S50000_S50000x1)
    (hb : V c (Pipeline.arrRef spec1 3) = shapeCast S1x128 b Facts₀.shapeCasts_S128_S1x128) :
    (dat1 (F := Ideal) V c).arrAt 4 cfg1.N
      = Cert.Gcn.comb128 (F := Ideal) (V c (Pipeline.arrRef spec1 0)) (V c (Pipeline.arrRef spec1 1)) invs b :=
  (dat1 (F := Ideal) V c).arrAt_eq_of_cover 4
    (Cert.Gcn.comb128 (F := Ideal) (V c (Pipeline.arrRef spec1 0)) (V c (Pipeline.arrRef spec1 1)) invs b)
    (fun t _ => flushed1_eq V c invs b hs hb t) cover1

/-! ### Region 4: the same body at the second layer's arrays -/

/-- Region 4's body is the same arithmetic as region 1's. -/
theorem pay4_eq (s : Vec Ideal S5000x1 .f32) (bb : Vec Ideal S1x128 .f32) (x hh : Vec Ideal S5000x128 .f32) :
    k4_pay1 (F := Ideal) s bb x hh = k1_pay1 (F := Ideal) s bb x hh := rfl

/-- The index maps over the ten points, as in region 1. -/
theorem idx_facts4 : ∀ t : Fin cfg4.N,
    win4_0.index t (0 : Fin 2) = win4_4.index t (0 : Fin 2) ∧ win4_0.index t (1 : Fin 2) = 0
    ∧ win4_1.index t (0 : Fin 2) = win4_4.index t (0 : Fin 2) ∧ win4_1.index t (1 : Fin 2) = 0
    ∧ win4_2.index t (0 : Fin 2) = win4_4.index t (0 : Fin 2) ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

set_option maxHeartbeats 1000000 in
/-- What point `t` writes back is block `t` of the whole combination of the second layer's arrays. -/
theorem flushed4_eq (c : Dev nD) (invs : FVec Ideal S50000 .f32) (b : FVec Ideal S128 .f32)
    (hs : V c (Pipeline.arrRef spec4 2) = shapeCast S50000x1 (mulf invs invs) Facts₀.shapeCasts_S50000_S50000x1)
    (hb : V c (Pipeline.arrRef spec4 3) = shapeCast S1x128 b Facts₀.shapeCasts_S128_S1x128) (t : Fin cfg4.N) :
    (dat4 (F := Ideal) V c).flushed 4 t = ((cfg4.win 4).blk t).view.read (Elt Ideal)
      (Cert.Gcn.comb128 (F := Ideal) (V c (Pipeline.arrRef spec4 0)) (V c (Pipeline.arrRef spec4 1)) invs b) := by
  show (cfg4.win 4).cut (grid4.coords t) ((dat4 (F := Ideal) V c).after 4 t) = _
  rw [after4_4]
  unfold out4_4
  rw [View.canon_unit_zero hz]
  simp only [View.ld_unit_zero (S := S5000x128) hz, View.ld_unit_zero (S := S5000x1) hz, View.ld_unit_zero (S := S1x128) hz]
  rw [pay4_eq]
  obtain ⟨e00, e01, e10, e11, e20, e21, e30, e31, e40, e41⟩ := idx_facts4 t
  funext j
  obtain ⟨p, q, rfl⟩ : ∃ (p : Fin 5000) (q : Fin 128), j = ix2 p q := ⟨j 0, j 1, eq_ix2 j⟩
  have hp : p.val < 5000 := p.isLt
  have ht : t.val < 10 := Nat.lt_of_lt_of_eq t.isLt N_4
  show k1_pay1 (F := Ideal) (iblk4 V c 2 t) (iblk4 V c 3 t) (iblk4 V c 0 t) (iblk4 V c 1 t) (ix2 p q)
    = Cert.Gcn.comb128 (F := Ideal) (V c (Pipeline.arrRef spec4 0)) (V c (Pipeline.arrRef spec4 1)) invs b (((cfg4.win 4).blk t).view.emb (ix2 p q))
  refine point128 (V c (Pipeline.arrRef spec4 0)) (V c (Pipeline.arrRef spec4 1)) invs b (iblk4 V c 2 t) (iblk4 V c 3 t) (iblk4 V c 0 t) (iblk4 V c 1 t)
    p q (((cfg4.win 4).blk t).view.emb (ix2 p q)) ⟨t.val * 5000 + p.val, by omega⟩ ?_ ?_ ?_ ?_ ?_ ?_
  · show win4_4.index t (0 : Fin 2) * 5000 + 1 * p.val = t.val * 5000 + p.val
    omega
  · show win4_4.index t (1 : Fin 2) * 128 + 1 * q.val = q.val
    omega
  · show V c (Pipeline.arrRef spec4 0) (((cfg4.win 0).blk t).view.emb (ix2 p q)) = V c (Pipeline.arrRef spec4 0) (((cfg4.win 4).blk t).view.emb (ix2 p q))
    refine congrArg _ (funext fun a => Fin.ext ?_)
    match a with
    | ⟨0, _⟩ => show win4_0.index t (0 : Fin 2) * 5000 + 1 * p.val = win4_4.index t (0 : Fin 2) * 5000 + 1 * p.val; omega
    | ⟨1, _⟩ => show win4_0.index t (1 : Fin 2) * 128 + 1 * q.val = win4_4.index t (1 : Fin 2) * 128 + 1 * q.val; omega
  · show V c (Pipeline.arrRef spec4 1) (((cfg4.win 1).blk t).view.emb (ix2 p q)) = V c (Pipeline.arrRef spec4 1) (((cfg4.win 4).blk t).view.emb (ix2 p q))
    refine congrArg _ (funext fun a => Fin.ext ?_)
    match a with
    | ⟨0, _⟩ => show win4_1.index t (0 : Fin 2) * 5000 + 1 * p.val = win4_4.index t (0 : Fin 2) * 5000 + 1 * p.val; omega
    | ⟨1, _⟩ => show win4_1.index t (1 : Fin 2) * 128 + 1 * q.val = win4_4.index t (1 : Fin 2) * 128 + 1 * q.val; omega
  · show V c (Pipeline.arrRef spec4 2) (((cfg4.win 2).blk t).view.emb (ix2 p (0 : Fin 1))) = _
    rw [hs]
    refine (shapeCast_col_apply (mulf invs invs) _ _ ⟨t.val * 5000 + p.val, by omega⟩ ?_).trans (mulf_apply _ _ _)
    show win4_2.index t (0 : Fin 2) * 5000 + 1 * p.val = t.val * 5000 + p.val
    omega
  · show V c (Pipeline.arrRef spec4 3) (((cfg4.win 3).blk t).view.emb (ix2 (0 : Fin 1) q)) = _
    rw [hb]
    refine shapeCast_row_apply b _ _ q ?_
    show win4_3.index t (1 : Fin 2) * 128 + 1 * q.val = q.val
    omega

/-- An index of the array is in point `t`'s block iff each coordinate is in the block's range on its axis. -/
theorem mem_blk4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v56).slice (win4_4.rect t)).set ↔ _
  rw [View.set_slice_whole, Rect.mem_set_unit]
  exact Iff.rfl

/-- Row `r` lies in the block of point `r / 5000`. -/
theorem cover4 (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  have hlt : (i 0).val / 5000 < cfg4.N := by rw [show cfg4.N = 10 from N_4]; omega
  refine ⟨⟨(i 0).val / 5000, hlt⟩, flush4_4 _, ?_⟩
  rw [mem_blk4]
  obtain ⟨-, -, -, -, -, -, -, -, e40, e41⟩ := idx_facts4 ⟨(i 0).val / 5000, hlt⟩
  have e40' : win4_4.index ⟨(i 0).val / 5000, hlt⟩ (0 : Fin 2) = (i 0).val / 5000 := e40
  intro a
  match a with
  | ⟨0, _⟩ =>
    show win4_4.index _ (0 : Fin 2) * 5000 ≤ (i 0).val ∧ (i 0).val < win4_4.index _ (0 : Fin 2) * 5000 + 5000
    rw [e40']; omega
  | ⟨1, _⟩ =>
    show win4_4.index _ (1 : Fin 2) * 128 ≤ (i 1).val ∧ (i 1).val < win4_4.index _ (1 : Fin 2) * 128 + 128
    rw [e41]; omega

/-- After region 4 the output array is the whole combination of the second layer's arrays. -/
theorem final4 (c : Dev nD) (invs : FVec Ideal S50000 .f32) (b : FVec Ideal S128 .f32)
    (hs : V c (Pipeline.arrRef spec4 2) = shapeCast S50000x1 (mulf invs invs) Facts₀.shapeCasts_S50000_S50000x1)
    (hb : V c (Pipeline.arrRef spec4 3) = shapeCast S1x128 b Facts₀.shapeCasts_S128_S1x128) :
    (dat4 (F := Ideal) V c).arrAt 4 cfg4.N
      = Cert.Gcn.comb128 (F := Ideal) (V c (Pipeline.arrRef spec4 0)) (V c (Pipeline.arrRef spec4 1)) invs b :=
  (dat4 (F := Ideal) V c).arrAt_eq_of_cover 4
    (Cert.Gcn.comb128 (F := Ideal) (V c (Pipeline.arrRef spec4 0)) (V c (Pipeline.arrRef spec4 1)) invs b)
    (fun t _ => flushed4_eq V c invs b hs hb t) cover4

/-! ### Region 7: the last layer, width 64 -/

/-- The index maps over the ten points, as in region 1. -/
theorem idx_facts7 : ∀ t : Fin cfg7.N,
    win7_0.index t (0 : Fin 2) = win7_4.index t (0 : Fin 2) ∧ win7_0.index t (1 : Fin 2) = 0
    ∧ win7_1.index t (0 : Fin 2) = win7_4.index t (0 : Fin 2) ∧ win7_1.index t (1 : Fin 2) = 0
    ∧ win7_2.index t (0 : Fin 2) = win7_4.index t (0 : Fin 2) ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

set_option maxHeartbeats 1000000 in
/-- What point `t` writes back is block `t` of the whole combination at width 64. -/
theorem flushed7_eq (c : Dev nD) (invs : FVec Ideal S50000 .f32) (b : FVec Ideal S64 .f32)
    (hs : V c (Pipeline.arrRef spec7 2) = shapeCast S50000x1 (mulf invs invs) Facts₀.shapeCasts_S50000_S50000x1)
    (hb : V c (Pipeline.arrRef spec7 3) = shapeCast S1x64 b Facts₀.shapeCasts_S64_S1x64) (t : Fin cfg7.N) :
    (dat7 (F := Ideal) V c).flushed 4 t = ((cfg7.win 4).blk t).view.read (Elt Ideal)
      (Cert.Gcn.comb64 (F := Ideal) (V c (Pipeline.arrRef spec7 0)) (V c (Pipeline.arrRef spec7 1)) invs b) := by
  show (cfg7.win 4).cut (grid7.coords t) ((dat7 (F := Ideal) V c).after 4 t) = _
  rw [after7_4]
  unfold out7_4
  rw [View.canon_unit_zero hz]
  simp only [View.ld_unit_zero (S := S5000x64) hz, View.ld_unit_zero (S := S5000x1) hz, View.ld_unit_zero (S := S1x64) hz]
  obtain ⟨e00, e01, e10, e11, e20, e21, e30, e31, e40, e41⟩ := idx_facts7 t
  funext j
  obtain ⟨p, q, rfl⟩ : ∃ (p : Fin 5000) (q : Fin 64), j = ix2 p q := ⟨j 0, j 1, eq_ix2 j⟩
  have hp : p.val < 5000 := p.isLt
  have ht : t.val < 10 := Nat.lt_of_lt_of_eq t.isLt N_7
  show k7_pay1 (F := Ideal) (iblk7 V c 2 t) (iblk7 V c 3 t) (iblk7 V c 0 t) (iblk7 V c 1 t) (ix2 p q)
    = Cert.Gcn.comb64 (F := Ideal) (V c (Pipeline.arrRef spec7 0)) (V c (Pipeline.arrRef spec7 1)) invs b (((cfg7.win 4).blk t).view.emb (ix2 p q))
  refine point64 (V c (Pipeline.arrRef spec7 0)) (V c (Pipeline.arrRef spec7 1)) invs b (iblk7 V c 2 t) (iblk7 V c 3 t) (iblk7 V c 0 t) (iblk7 V c 1 t)
    p q (((cfg7.win 4).blk t).view.emb (ix2 p q)) ⟨t.val * 5000 + p.val, by omega⟩ ?_ ?_ ?_ ?_ ?_ ?_
  · show win7_4.index t (0 : Fin 2) * 5000 + 1 * p.val = t.val * 5000 + p.val
    omega
  · show win7_4.index t (1 : Fin 2) * 64 + 1 * q.val = q.val
    omega
  · show V c (Pipeline.arrRef spec7 0) (((cfg7.win 0).blk t).view.emb (ix2 p q)) = V c (Pipeline.arrRef spec7 0) (((cfg7.win 4).blk t).view.emb (ix2 p q))
    refine congrArg _ (funext fun a => Fin.ext ?_)
    match a with
    | ⟨0, _⟩ => show win7_0.index t (0 : Fin 2) * 5000 + 1 * p.val = win7_4.index t (0 : Fin 2) * 5000 + 1 * p.val; omega
    | ⟨1, _⟩ => show win7_0.index t (1 : Fin 2) * 64 + 1 * q.val = win7_4.index t (1 : Fin 2) * 64 + 1 * q.val; omega
  · show V c (Pipeline.arrRef spec7 1) (((cfg7.win 1).blk t).view.emb (ix2 p q)) = V c (Pipeline.arrRef spec7 1) (((cfg7.win 4).blk t).view.emb (ix2 p q))
    refine congrArg _ (funext fun a => Fin.ext ?_)
    match a with
    | ⟨0, _⟩ => show win7_1.index t (0 : Fin 2) * 5000 + 1 * p.val = win7_4.index t (0 : Fin 2) * 5000 + 1 * p.val; omega
    | ⟨1, _⟩ => show win7_1.index t (1 : Fin 2) * 64 + 1 * q.val = win7_4.index t (1 : Fin 2) * 64 + 1 * q.val; omega
  · show V c (Pipeline.arrRef spec7 2) (((cfg7.win 2).blk t).view.emb (ix2 p (0 : Fin 1))) = _
    rw [hs]
    refine (shapeCast_col_apply (mulf invs invs) _ _ ⟨t.val * 5000 + p.val, by omega⟩ ?_).trans (mulf_apply _ _ _)
    show win7_2.index t (0 : Fin 2) * 5000 + 1 * p.val = t.val * 5000 + p.val
    omega
  · show V c (Pipeline.arrRef spec7 3) (((cfg7.win 3).blk t).view.emb (ix2 (0 : Fin 1) q)) = _
    rw [hb]
    refine shapeCast_row_apply b _ _ q ?_
    show win7_3.index t (1 : Fin 2) * 64 + 1 * q.val = q.val
    omega

/-- An index of the array is in point `t`'s block iff each coordinate is in the block's range on its axis. -/
theorem mem_blk7 (t : Fin cfg7.N) (i : S50000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v75).slice (win7_4.rect t)).set ↔ _
  rw [View.set_slice_whole, Rect.mem_set_unit]
  exact Iff.rfl

/-- Row `r` lies in the block of point `r / 5000`. -/
theorem cover7 (i : S50000x64.Idx) : ∃ t : Fin cfg7.N, (cfg7.win 4).flush t = true ∧ i ∈ ((cfg7.win 4).blk t).view.set := by
  have hi0 : (i 0).val < 50000 := (i 0).isLt
  have hi1 : (i 1).val < 64 := (i 1).isLt
  have hlt : (i 0).val / 5000 < cfg7.N := by rw [show cfg7.N = 10 from N_7]; omega
  refine ⟨⟨(i 0).val / 5000, hlt⟩, flush7_4 _, ?_⟩
  rw [mem_blk7]
  obtain ⟨-, -, -, -, -, -, -, -, e40, e41⟩ := idx_facts7 ⟨(i 0).val / 5000, hlt⟩
  have e40' : win7_4.index ⟨(i 0).val / 5000, hlt⟩ (0 : Fin 2) = (i 0).val / 5000 := e40
  intro a
  match a with
  | ⟨0, _⟩ =>
    show win7_4.index _ (0 : Fin 2) * 5000 ≤ (i 0).val ∧ (i 0).val < win7_4.index _ (0 : Fin 2) * 5000 + 5000
    rw [e40']; omega
  | ⟨1, _⟩ =>
    show win7_4.index _ (1 : Fin 2) * 64 ≤ (i 1).val ∧ (i 1).val < win7_4.index _ (1 : Fin 2) * 64 + 64
    rw [e41]; omega

/-- After region 7 the output array is the whole combination at width 64. -/
theorem final7 (c : Dev nD) (invs : FVec Ideal S50000 .f32) (b : FVec Ideal S64 .f32)
    (hs : V c (Pipeline.arrRef spec7 2) = shapeCast S50000x1 (mulf invs invs) Facts₀.shapeCasts_S50000_S50000x1)
    (hb : V c (Pipeline.arrRef spec7 3) = shapeCast S1x64 b Facts₀.shapeCasts_S64_S1x64) :
    (dat7 (F := Ideal) V c).arrAt 4 cfg7.N
      = Cert.Gcn.comb64 (F := Ideal) (V c (Pipeline.arrRef spec7 0)) (V c (Pipeline.arrRef spec7 1)) invs b :=
  (dat7 (F := Ideal) V c).arrAt_eq_of_cover 4
    (Cert.Gcn.comb64 (F := Ideal) (V c (Pipeline.arrRef spec7 0)) (V c (Pipeline.arrRef spec7 1)) invs b)
    (fun t _ => flushed7_eq V c invs b hs hb t) cover7

end Cert.Gcn.RegComb

end
-- ==== Proof.RegBn.lean ====
/-
  The normalisation regions (max(g · (x - mean) · (var + ε)^(-1/2) + bt, 0) on row blocks of 5000, the column statistics given
  as 1×128 rows): after the region its output array is the whole normalised array.
-/
import proofs.«425463_j10161892623141_1_alg».proof.Proof.Spec
import proofs.«425463_j10161892623141_1_alg».proof.Proof.Gen.KernelIdeal.Frame
import Idealize.ShloMosaic.Lib.Pipeline.Value
import Idealize.ShloMosaic.Lib.ValueIdx
import Idealize.ShloMosaic.Lib.ValueLayout

noncomputable section

namespace Cert.Gcn.RegBn

open Idealize.ShloMosaic Idealize.ShloMosaic.TcCoe Idealize.SL.Sem Idealize.ShloMosaic.ValueIdx
open Cert.KernelIdeal Cert.KernelIdeal.Gen Cert.KernelIdeal.Facts₀ Cert.KernelIdeal.Facts

/-! ## At a row and a column -/

/-- A 128-vector reshaped to one row reads, anywhere on the row, the vector at the column. -/
theorem row_read (v : FVec Ideal S128 .f32) (k : S1x128.Idx) (q : Fin 128) (hk : (k 1).val = q.val) :
    shapeCast S1x128 v Facts₀.shapeCasts_S128_S1x128 k = v (ix1 q) := by
  obtain ⟨u, q', rfl⟩ : ∃ (u : Fin 1) (q' : Fin 128), k = ix2 u q' := ⟨k 0, k 1, eq_ix2 k⟩
  obtain rfl : q' = q := Fin.ext hk
  exact shapeCast_a_1a_apply v _ u q'

/-- A vector of column values laid along every row reads, at a row and a column, the vector at the column. -/
theorem rows128_apply (v : FVec Ideal Cert.ReferenceIdeal.S128 .f32) (r : Fin 50000) (q : Fin 128) :
    Cert.Gcn.rows128 (F := Ideal) v (ix2 r q) = v (ix1 q) := by
  unfold Cert.Gcn.rows128
  refine (broadcastInDim_apply _ _ _ (ix2 r q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- The whole normalised array at a row and a column: max(g · (x - mean) · (var + ε)^(-1/2) + bt, 0). -/
theorem bnApply_apply (h : FVec Ideal Cert.ReferenceIdeal.S50000x128 .f32) (mean var g bt : FVec Ideal Cert.ReferenceIdeal.S128 .f32)
    (r : Fin 50000) (q : Fin 128) :
    Cert.Gcn.bnApply (F := Ideal) h mean var g bt (ix2 r q)
      = max (g (ix1 q) * (h (ix2 r q) - mean (ix1 q))
            * Ideal.rsqrt (var (ix1 q) + Ideal.ofBits .f32 0x3727C5AC#32) + bt (ix1 q))
          (Ideal.ofBits .f32 0x00000000#32) := by
  unfold Cert.Gcn.bnApply
  rw [maximumf_apply, addf_apply, mulf_apply, mulf_apply, subf_apply, rows128_apply, rows128_apply, rows128_apply, rows128_apply]
  rfl

/-! ## The first normalisation region -/

/-- The body's stored value at a row and a column of the block: the same expression of the block's entry and the
    four rows' entries at the column (the reciprocal square root of the kernel and of the host are one function on the
    extended reals; the two ε and the two zeros are the same words). -/
theorem pay2_apply (vb mb gb bb : FVec Ideal S1x128 .f32) (xb : FVec Ideal S5000x128 .f32) (p : Fin 5000) (q : Fin 128) :
    Gen.k2_pay1 (F := Ideal) vb mb gb bb xb (ix2 p q)
      = max (gb (ix2 (0 : Fin 1) q) * (xb (ix2 p q) - mb (ix2 (0 : Fin 1) q))
            * Ideal.rsqrt (vb (ix2 (0 : Fin 1) q) + Ideal.ofBits .f32 0x3727C5AC#32) + bb (ix2 (0 : Fin 1) q))
          (Ideal.ofBits .f32 0x00000000#32) := by
  unfold Gen.k2_pay1
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

/-- One point of one block: when the block's entry is the array's at index `i`, in the same column, and each 1×128 row
    holds its 128-vector, the body's stored value is the whole normalised array at `i`. -/
theorem point2 (vb mb gb bb : FVec Ideal S1x128 .f32) (xb : FVec Ideal S5000x128 .f32)
    (X : FVec Ideal S50000x128 .f32) (mean var g bt : FVec Ideal S128 .f32) (y : S5000x128.Idx) (i : S50000x128.Idx)
    (hx : xb y = X i) (hcol : (i 1).val = (y 1).val)
    (hv : ∀ q : Fin 128, vb (ix2 (0 : Fin 1) q) = var (ix1 q)) (hm : ∀ q : Fin 128, mb (ix2 (0 : Fin 1) q) = mean (ix1 q))
    (hg : ∀ q : Fin 128, gb (ix2 (0 : Fin 1) q) = g (ix1 q)) (hb : ∀ q : Fin 128, bb (ix2 (0 : Fin 1) q) = bt (ix1 q)) :
    Gen.k2_pay1 (F := Ideal) vb mb gb bb xb y = Cert.Gcn.bnApply (F := Ideal) X mean var g bt i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hcol
  rw [pay2_apply, bnApply_apply, hx, hv, hm, hg, hb]

theorem zeros2 : (![0, 0] : Fin 2 → Nat) = fun _ => 0 := funext fun a => by fin_cases a <;> rfl

/-- The printed index maps, decided over the grid: the input block moves with the output block, which is block
    (point, 0); each 1×128 row is read whole at every point. -/
theorem idx_facts2 : ∀ t : Fin cfg2.N,
    win2_0.index t (0 : Fin 2) = win2_5.index t (0 : Fin 2) ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The input block's entry at point `t` is the array's entry where the output block's entry sits. -/
theorem x_blk2 (c : Dev nD) (t : Fin cfg2.N) (j : S5000x128.Idx) :
    iblk2 V c 0 t j = V c (Pipeline.arrRef spec2 0) (((cfg2.win 5).blk t).view.emb j) := by
  obtain ⟨e00, e01, -⟩ := idx_facts2 t
  show V c (Pipeline.arrRef spec2 0) (((cfg2.win 0).blk t).view.emb j)
      = V c (Pipeline.arrRef spec2 0) (((cfg2.win 5).blk t).view.emb j)
  refine congrArg _ (funext fun a => Fin.ext ?_)
  match a with
  | ⟨0, _⟩ =>
    show win2_0.index t (0 : Fin 2) * 5000 + 1 * (j 0).val = win2_5.index t (0 : Fin 2) * 5000 + 1 * (j 0).val
    rw [e00]
  | ⟨1, _⟩ =>
    show win2_0.index t (1 : Fin 2) * 128 + 1 * (j 1).val = win2_5.index t (1 : Fin 2) * 128 + 1 * (j 1).val
    rw [e01]

/-- An entry of the output block sits in the array in its own column. -/
theorem col2 (t : Fin cfg2.N) (j : S5000x128.Idx) : ((((cfg2.win 5).blk t).view.emb j) 1).val = (j 1).val := by
  obtain ⟨-, -, -, -, -, -, -, -, -, -, -, e51⟩ := idx_facts2 t
  show win2_5.index t (1 : Fin 2) * 128 + 1 * (j 1).val = (j 1).val
  rw [e51]; omega

/-- The mean's 1×128 block at any point, at a column, is the 128-vector its array is the reshape of. -/
theorem mean_blk2 (c : Dev nD) (mean : FVec Ideal S128 .f32)
    (hm : V c (Pipeline.arrRef spec2 1) = shapeCast S1x128 mean Facts₀.shapeCasts_S128_S1x128) (t : Fin cfg2.N) (q : Fin 128) :
    iblk2 V c 1 t (ix2 (0 : Fin 1) q) = mean (ix1 q) := by
  obtain ⟨-, -, -, e11, -⟩ := idx_facts2 t
  show V c (Pipeline.arrRef spec2 1) (((cfg2.win 1).blk t).view.emb (ix2 (0 : Fin 1) q)) = mean (ix1 q)
  rw [hm]
  refine row_read mean _ q ?_
  show win2_1.index t (1 : Fin 2) * 128 + 1 * q.val = q.val
  rw [e11]; omega

/-- The same for the variance's row, -/
theorem var_blk2 (c : Dev nD) (var : FVec Ideal S128 .f32)
    (hv : V c (Pipeline.arrRef spec2 2) = shapeCast S1x128 var Facts₀.shapeCasts_S128_S1x128) (t : Fin cfg2.N) (q : Fin 128) :
    iblk2 V c 2 t (ix2 (0 : Fin 1) q) = var (ix1 q) := by
  obtain ⟨-, -, -, -, -, e21, -⟩ := idx_facts2 t
  show V c (Pipeline.arrRef spec2 2) (((cfg2.win 2).blk t).view.emb (ix2 (0 : Fin 1) q)) = var (ix1 q)
  rw [hv]
  refine row_read var _ q ?_
  show win2_2.index t (1 : Fin 2) * 128 + 1 * q.val = q.val
  rw [e21]; omega

/-- the scale's row, -/
theorem g_blk2 (c : Dev nD) (g : FVec Ideal S128 .f32)
    (hg : V c (Pipeline.arrRef spec2 3) = shapeCast S1x128 g Facts₀.shapeCasts_S128_S1x128) (t : Fin cfg2.N) (q : Fin 128) :
    iblk2 V c 3 t (ix2 (0 : Fin 1) q) = g (ix1 q) := by
  obtain ⟨-, -, -, -, -, -, -, e31, -⟩ := idx_facts2 t
  show V c (Pipeline.arrRef spec2 3) (((cfg2.win 3).blk t).view.emb (ix2 (0 : Fin 1) q)) = g (ix1 q)
  rw [hg]
  refine row_read g _ q ?_
  show win2_3.index t (1 : Fin 2) * 128 + 1 * q.val = q.val
  rw [e31]; omega

/-- and the shift's row. -/
theorem bt_blk2 (c : Dev nD) (bt : FVec Ideal S128 .f32)
    (hbt : V c (Pipeline.arrRef spec2 4) = shapeCast S1x128 bt Facts₀.shapeCasts_S128_S1x128) (t : Fin cfg2.N) (q : Fin 128) :
    iblk2 V c 4 t (ix2 (0 : Fin 1) q) = bt (ix1 q) := by
  obtain ⟨-, -, -, -, -, -, -, -, -, e41, -⟩ := idx_facts2 t
  show V c (Pipeline.arrRef spec2 4) (((cfg2.win 4).blk t).view.emb (ix2 (0 : Fin 1) q)) = bt (ix1 q)
  rw [hbt]
  refine row_read bt _ q ?_
  show win2_4.index t (1 : Fin 2) * 128 + 1 * q.val = q.val
  rw [e41]; omega

/-- What point `t` writes back is block `t` of the whole normalised array. -/
theorem flushed2_eq (c : Dev nD) (mean var g bt : FVec Ideal S128 .f32)
    (hm : V c (Pipeline.arrRef spec2 1) = shapeCast S1x128 mean Facts₀.shapeCasts_S128_S1x128)
    (hv : V c (Pipeline.arrRef spec2 2) = shapeCast S1x128 var Facts₀.shapeCasts_S128_S1x128)
    (hg : V c (Pipeline.arrRef spec2 3) = shapeCast S1x128 g Facts₀.shapeCasts_S128_S1x128)
    (hbt : V c (Pipeline.arrRef spec2 4) = shapeCast S1x128 bt Facts₀.shapeCasts_S128_S1x128) (t : Fin cfg2.N) :
    (dat2 (F := Ideal) V c).flushed 5 t
      = ((cfg2.win 5).blk t).view.read (Elt Ideal) (Cert.Gcn.bnApply (F := Ideal) (V c (Pipeline.arrRef spec2 0)) mean var g bt) := by
  show (cfg2.win 5).cut (grid2.coords t) ((dat2 (F := Ideal) V c).after 5 t) = _
  rw [after2_5]
  unfold out2_5
  rw [View.canon_unit_zero zeros2]
  simp only [View.ld_unit_zero (S := S1x128) zeros2, View.ld_unit_zero (S := S5000x128) zeros2]
  funext j
  exact point2 (iblk2 V c 2 t) (iblk2 V c 1 t) (iblk2 V c 3 t) (iblk2 V c 4 t) (iblk2 V c 0 t)
    (V c (Pipeline.arrRef spec2 0)) mean var g bt j (((cfg2.win 5).blk t).view.emb j) (x_blk2 V c t j) (col2 t j)
    (var_blk2 V c var hv t) (mean_blk2 V c mean hm t) (g_blk2 V c g hg t) (bt_blk2 V c bt hbt t)

/-- An index of the array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v46).slice (win2_5.rect t)).set ↔ _
  rw [View.set_slice_whole, Rect.mem_set_unit]
  exact Iff.rfl

/-- Every row of the array is in some point's block: row `r` in the block of point `r / 5000`. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  have ht : (i 0).val / 5000 < grid2.N := by rw [hN]; omega
  obtain ⟨-, -, -, -, -, -, -, -, -, -, e50, e51⟩ := idx_facts2 ⟨(i 0).val / 5000, ht⟩
  refine ⟨⟨(i 0).val / 5000, ht⟩, flush2_5 _, ?_⟩
  rw [mem_blk2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e51]
    omega

/-- After the first normalisation region its output array is the whole normalised array. -/
theorem final2 (c : Dev nD) (mean var g bt : FVec Ideal S128 .f32)
    (hm : V c (Pipeline.arrRef spec2 1) = shapeCast S1x128 mean Facts₀.shapeCasts_S128_S1x128)
    (hv : V c (Pipeline.arrRef spec2 2) = shapeCast S1x128 var Facts₀.shapeCasts_S128_S1x128)
    (hg : V c (Pipeline.arrRef spec2 3) = shapeCast S1x128 g Facts₀.shapeCasts_S128_S1x128)
    (hbt : V c (Pipeline.arrRef spec2 4) = shapeCast S1x128 bt Facts₀.shapeCasts_S128_S1x128) :
    (dat2 (F := Ideal) V c).arrAt 5 cfg2.N = Cert.Gcn.bnApply (F := Ideal) (V c (Pipeline.arrRef spec2 0)) mean var g bt :=
  (dat2 (F := Ideal) V c).arrAt_eq_of_cover 5 (Cert.Gcn.bnApply (F := Ideal) (V c (Pipeline.arrRef spec2 0)) mean var g bt)
    (fun t _ => flushed2_eq V c mean var g bt hm hv hg hbt t) cover2

/-! ## The second normalisation region -/

/-- The second normalisation region runs the same body as the first. -/
theorem pay5_eq_pay2 (vb mb gb bb : FVec Ideal S1x128 .f32) (xb : FVec Ideal S5000x128 .f32) :
    Gen.k5_pay1 (F := Ideal) vb mb gb bb xb = Gen.k2_pay1 (F := Ideal) vb mb gb bb xb := rfl

/-- One point of one block, as in the first region. -/
theorem point5 (vb mb gb bb : FVec Ideal S1x128 .f32) (xb : FVec Ideal S5000x128 .f32)
    (X : FVec Ideal S50000x128 .f32) (mean var g bt : FVec Ideal S128 .f32) (y : S5000x128.Idx) (i : S50000x128.Idx)
    (hx : xb y = X i) (hcol : (i 1).val = (y 1).val)
    (hv : ∀ q : Fin 128, vb (ix2 (0 : Fin 1) q) = var (ix1 q)) (hm : ∀ q : Fin 128, mb (ix2 (0 : Fin 1) q) = mean (ix1 q))
    (hg : ∀ q : Fin 128, gb (ix2 (0 : Fin 1) q) = g (ix1 q)) (hb : ∀ q : Fin 128, bb (ix2 (0 : Fin 1) q) = bt (ix1 q)) :
    Gen.k5_pay1 (F := Ideal) vb mb gb bb xb y = Cert.Gcn.bnApply (F := Ideal) X mean var g bt i := by
  rw [pay5_eq_pay2]
  exact point2 vb mb gb bb xb X mean var g bt y i hx hcol hv hm hg hb

theorem zeros5 : (![0, 0] : Fin 2 → Nat) = fun _ => 0 := funext fun a => by fin_cases a <;> rfl

/-- The printed index maps of the second region, decided over the grid: the input block moves with the output block,
    which is block (point, 0); each 1×128 row is read whole at every point. -/
theorem idx_facts5 : ∀ t : Fin cfg5.N,
    win5_0.index t (0 : Fin 2) = win5_5.index t (0 : Fin 2) ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The input block's entry at point `t` is the array's entry where the output block's entry sits. -/
theorem x_blk5 (c : Dev nD) (t : Fin cfg5.N) (j : S5000x128.Idx) :
    iblk5 V c 0 t j = V c (Pipeline.arrRef spec5 0) (((cfg5.win 5).blk t).view.emb j) := by
  obtain ⟨e00, e01, -⟩ := idx_facts5 t
  show V c (Pipeline.arrRef spec5 0) (((cfg5.win 0).blk t).view.emb j)
      = V c (Pipeline.arrRef spec5 0) (((cfg5.win 5).blk t).view.emb j)
  refine congrArg _ (funext fun a => Fin.ext ?_)
  match a with
  | ⟨0, _⟩ =>
    show win5_0.index t (0 : Fin 2) * 5000 + 1 * (j 0).val = win5_5.index t (0 : Fin 2) * 5000 + 1 * (j 0).val
    rw [e00]
  | ⟨1, _⟩ =>
    show win5_0.index t (1 : Fin 2) * 128 + 1 * (j 1).val = win5_5.index t (1 : Fin 2) * 128 + 1 * (j 1).val
    rw [e01]

/-- An entry of the output block sits in the array in its own column. -/
theorem col5 (t : Fin cfg5.N) (j : S5000x128.Idx) : ((((cfg5.win 5).blk t).view.emb j) 1).val = (j 1).val := by
  obtain ⟨-, -, -, -, -, -, -, -, -, -, -, e51⟩ := idx_facts5 t
  show win5_5.index t (1 : Fin 2) * 128 + 1 * (j 1).val = (j 1).val
  rw [e51]; omega

/-- The mean's 1×128 block at any point, at a column, is the 128-vector its array is the reshape of. -/
theorem mean_blk5 (c : Dev nD) (mean : FVec Ideal S128 .f32)
    (hm : V c (Pipeline.arrRef spec5 1) = shapeCast S1x128 mean Facts₀.shapeCasts_S128_S1x128) (t : Fin cfg5.N) (q : Fin 128) :
    iblk5 V c 1 t (ix2 (0 : Fin 1) q) = mean (ix1 q) := by
  obtain ⟨-, -, -, e11, -⟩ := idx_facts5 t
  show V c (Pipeline.arrRef spec5 1) (((cfg5.win 1).blk t).view.emb (ix2 (0 : Fin 1) q)) = mean (ix1 q)
  rw [hm]
  refine row_read mean _ q ?_
  show win5_1.index t (1 : Fin 2) * 128 + 1 * q.val = q.val
  rw [e11]; omega

/-- The same for the variance's row, -/
theorem var_blk5 (c : Dev nD) (var : FVec Ideal S128 .f32)
    (hv : V c (Pipeline.arrRef spec5 2) = shapeCast S1x128 var Facts₀.shapeCasts_S128_S1x128) (t : Fin cfg5.N) (q : Fin 128) :
    iblk5 V c 2 t (ix2 (0 : Fin 1) q) = var (ix1 q) := by
  obtain ⟨-, -, -, -, -, e21, -⟩ := idx_facts5 t
  show V c (Pipeline.arrRef spec5 2) (((cfg5.win 2).blk t).view.emb (ix2 (0 : Fin 1) q)) = var (ix1 q)
  rw [hv]
  refine row_read var _ q ?_
  show win5_2.index t (1 : Fin 2) * 128 + 1 * q.val = q.val
  rw [e21]; omega

/-- the scale's row, -/
theorem g_blk5 (c : Dev nD) (g : FVec Ideal S128 .f32)
    (hg : V c (Pipeline.arrRef spec5 3) = shapeCast S1x128 g Facts₀.shapeCasts_S128_S1x128) (t : Fin cfg5.N) (q : Fin 128) :
    iblk5 V c 3 t (ix2 (0 : Fin 1) q) = g (ix1 q) := by
  obtain ⟨-, -, -, -, -, -, -, e31, -⟩ := idx_facts5 t
  show V c (Pipeline.arrRef spec5 3) (((cfg5.win 3).blk t).view.emb (ix2 (0 : Fin 1) q)) = g (ix1 q)
  rw [hg]
  refine row_read g _ q ?_
  show win5_3.index t (1 : Fin 2) * 128 + 1 * q.val = q.val
  rw [e31]; omega

/-- and the shift's row. -/
theorem bt_blk5 (c : Dev nD) (bt : FVec Ideal S128 .f32)
    (hbt : V c (Pipeline.arrRef spec5 4) = shapeCast S1x128 bt Facts₀.shapeCasts_S128_S1x128) (t : Fin cfg5.N) (q : Fin 128) :
    iblk5 V c 4 t (ix2 (0 : Fin 1) q) = bt (ix1 q) := by
  obtain ⟨-, -, -, -, -, -, -, -, -, e41, -⟩ := idx_facts5 t
  show V c (Pipeline.arrRef spec5 4) (((cfg5.win 4).blk t).view.emb (ix2 (0 : Fin 1) q)) = bt (ix1 q)
  rw [hbt]
  refine row_read bt _ q ?_
  show win5_4.index t (1 : Fin 2) * 128 + 1 * q.val = q.val
  rw [e41]; omega

/-- What point `t` writes back is block `t` of the whole normalised array. -/
theorem flushed5_eq (c : Dev nD) (mean var g bt : FVec Ideal S128 .f32)
    (hm : V c (Pipeline.arrRef spec5 1) = shapeCast S1x128 mean Facts₀.shapeCasts_S128_S1x128)
    (hv : V c (Pipeline.arrRef spec5 2) = shapeCast S1x128 var Facts₀.shapeCasts_S128_S1x128)
    (hg : V c (Pipeline.arrRef spec5 3) = shapeCast S1x128 g Facts₀.shapeCasts_S128_S1x128)
    (hbt : V c (Pipeline.arrRef spec5 4) = shapeCast S1x128 bt Facts₀.shapeCasts_S128_S1x128) (t : Fin cfg5.N) :
    (dat5 (F := Ideal) V c).flushed 5 t
      = ((cfg5.win 5).blk t).view.read (Elt Ideal) (Cert.Gcn.bnApply (F := Ideal) (V c (Pipeline.arrRef spec5 0)) mean var g bt) := by
  show (cfg5.win 5).cut (grid5.coords t) ((dat5 (F := Ideal) V c).after 5 t) = _
  rw [after5_5]
  unfold out5_5
  rw [View.canon_unit_zero zeros5]
  simp only [View.ld_unit_zero (S := S1x128) zeros5, View.ld_unit_zero (S := S5000x128) zeros5]
  funext j
  exact point5 (iblk5 V c 2 t) (iblk5 V c 1 t) (iblk5 V c 3 t) (iblk5 V c 4 t) (iblk5 V c 0 t)
    (V c (Pipeline.arrRef spec5 0)) mean var g bt j (((cfg5.win 5).blk t).view.emb j) (x_blk5 V c t j) (col5 t j)
    (var_blk5 V c var hv t) (mean_blk5 V c mean hm t) (g_blk5 V c g hg t) (bt_blk5 V c bt hbt t)

/-- An index of the array is in point `t`'s block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v65).slice (win5_5.rect t)).set ↔ _
  rw [View.set_slice_whole, Rect.mem_set_unit]
  exact Iff.rfl

/-- Every row of the array is in some point's block: row `r` in the block of point `r / 5000`. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : grid5.N = 10 := N_5
  have ht : (i 0).val / 5000 < grid5.N := by rw [hN]; omega
  obtain ⟨-, -, -, -, -, -, -, -, -, -, e50, e51⟩ := idx_facts5 ⟨(i 0).val / 5000, ht⟩
  refine ⟨⟨(i 0).val / 5000, ht⟩, flush5_5 _, ?_⟩
  rw [mem_blk5]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    rw [e51]
    omega

/-- After the second normalisation region its output array is the whole normalised array. -/
theorem final5 (c : Dev nD) (mean var g bt : FVec Ideal S128 .f32)
    (hm : V c (Pipeline.arrRef spec5 1) = shapeCast S1x128 mean Facts₀.shapeCasts_S128_S1x128)
    (hv : V c (Pipeline.arrRef spec5 2) = shapeCast S1x128 var Facts₀.shapeCasts_S128_S1x128)
    (hg : V c (Pipeline.arrRef spec5 3) = shapeCast S1x128 g Facts₀.shapeCasts_S128_S1x128)
    (hbt : V c (Pipeline.arrRef spec5 4) = shapeCast S1x128 bt Facts₀.shapeCasts_S128_S1x128) :
    (dat5 (F := Ideal) V c).arrAt 5 cfg5.N = Cert.Gcn.bnApply (F := Ideal) (V c (Pipeline.arrRef spec5 0)) mean var g bt :=
  (dat5 (F := Ideal) V c).arrAt_eq_of_cover 5 (Cert.Gcn.bnApply (F := Ideal) (V c (Pipeline.arrRef spec5 0)) mean var g bt)
    (fun t _ => flushed5_eq V c mean var g bt hm hv hg hbt t) cover5

end Cert.Gcn.RegBn

end
-- ==== Proof.KHost.lean ====
/-
  The host operations of the kernel program between its regions, read back stretch by stretch: from ANY buffer contents X,
  each value a stretch computes is a named function of the values it reads, and every buffer it does not write is as it was.
-/
import proofs.«425463_j10161892623141_1_alg».proof.Proof.TakeSpec
import proofs.«425463_j10161892623141_1_alg».proof.Proof.Gen.KernelIdeal.Launch
import Idealize.ShloMosaic.Lib.StableHlo.Run

noncomputable section

namespace Cert.Gcn.KHost

open Idealize.ShloMosaic Idealize.ShloMosaic.TcCoe Idealize.SL.Sem Idealize.ShloMosaic.StableHlo
open Cert.KernelIdeal Cert.KernelIdeal.Gen

variable {F : FTy → Type} [FloatOps F] (X : Valuation τ sig (Elt F))

/-- One stretch leaves a buffer alone when no operation of it writes that buffer: each operation writes exactly its
    result reference, and that reference is another one (decided on references). Peels the outermost stretch of a
    nested fold and leaves the fold of the stretches before it. -/
local macro "keep_step " ops:ident : tactic =>
  `(tactic| (refine (after_of_forall_not_mem _ _ (List.forall_iff_forall_mem.mp ?_)).trans ?_
             · simp only [$ops:ident, List.Forall, nullary_writes, unary_writes, binary_writes, ternary_writes,
                 quaternary_writes, reshape_writes, binaryIndexed_writes, Finset.mem_singleton]
               repeat' apply And.intro
               all_goals exact devRef_ne_of_ne (by decide)))

/-! ## Transports at literal references

An operation of a called function reads and writes its values through references that carry the value's type: each value
is carried to its buffer's type when written and back when read. Between two operations of the call the two transports
cancel; where the call meets the caller (an operand read, the result written) one transport is left, and at a literal
reference, whose buffer type is the value's type by computation, it is the identity. -/

/-- A value carried to an equal type and back is the value. -/
private theorem cast_cast_self {α β : Type} (h₁ : α = β) (h₂ : β = α) (v : α) : cast h₂ (cast h₁ v) = v := by
  subst h₁; rfl

/-- The edge sources, read by each guarded gather. -/
private theorem cast_in_v1 (h : (main_v1 : Ref sig .tc).ty.Contents (Elt F) = (⟨S800000, .i32⟩ : BufTy).Contents (Elt F))
    (v : (main_v1 : Ref sig .tc).ty.Contents (Elt F)) : cast h v = v := rfl

/-- The table the first layer's gather reads, and the gathered rows it writes. -/
private theorem cast_in_v28 (h : (main_v28 : Ref sig .tc).ty.Contents (Elt F) = (⟨S50000x128, .f32⟩ : BufTy).Contents (Elt F))
    (v : (main_v28 : Ref sig .tc).ty.Contents (Elt F)) : cast h v = v := rfl
private theorem cast_out_v29 (h : (⟨S800000x128, .f32⟩ : BufTy).Contents (Elt F) = (main_v29 : Ref sig .tc).ty.Contents (Elt F))
    (v : (⟨S800000x128, .f32⟩ : BufTy).Contents (Elt F)) : cast h v = v := rfl

/-- The same for the second layer. -/
private theorem cast_in_v47 (h : (main_v47 : Ref sig .tc).ty.Contents (Elt F) = (⟨S50000x128, .f32⟩ : BufTy).Contents (Elt F))
    (v : (main_v47 : Ref sig .tc).ty.Contents (Elt F)) : cast h v = v := rfl
private theorem cast_out_v48 (h : (⟨S800000x128, .f32⟩ : BufTy).Contents (Elt F) = (main_v48 : Ref sig .tc).ty.Contents (Elt F))
    (v : (⟨S800000x128, .f32⟩ : BufTy).Contents (Elt F)) : cast h v = v := rfl

/-- The same for the last layer, at width 64. -/
private theorem cast_in_v66 (h : (main_v66 : Ref sig .tc).ty.Contents (Elt F) = (⟨S50000x64, .f32⟩ : BufTy).Contents (Elt F))
    (v : (main_v66 : Ref sig .tc).ty.Contents (Elt F)) : cast h v = v := rfl
private theorem cast_out_v67 (h : (⟨S800000x64, .f32⟩ : BufTy).Contents (Elt F) = (main_v67 : Ref sig .tc).ty.Contents (Elt F))
    (v : (⟨S800000x64, .f32⟩ : BufTy).Contents (Elt F)) : cast h v = v := rfl

/-! ## Stretch 0 -/

theorem g0_src :
    after (hostOps0 (F := F)) X (main_v1 : DevRef τ sig)
      = Cert.Gcn.srcOf (X (main_arg1 : DevRef τ sig)) := by
  after_results; rfl

theorem g0_dst :
    after (hostOps0 (F := F)) X (main_v3 : DevRef τ sig)
      = Cert.Gcn.dstOf (X (main_arg1 : DevRef τ sig)) := by
  after_results; rfl

theorem g0_invs :
    after (hostOps0 (F := F)) X (main_v10 : DevRef τ sig)
      = Cert.Gcn.invsOf (F := F) (Cert.Gcn.dstOf (X (main_arg1 : DevRef τ sig))) := by
  after_results; rfl

theorem g0_coef :
    after (hostOps0 (F := F)) X (main_v25 : DevRef τ sig)
      = Cert.Gcn.coefOf (F := F) (Cert.Gcn.invsOf (Cert.Gcn.dstOf (X (main_arg1 : DevRef τ sig)))) (Cert.Gcn.srcOf (X (main_arg1 : DevRef τ sig))) (Cert.Gcn.dstOf (X (main_arg1 : DevRef τ sig))) := by
  after_results_simp; rfl

theorem g0_selfs :
    after (hostOps0 (F := F)) X (main_v27 : DevRef τ sig)
      = shapeCast S50000x1 (mulf (Cert.Gcn.invsOf (F := F) (Cert.Gcn.dstOf (X (main_arg1 : DevRef τ sig)))) (Cert.Gcn.invsOf (F := F) (Cert.Gcn.dstOf (X (main_arg1 : DevRef τ sig))))) Facts₀.shapeCasts_S50000_S50000x1 := by
  after_results; rfl

theorem g0_keep_arg0 :
    after (hostOps0 (F := F)) X (main_arg0 : DevRef τ sig) = X (main_arg0 : DevRef τ sig) := by
  keep_step hostOps0; rfl

theorem g0_keep_arg2 :
    after (hostOps0 (F := F)) X (main_arg2 : DevRef τ sig) = X (main_arg2 : DevRef τ sig) := by
  keep_step hostOps0; rfl

theorem g0_keep_arg3 :
    after (hostOps0 (F := F)) X (main_arg3 : DevRef τ sig) = X (main_arg3 : DevRef τ sig) := by
  keep_step hostOps0; rfl

theorem g0_keep_arg4 :
    after (hostOps0 (F := F)) X (main_arg4 : DevRef τ sig) = X (main_arg4 : DevRef τ sig) := by
  keep_step hostOps0; rfl

theorem g0_keep_arg5 :
    after (hostOps0 (F := F)) X (main_arg5 : DevRef τ sig) = X (main_arg5 : DevRef τ sig) := by
  keep_step hostOps0; rfl

theorem g0_keep_arg6 :
    after (hostOps0 (F := F)) X (main_arg6 : DevRef τ sig) = X (main_arg6 : DevRef τ sig) := by
  keep_step hostOps0; rfl

theorem g0_keep_arg7 :
    after (hostOps0 (F := F)) X (main_arg7 : DevRef τ sig) = X (main_arg7 : DevRef τ sig) := by
  keep_step hostOps0; rfl

theorem g0_keep_arg8 :
    after (hostOps0 (F := F)) X (main_arg8 : DevRef τ sig) = X (main_arg8 : DevRef τ sig) := by
  keep_step hostOps0; rfl

theorem g0_keep_arg9 :
    after (hostOps0 (F := F)) X (main_arg9 : DevRef τ sig) = X (main_arg9 : DevRef τ sig) := by
  keep_step hostOps0; rfl

theorem g0_keep_arg10 :
    after (hostOps0 (F := F)) X (main_arg10 : DevRef τ sig) = X (main_arg10 : DevRef τ sig) := by
  keep_step hostOps0; rfl

theorem g0_keep_arg11 :
    after (hostOps0 (F := F)) X (main_arg11 : DevRef τ sig) = X (main_arg11 : DevRef τ sig) := by
  keep_step hostOps0; rfl

/-! ## Stretch 1 -/

theorem g1_agg :
    after (hostOps1_1 (F := F)) (after (hostOps1 (F := F)) X) (main_v35 : DevRef τ sig)
      = Cert.Gcn.aggK128 (F := F) (X (main_v28 : DevRef τ sig)) (X (main_v25 : DevRef τ sig)) (X (main_v1 : DevRef τ sig)) (X (main_v3 : DevRef τ sig)) := by
  -- the fold at the result buffer, the call's transports cancelled in pairs and dropped at its boundary references:
  -- what is left is the guarded gather's aggregation, term by term
  after_results_simp
  simp only [TRef.ofBuf, TRef.toBuf, cast_cast_self, cast_in_v1, cast_in_v28, cast_out_v29]
  rfl

theorem g1_b :
    after (hostOps1_1 (F := F)) (after (hostOps1 (F := F)) X) (main_v36 : DevRef τ sig)
      = shapeCast S1x128 (X (main_arg3 : DevRef τ sig)) Facts₀.shapeCasts_S128_S1x128 := by
  after_results_simp; rfl

theorem g1_keep_v1 :
    after (hostOps1_1 (F := F)) (after (hostOps1 (F := F)) X) (main_v1 : DevRef τ sig) = X (main_v1 : DevRef τ sig) := by
  keep_step hostOps1_1; keep_step hostOps1; rfl

theorem g1_keep_v3 :
    after (hostOps1_1 (F := F)) (after (hostOps1 (F := F)) X) (main_v3 : DevRef τ sig) = X (main_v3 : DevRef τ sig) := by
  keep_step hostOps1_1; keep_step hostOps1; rfl

theorem g1_keep_v25 :
    after (hostOps1_1 (F := F)) (after (hostOps1 (F := F)) X) (main_v25 : DevRef τ sig) = X (main_v25 : DevRef τ sig) := by
  keep_step hostOps1_1; keep_step hostOps1; rfl

theorem g1_keep_v27 :
    after (hostOps1_1 (F := F)) (after (hostOps1 (F := F)) X) (main_v27 : DevRef τ sig) = X (main_v27 : DevRef τ sig) := by
  keep_step hostOps1_1; keep_step hostOps1; rfl

theorem g1_keep_v28 :
    after (hostOps1_1 (F := F)) (after (hostOps1 (F := F)) X) (main_v28 : DevRef τ sig) = X (main_v28 : DevRef τ sig) := by
  keep_step hostOps1_1; keep_step hostOps1; rfl

theorem g1_keep_arg4 :
    after (hostOps1_1 (F := F)) (after (hostOps1 (F := F)) X) (main_arg4 : DevRef τ sig) = X (main_arg4 : DevRef τ sig) := by
  keep_step hostOps1_1; keep_step hostOps1; rfl

theorem g1_keep_arg5 :
    after (hostOps1_1 (F := F)) (after (hostOps1 (F := F)) X) (main_arg5 : DevRef τ sig) = X (main_arg5 : DevRef τ sig) := by
  keep_step hostOps1_1; keep_step hostOps1; rfl

theorem g1_keep_arg6 :
    after (hostOps1_1 (F := F)) (after (hostOps1 (F := F)) X) (main_arg6 : DevRef τ sig) = X (main_arg6 : DevRef τ sig) := by
  keep_step hostOps1_1; keep_step hostOps1; rfl

theorem g1_keep_arg7 :
    after (hostOps1_1 (F := F)) (after (hostOps1 (F := F)) X) (main_arg7 : DevRef τ sig) = X (main_arg7 : DevRef τ sig) := by
  keep_step hostOps1_1; keep_step hostOps1; rfl

theorem g1_keep_arg8 :
    after (hostOps1_1 (F := F)) (after (hostOps1 (F := F)) X) (main_arg8 : DevRef τ sig) = X (main_arg8 : DevRef τ sig) := by
  keep_step hostOps1_1; keep_step hostOps1; rfl

theorem g1_keep_arg9 :
    after (hostOps1_1 (F := F)) (after (hostOps1 (F := F)) X) (main_arg9 : DevRef τ sig) = X (main_arg9 : DevRef τ sig) := by
  keep_step hostOps1_1; keep_step hostOps1; rfl

theorem g1_keep_arg10 :
    after (hostOps1_1 (F := F)) (after (hostOps1 (F := F)) X) (main_arg10 : DevRef τ sig) = X (main_arg10 : DevRef τ sig) := by
  keep_step hostOps1_1; keep_step hostOps1; rfl

theorem g1_keep_arg11 :
    after (hostOps1_1 (F := F)) (after (hostOps1 (F := F)) X) (main_arg11 : DevRef τ sig) = X (main_arg11 : DevRef τ sig) := by
  keep_step hostOps1_1; keep_step hostOps1; rfl

/-! ## Stretch 2 -/

theorem g2_mean :
    after (hostOps2_2 (F := F)) (after (hostOps2_1 (F := F)) (after (hostOps2 (F := F)) X)) (main_v41 : DevRef τ sig)
      = shapeCast S1x128 (Cert.Gcn.meanOf (F := F) (X (main_v37 : DevRef τ sig))) Facts₀.shapeCasts_S128_S1x128 := by
  after_results_simp; rfl

theorem g2_var :
    after (hostOps2_2 (F := F)) (after (hostOps2_1 (F := F)) (after (hostOps2 (F := F)) X)) (main_v43 : DevRef τ sig)
      = shapeCast S1x128 (Cert.Gcn.varOf (F := F) (X (main_v37 : DevRef τ sig))) Facts₀.shapeCasts_S128_S1x128 := by
  after_results_simp; rfl

theorem g2_g :
    after (hostOps2_2 (F := F)) (after (hostOps2_1 (F := F)) (after (hostOps2 (F := F)) X)) (main_v44 : DevRef τ sig)
      = shapeCast S1x128 (X (main_arg4 : DevRef τ sig)) Facts₀.shapeCasts_S128_S1x128 := by
  after_results_simp; rfl

theorem g2_bt :
    after (hostOps2_2 (F := F)) (after (hostOps2_1 (F := F)) (after (hostOps2 (F := F)) X)) (main_v45 : DevRef τ sig)
      = shapeCast S1x128 (X (main_arg5 : DevRef τ sig)) Facts₀.shapeCasts_S128_S1x128 := by
  after_results_simp; rfl

theorem g2_keep_v1 :
    after (hostOps2_2 (F := F)) (after (hostOps2_1 (F := F)) (after (hostOps2 (F := F)) X)) (main_v1 : DevRef τ sig) = X (main_v1 : DevRef τ sig) := by
  keep_step hostOps2_2; keep_step hostOps2_1; keep_step hostOps2; rfl

theorem g2_keep_v3 :
    after (hostOps2_2 (F := F)) (after (hostOps2_1 (F := F)) (after (hostOps2 (F := F)) X)) (main_v3 : DevRef τ sig) = X (main_v3 : DevRef τ sig) := by
  keep_step hostOps2_2; keep_step hostOps2_1; keep_step hostOps2; rfl

theorem g2_keep_v25 :
    after (hostOps2_2 (F := F)) (after (hostOps2_1 (F := F)) (after (hostOps2 (F := F)) X)) (main_v25 : DevRef τ sig) = X (main_v25 : DevRef τ sig) := by
  keep_step hostOps2_2; keep_step hostOps2_1; keep_step hostOps2; rfl

theorem g2_keep_v27 :
    after (hostOps2_2 (F := F)) (after (hostOps2_1 (F := F)) (after (hostOps2 (F := F)) X)) (main_v27 : DevRef τ sig) = X (main_v27 : DevRef τ sig) := by
  keep_step hostOps2_2; keep_step hostOps2_1; keep_step hostOps2; rfl

theorem g2_keep_v37 :
    after (hostOps2_2 (F := F)) (after (hostOps2_1 (F := F)) (after (hostOps2 (F := F)) X)) (main_v37 : DevRef τ sig) = X (main_v37 : DevRef τ sig) := by
  keep_step hostOps2_2; keep_step hostOps2_1; keep_step hostOps2; rfl

theorem g2_keep_arg6 :
    after (hostOps2_2 (F := F)) (after (hostOps2_1 (F := F)) (after (hostOps2 (F := F)) X)) (main_arg6 : DevRef τ sig) = X (main_arg6 : DevRef τ sig) := by
  keep_step hostOps2_2; keep_step hostOps2_1; keep_step hostOps2; rfl

theorem g2_keep_arg7 :
    after (hostOps2_2 (F := F)) (after (hostOps2_1 (F := F)) (after (hostOps2 (F := F)) X)) (main_arg7 : DevRef τ sig) = X (main_arg7 : DevRef τ sig) := by
  keep_step hostOps2_2; keep_step hostOps2_1; keep_step hostOps2; rfl

theorem g2_keep_arg8 :
    after (hostOps2_2 (F := F)) (after (hostOps2_1 (F := F)) (after (hostOps2 (F := F)) X)) (main_arg8 : DevRef τ sig) = X (main_arg8 : DevRef τ sig) := by
  keep_step hostOps2_2; keep_step hostOps2_1; keep_step hostOps2; rfl

theorem g2_keep_arg9 :
    after (hostOps2_2 (F := F)) (after (hostOps2_1 (F := F)) (after (hostOps2 (F := F)) X)) (main_arg9 : DevRef τ sig) = X (main_arg9 : DevRef τ sig) := by
  keep_step hostOps2_2; keep_step hostOps2_1; keep_step hostOps2; rfl

theorem g2_keep_arg10 :
    after (hostOps2_2 (F := F)) (after (hostOps2_1 (F := F)) (after (hostOps2 (F := F)) X)) (main_arg10 : DevRef τ sig) = X (main_arg10 : DevRef τ sig) := by
  keep_step hostOps2_2; keep_step hostOps2_1; keep_step hostOps2; rfl

theorem g2_keep_arg11 :
    after (hostOps2_2 (F := F)) (after (hostOps2_1 (F := F)) (after (hostOps2 (F := F)) X)) (main_arg11 : DevRef τ sig) = X (main_arg11 : DevRef τ sig) := by
  keep_step hostOps2_2; keep_step hostOps2_1; keep_step hostOps2; rfl

/-! ## Stretch 4 -/

theorem g4_agg :
    after (hostOps4_1 (F := F)) (after (hostOps4 (F := F)) X) (main_v54 : DevRef τ sig)
      = Cert.Gcn.aggK128 (F := F) (X (main_v47 : DevRef τ sig)) (X (main_v25 : DevRef τ sig)) (X (main_v1 : DevRef τ sig)) (X (main_v3 : DevRef τ sig)) := by
  -- the fold at the result buffer, the call's transports cancelled in pairs and dropped at its boundary references:
  -- what is left is the guarded gather's aggregation, term by term
  after_results_simp
  simp only [TRef.ofBuf, TRef.toBuf, cast_cast_self, cast_in_v1, cast_in_v47, cast_out_v48]
  rfl

theorem g4_b :
    after (hostOps4_1 (F := F)) (after (hostOps4 (F := F)) X) (main_v55 : DevRef τ sig)
      = shapeCast S1x128 (X (main_arg7 : DevRef τ sig)) Facts₀.shapeCasts_S128_S1x128 := by
  after_results_simp; rfl

theorem g4_keep_v1 :
    after (hostOps4_1 (F := F)) (after (hostOps4 (F := F)) X) (main_v1 : DevRef τ sig) = X (main_v1 : DevRef τ sig) := by
  keep_step hostOps4_1; keep_step hostOps4; rfl

theorem g4_keep_v3 :
    after (hostOps4_1 (F := F)) (after (hostOps4 (F := F)) X) (main_v3 : DevRef τ sig) = X (main_v3 : DevRef τ sig) := by
  keep_step hostOps4_1; keep_step hostOps4; rfl

theorem g4_keep_v25 :
    after (hostOps4_1 (F := F)) (after (hostOps4 (F := F)) X) (main_v25 : DevRef τ sig) = X (main_v25 : DevRef τ sig) := by
  keep_step hostOps4_1; keep_step hostOps4; rfl

theorem g4_keep_v27 :
    after (hostOps4_1 (F := F)) (after (hostOps4 (F := F)) X) (main_v27 : DevRef τ sig) = X (main_v27 : DevRef τ sig) := by
  keep_step hostOps4_1; keep_step hostOps4; rfl

theorem g4_keep_v47 :
    after (hostOps4_1 (F := F)) (after (hostOps4 (F := F)) X) (main_v47 : DevRef τ sig) = X (main_v47 : DevRef τ sig) := by
  keep_step hostOps4_1; keep_step hostOps4; rfl

theorem g4_keep_arg8 :
    after (hostOps4_1 (F := F)) (after (hostOps4 (F := F)) X) (main_arg8 : DevRef τ sig) = X (main_arg8 : DevRef τ sig) := by
  keep_step hostOps4_1; keep_step hostOps4; rfl

theorem g4_keep_arg9 :
    after (hostOps4_1 (F := F)) (after (hostOps4 (F := F)) X) (main_arg9 : DevRef τ sig) = X (main_arg9 : DevRef τ sig) := by
  keep_step hostOps4_1; keep_step hostOps4; rfl

theorem g4_keep_arg10 :
    after (hostOps4_1 (F := F)) (after (hostOps4 (F := F)) X) (main_arg10 : DevRef τ sig) = X (main_arg10 : DevRef τ sig) := by
  keep_step hostOps4_1; keep_step hostOps4; rfl

theorem g4_keep_arg11 :
    after (hostOps4_1 (F := F)) (after (hostOps4 (F := F)) X) (main_arg11 : DevRef τ sig) = X (main_arg11 : DevRef τ sig) := by
  keep_step hostOps4_1; keep_step hostOps4; rfl

/-! ## Stretch 5 -/

theorem g5_mean :
    after (hostOps5_2 (F := F)) (after (hostOps5_1 (F := F)) (after (hostOps5 (F := F)) X)) (main_v60 : DevRef τ sig)
      = shapeCast S1x128 (Cert.Gcn.meanOf (F := F) (X (main_v56 : DevRef τ sig))) Facts₀.shapeCasts_S128_S1x128 := by
  after_results_simp; rfl

theorem g5_var :
    after (hostOps5_2 (F := F)) (after (hostOps5_1 (F := F)) (after (hostOps5 (F := F)) X)) (main_v62 : DevRef τ sig)
      = shapeCast S1x128 (Cert.Gcn.varOf (F := F) (X (main_v56 : DevRef τ sig))) Facts₀.shapeCasts_S128_S1x128 := by
  after_results_simp; rfl

theorem g5_g :
    after (hostOps5_2 (F := F)) (after (hostOps5_1 (F := F)) (after (hostOps5 (F := F)) X)) (main_v63 : DevRef τ sig)
      = shapeCast S1x128 (X (main_arg8 : DevRef τ sig)) Facts₀.shapeCasts_S128_S1x128 := by
  after_results_simp; rfl

theorem g5_bt :
    after (hostOps5_2 (F := F)) (after (hostOps5_1 (F := F)) (after (hostOps5 (F := F)) X)) (main_v64 : DevRef τ sig)
      = shapeCast S1x128 (X (main_arg9 : DevRef τ sig)) Facts₀.shapeCasts_S128_S1x128 := by
  after_results_simp; rfl

theorem g5_keep_v1 :
    after (hostOps5_2 (F := F)) (after (hostOps5_1 (F := F)) (after (hostOps5 (F := F)) X)) (main_v1 : DevRef τ sig) = X (main_v1 : DevRef τ sig) := by
  keep_step hostOps5_2; keep_step hostOps5_1; keep_step hostOps5; rfl

theorem g5_keep_v3 :
    after (hostOps5_2 (F := F)) (after (hostOps5_1 (F := F)) (after (hostOps5 (F := F)) X)) (main_v3 : DevRef τ sig) = X (main_v3 : DevRef τ sig) := by
  keep_step hostOps5_2; keep_step hostOps5_1; keep_step hostOps5; rfl

theorem g5_keep_v25 :
    after (hostOps5_2 (F := F)) (after (hostOps5_1 (F := F)) (after (hostOps5 (F := F)) X)) (main_v25 : DevRef τ sig) = X (main_v25 : DevRef τ sig) := by
  keep_step hostOps5_2; keep_step hostOps5_1; keep_step hostOps5; rfl

theorem g5_keep_v27 :
    after (hostOps5_2 (F := F)) (after (hostOps5_1 (F := F)) (after (hostOps5 (F := F)) X)) (main_v27 : DevRef τ sig) = X (main_v27 : DevRef τ sig) := by
  keep_step hostOps5_2; keep_step hostOps5_1; keep_step hostOps5; rfl

theorem g5_keep_v56 :
    after (hostOps5_2 (F := F)) (after (hostOps5_1 (F := F)) (after (hostOps5 (F := F)) X)) (main_v56 : DevRef τ sig) = X (main_v56 : DevRef τ sig) := by
  keep_step hostOps5_2; keep_step hostOps5_1; keep_step hostOps5; rfl

theorem g5_keep_arg10 :
    after (hostOps5_2 (F := F)) (after (hostOps5_1 (F := F)) (after (hostOps5 (F := F)) X)) (main_arg10 : DevRef τ sig) = X (main_arg10 : DevRef τ sig) := by
  keep_step hostOps5_2; keep_step hostOps5_1; keep_step hostOps5; rfl

theorem g5_keep_arg11 :
    after (hostOps5_2 (F := F)) (after (hostOps5_1 (F := F)) (after (hostOps5 (F := F)) X)) (main_arg11 : DevRef τ sig) = X (main_arg11 : DevRef τ sig) := by
  keep_step hostOps5_2; keep_step hostOps5_1; keep_step hostOps5; rfl

/-! ## Stretch 7 -/

theorem g7_agg :
    after (hostOps7_1 (F := F)) (after (hostOps7 (F := F)) X) (main_v73 : DevRef τ sig)
      = Cert.Gcn.aggK64 (F := F) (X (main_v66 : DevRef τ sig)) (X (main_v25 : DevRef τ sig)) (X (main_v1 : DevRef τ sig)) (X (main_v3 : DevRef τ sig)) := by
  -- the fold at the result buffer, the call's transports cancelled in pairs and dropped at its boundary references:
  -- what is left is the guarded gather's aggregation, term by term
  after_results_simp
  simp only [TRef.ofBuf, TRef.toBuf, cast_cast_self, cast_in_v1, cast_in_v66, cast_out_v67]
  rfl

theorem g7_b :
    after (hostOps7_1 (F := F)) (after (hostOps7 (F := F)) X) (main_v74 : DevRef τ sig)
      = shapeCast S1x64 (X (main_arg11 : DevRef τ sig)) Facts₀.shapeCasts_S64_S1x64 := by
  after_results_simp; rfl

theorem g7_keep_v27 :
    after (hostOps7_1 (F := F)) (after (hostOps7 (F := F)) X) (main_v27 : DevRef τ sig) = X (main_v27 : DevRef τ sig) := by
  keep_step hostOps7_1; keep_step hostOps7; rfl

theorem g7_keep_v66 :
    after (hostOps7_1 (F := F)) (after (hostOps7 (F := F)) X) (main_v66 : DevRef τ sig) = X (main_v66 : DevRef τ sig) := by
  keep_step hostOps7_1; keep_step hostOps7; rfl

end Cert.Gcn.KHost

end
-- ==== Proof.KChain.lean ====
/-
  The kernel program's result, read back through its run: the contents of every buffer at each boundary between a stretch of host
  operations and a region are a fold from the launch memory; walking that fold from the result buffer back to the arguments — each
  region's output array the whole-array function of its inputs, each stretch's values the named functions of what it reads, every
  other buffer as it was — gives the network (with the guarded row gather) of the twelve argument arrays.
-/
import proofs.«425463_j10161892623141_1_alg».proof.Proof.TakeSpec
import proofs.«425463_j10161892623141_1_alg».proof.Proof.RegLin
import proofs.«425463_j10161892623141_1_alg».proof.Proof.RegComb
import proofs.«425463_j10161892623141_1_alg».proof.Proof.RegBn
import proofs.«425463_j10161892623141_1_alg».proof.Proof.KHost
import proofs.«425463_j10161892623141_1_alg».proof.Proof.Gen.KernelIdeal.Frame

noncomputable section

namespace Cert.Gcn.KChain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The launch contents, and the values the run computes from them -/

/-- The launch contents of a buffer. -/
abbrev inp (c : Dev nD) (b : Ref sig .tc) : Buf (Elt Ideal) ((c : Thread nD τ).loc b) := m ((c : Thread nD τ).loc b)

/-- The source ids of the launched edge table. -/
abbrev src (c : Dev nD) := srcOf (inp m c main_arg1)
/-- Its destination ids. -/
abbrev dst (c : Dev nD) := dstOf (inp m c main_arg1)
/-- The degree normalisation (1 + in-degree)^(-1/2). -/
abbrev invs (c : Dev nD) := invsOf (F := Ideal) (dst m c)
/-- The edge weights invs[src] · invs[dst]. -/
abbrev coef (c : Dev nD) := coefOf (F := Ideal) (invs m c) (src m c) (dst m c)
/-- invs · invs as a column. -/
abbrev selfs (c : Dev nD) := shapeCast S50000x1 (mulf (invs m c) (invs m c)) Facts₀.shapeCasts_S50000_S50000x1

/-- Layer 1: the projection, the combined layer, the normalised layer. -/
abbrev H1 (c : Dev nD) := lin128 (F := Ideal) (inp m c main_arg0) (inp m c main_arg2)
abbrev L1 (c : Dev nD) := layerK128 (F := Ideal) (inp m c main_arg0) (inp m c main_arg2) (inp m c main_arg3) (src m c) (dst m c)
abbrev B1 (c : Dev nD) := bn128 (F := Ideal) (L1 m c) (inp m c main_arg4) (inp m c main_arg5)
/-- Layer 2 likewise, over layer 1's normalised output. -/
abbrev H2 (c : Dev nD) := lin128 (F := Ideal) (B1 m c) (inp m c main_arg6)
abbrev L2 (c : Dev nD) := layerK128 (F := Ideal) (B1 m c) (inp m c main_arg6) (inp m c main_arg7) (src m c) (dst m c)
abbrev B2 (c : Dev nD) := bn128 (F := Ideal) (L2 m c) (inp m c main_arg8) (inp m c main_arg9)
/-- Layer 3's projection, at width 64. -/
abbrev H3 (c : Dev nD) := lin64 (F := Ideal) (B2 m c) (inp m c main_arg10)

/-! ## The arguments, each at the boundary where it is read: no stretch and no region on the way writes it -/

theorem arg0_at1 (c : Dev nD) : W1 (F := Ideal) m ρ c (Proc.devRef .tc main_arg0) = inp m c main_arg0 :=
  KHost.g0_keep_arg0 (W0 m ρ c)

theorem arg2_at1 (c : Dev nD) : W1 (F := Ideal) m ρ c (Proc.devRef .tc main_arg2) = inp m c main_arg2 :=
  KHost.g0_keep_arg2 (W0 m ρ c)

theorem arg3_at2 (c : Dev nD) : W2 (F := Ideal) m ρ c (Proc.devRef .tc main_arg3) = inp m c main_arg3 :=
  (W2_of_ne m ρ c main_arg3 (by decide)).trans (KHost.g0_keep_arg3 (W0 m ρ c))

theorem arg4_at5 (c : Dev nD) : W5 (F := Ideal) m ρ c (Proc.devRef .tc main_arg4) = inp m c main_arg4 :=
  (W5_of_ne m ρ c main_arg4 (by decide)).trans <| (KHost.g1_keep_arg4 (W2 m ρ c)).trans <|
  (W2_of_ne m ρ c main_arg4 (by decide)).trans (KHost.g0_keep_arg4 (W0 m ρ c))

theorem arg5_at5 (c : Dev nD) : W5 (F := Ideal) m ρ c (Proc.devRef .tc main_arg5) = inp m c main_arg5 :=
  (W5_of_ne m ρ c main_arg5 (by decide)).trans <| (KHost.g1_keep_arg5 (W2 m ρ c)).trans <|
  (W2_of_ne m ρ c main_arg5 (by decide)).trans (KHost.g0_keep_arg5 (W0 m ρ c))

theorem arg6_at9 (c : Dev nD) : W9 (F := Ideal) m ρ c (Proc.devRef .tc main_arg6) = inp m c main_arg6 :=
  (W9_of_ne m ρ c main_arg6 (by decide)).trans <| (KHost.g2_keep_arg6 (W5 m ρ c)).trans <|
  (W5_of_ne m ρ c main_arg6 (by decide)).trans <| (KHost.g1_keep_arg6 (W2 m ρ c)).trans <|
  (W2_of_ne m ρ c main_arg6 (by decide)).trans (KHost.g0_keep_arg6 (W0 m ρ c))

theorem arg7_at10 (c : Dev nD) : W10 (F := Ideal) m ρ c (Proc.devRef .tc main_arg7) = inp m c main_arg7 :=
  (W10_of_ne m ρ c main_arg7 (by decide)).trans <|
  (W9_of_ne m ρ c main_arg7 (by decide)).trans <| (KHost.g2_keep_arg7 (W5 m ρ c)).trans <|
  (W5_of_ne m ρ c main_arg7 (by decide)).trans <| (KHost.g1_keep_arg7 (W2 m ρ c)).trans <|
  (W2_of_ne m ρ c main_arg7 (by decide)).trans (KHost.g0_keep_arg7 (W0 m ρ c))

theorem arg8_at13 (c : Dev nD) : W13 (F := Ideal) m ρ c (Proc.devRef .tc main_arg8) = inp m c main_arg8 :=
  (W13_of_ne m ρ c main_arg8 (by decide)).trans <| (KHost.g4_keep_arg8 (W10 m ρ c)).trans <|
  (W10_of_ne m ρ c main_arg8 (by decide)).trans <|
  (W9_of_ne m ρ c main_arg8 (by decide)).trans <| (KHost.g2_keep_arg8 (W5 m ρ c)).trans <|
  (W5_of_ne m ρ c main_arg8 (by decide)).trans <| (KHost.g1_keep_arg8 (W2 m ρ c)).trans <|
  (W2_of_ne m ρ c main_arg8 (by decide)).trans (KHost.g0_keep_arg8 (W0 m ρ c))

theorem arg9_at13 (c : Dev nD) : W13 (F := Ideal) m ρ c (Proc.devRef .tc main_arg9) = inp m c main_arg9 :=
  (W13_of_ne m ρ c main_arg9 (by decide)).trans <| (KHost.g4_keep_arg9 (W10 m ρ c)).trans <|
  (W10_of_ne m ρ c main_arg9 (by decide)).trans <|
  (W9_of_ne m ρ c main_arg9 (by decide)).trans <| (KHost.g2_keep_arg9 (W5 m ρ c)).trans <|
  (W5_of_ne m ρ c main_arg9 (by decide)).trans <| (KHost.g1_keep_arg9 (W2 m ρ c)).trans <|
  (W2_of_ne m ρ c main_arg9 (by decide)).trans (KHost.g0_keep_arg9 (W0 m ρ c))

theorem arg10_at17 (c : Dev nD) : W17 (F := Ideal) m ρ c (Proc.devRef .tc main_arg10) = inp m c main_arg10 :=
  (W17_of_ne m ρ c main_arg10 (by decide)).trans <| (KHost.g5_keep_arg10 (W13 m ρ c)).trans <|
  (W13_of_ne m ρ c main_arg10 (by decide)).trans <| (KHost.g4_keep_arg10 (W10 m ρ c)).trans <|
  (W10_of_ne m ρ c main_arg10 (by decide)).trans <|
  (W9_of_ne m ρ c main_arg10 (by decide)).trans <| (KHost.g2_keep_arg10 (W5 m ρ c)).trans <|
  (W5_of_ne m ρ c main_arg10 (by decide)).trans <| (KHost.g1_keep_arg10 (W2 m ρ c)).trans <|
  (W2_of_ne m ρ c main_arg10 (by decide)).trans (KHost.g0_keep_arg10 (W0 m ρ c))

theorem arg11_at18 (c : Dev nD) : W18 (F := Ideal) m ρ c (Proc.devRef .tc main_arg11) = inp m c main_arg11 :=
  (W18_of_ne m ρ c main_arg11 (by decide)).trans <|
  (W17_of_ne m ρ c main_arg11 (by decide)).trans <| (KHost.g5_keep_arg11 (W13 m ρ c)).trans <|
  (W13_of_ne m ρ c main_arg11 (by decide)).trans <| (KHost.g4_keep_arg11 (W10 m ρ c)).trans <|
  (W10_of_ne m ρ c main_arg11 (by decide)).trans <|
  (W9_of_ne m ρ c main_arg11 (by decide)).trans <| (KHost.g2_keep_arg11 (W5 m ρ c)).trans <|
  (W5_of_ne m ρ c main_arg11 (by decide)).trans <| (KHost.g1_keep_arg11 (W2 m ρ c)).trans <|
  (W2_of_ne m ρ c main_arg11 (by decide)).trans (KHost.g0_keep_arg11 (W0 m ρ c))

/-! ## Stretch 0's graph data after region 0, which reads none of it -/

theorem v1_at2 (c : Dev nD) : W2 (F := Ideal) m ρ c (Proc.devRef .tc main_v1) = src m c :=
  (W2_of_ne m ρ c main_v1 (by decide)).trans (KHost.g0_src (W0 m ρ c))

theorem v3_at2 (c : Dev nD) : W2 (F := Ideal) m ρ c (Proc.devRef .tc main_v3) = dst m c :=
  (W2_of_ne m ρ c main_v3 (by decide)).trans (KHost.g0_dst (W0 m ρ c))

theorem v25_at2 (c : Dev nD) : W2 (F := Ideal) m ρ c (Proc.devRef .tc main_v25) = coef m c :=
  (W2_of_ne m ρ c main_v25 (by decide)).trans (KHost.g0_coef (W0 m ρ c))

theorem v27_at2 (c : Dev nD) : W2 (F := Ideal) m ρ c (Proc.devRef .tc main_v27) = selfs m c :=
  (W2_of_ne m ρ c main_v27 (by decide)).trans (KHost.g0_selfs (W0 m ρ c))

/-! ## Region 0: the first projection -/

theorem out0 (c : Dev nD) : W2 (F := Ideal) m ρ c (Proc.devRef .tc main_v28) = H1 m c := by
  have h := (W2_arr m ρ c 2).trans (RegLin.final0 (V1 m ρ) c)
  rw [show V1 m ρ c (Pipeline.arrRef spec0 0) = inp m c main_arg0 from arg0_at1 m ρ c,
      show V1 m ρ c (Pipeline.arrRef spec0 1) = inp m c main_arg2 from arg2_at1 m ρ c] at h
  exact h

/-! ## Stretch 1: the aggregation of the projection, the bias as a row -/

theorem v35_at4 (c : Dev nD) :
    W4 (F := Ideal) m ρ c (Proc.devRef .tc main_v35) = aggK128 (F := Ideal) (H1 m c) (coef m c) (src m c) (dst m c) := by
  have h := KHost.g1_agg (F := Ideal) (W2 m ρ c)
  rw [out0 m ρ c, v25_at2 m ρ c, v1_at2 m ρ c, v3_at2 m ρ c] at h
  exact h

theorem v36_at4 (c : Dev nD) :
    W4 (F := Ideal) m ρ c (Proc.devRef .tc main_v36) = shapeCast S1x128 (inp m c main_arg3) Facts₀.shapeCasts_S128_S1x128 := by
  have h := KHost.g1_b (F := Ideal) (W2 m ρ c)
  rw [arg3_at2 m ρ c] at h
  exact h

theorem v28_at4 (c : Dev nD) : W4 (F := Ideal) m ρ c (Proc.devRef .tc main_v28) = H1 m c :=
  (KHost.g1_keep_v28 (W2 m ρ c)).trans (out0 m ρ c)

theorem v27_at4 (c : Dev nD) : W4 (F := Ideal) m ρ c (Proc.devRef .tc main_v27) = selfs m c :=
  (KHost.g1_keep_v27 (W2 m ρ c)).trans (v27_at2 m ρ c)

/-! ## Region 1: layer 1 combined -/

theorem out1 (c : Dev nD) : W5 (F := Ideal) m ρ c (Proc.devRef .tc main_v37) = L1 m c := by
  have h := (W5_arr m ρ c 4).trans
    (RegComb.final1 (V4 m ρ) c (invs m c) (inp m c main_arg3) (v27_at4 m ρ c) (v36_at4 m ρ c))
  rw [show V4 m ρ c (Pipeline.arrRef spec1 0) = aggK128 (F := Ideal) (H1 m c) (coef m c) (src m c) (dst m c) from v35_at4 m ρ c,
      show V4 m ρ c (Pipeline.arrRef spec1 1) = H1 m c from v28_at4 m ρ c] at h
  exact h

/-- The column invs · invs is an input window of region 1: it leaves the region as it entered. -/
theorem v27_at5 (c : Dev nD) : W5 (F := Ideal) m ρ c (Proc.devRef .tc main_v27) = selfs m c :=
  (W5_arr m ρ c 2).trans <| ((dat1 (V4 m ρ) c).arrAt_in 2 rfl _).trans <|
  (A_eq1 (V4 m ρ) c 2).trans (v27_at4 m ρ c)

/-! ## Stretch 2: the column statistics of layer 1, scale and shift as rows -/

theorem v41_at8 (c : Dev nD) :
    W8 (F := Ideal) m ρ c (Proc.devRef .tc main_v41) = shapeCast S1x128 (meanOf (F := Ideal) (L1 m c)) Facts₀.shapeCasts_S128_S1x128 := by
  have h := KHost.g2_mean (F := Ideal) (W5 m ρ c)
  rw [out1 m ρ c] at h
  exact h

theorem v43_at8 (c : Dev nD) :
    W8 (F := Ideal) m ρ c (Proc.devRef .tc main_v43) = shapeCast S1x128 (varOf (F := Ideal) (L1 m c)) Facts₀.shapeCasts_S128_S1x128 := by
  have h := KHost.g2_var (F := Ideal) (W5 m ρ c)
  rw [out1 m ρ c] at h
  exact h

theorem v44_at8 (c : Dev nD) :
    W8 (F := Ideal) m ρ c (Proc.devRef .tc main_v44) = shapeCast S1x128 (inp m c main_arg4) Facts₀.shapeCasts_S128_S1x128 := by
  have h := KHost.g2_g (F := Ideal) (W5 m ρ c)
  rw [arg4_at5 m ρ c] at h
  exact h

theorem v45_at8 (c : Dev nD) :
    W8 (F := Ideal) m ρ c (Proc.devRef .tc main_v45) = shapeCast S1x128 (inp m c main_arg5) Facts₀.shapeCasts_S128_S1x128 := by
  have h := KHost.g2_bt (F := Ideal) (W5 m ρ c)
  rw [arg5_at5 m ρ c] at h
  exact h

theorem v37_at8 (c : Dev nD) : W8 (F := Ideal) m ρ c (Proc.devRef .tc main_v37) = L1 m c :=
  (KHost.g2_keep_v37 (W5 m ρ c)).trans (out1 m ρ c)

/-! ## Region 2: layer 1 normalised -/

theorem out2 (c : Dev nD) : W9 (F := Ideal) m ρ c (Proc.devRef .tc main_v46) = B1 m c := by
  have h := (W9_arr m ρ c 5).trans
    (RegBn.final2 (V8 m ρ) c (meanOf (F := Ideal) (L1 m c)) (varOf (F := Ideal) (L1 m c)) (inp m c main_arg4) (inp m c main_arg5)
      (v41_at8 m ρ c) (v43_at8 m ρ c) (v44_at8 m ρ c) (v45_at8 m ρ c))
  rw [show V8 m ρ c (Pipeline.arrRef spec2 0) = L1 m c from v37_at8 m ρ c] at h
  exact h

/-! ## Region 3: the second projection -/

theorem out3 (c : Dev nD) : W10 (F := Ideal) m ρ c (Proc.devRef .tc main_v47) = H2 m c := by
  have h := (W10_arr m ρ c 2).trans (RegLin.final3 (V9 m ρ) c)
  rw [show V9 m ρ c (Pipeline.arrRef spec3 0) = B1 m c from out2 m ρ c,
      show V9 m ρ c (Pipeline.arrRef spec3 1) = inp m c main_arg6 from arg6_at9 m ρ c] at h
  exact h

/-! ## The graph data after region 3: kept by stretches 1 and 2 and by regions 1 to 3 -/

theorem v1_at10 (c : Dev nD) : W10 (F := Ideal) m ρ c (Proc.devRef .tc main_v1) = src m c :=
  (W10_of_ne m ρ c main_v1 (by decide)).trans <|
  (W9_of_ne m ρ c main_v1 (by decide)).trans <| (KHost.g2_keep_v1 (W5 m ρ c)).trans <|
  (W5_of_ne m ρ c main_v1 (by decide)).trans <| (KHost.g1_keep_v1 (W2 m ρ c)).trans (v1_at2 m ρ c)

theorem v3_at10 (c : Dev nD) : W10 (F := Ideal) m ρ c (Proc.devRef .tc main_v3) = dst m c :=
  (W10_of_ne m ρ c main_v3 (by decide)).trans <|
  (W9_of_ne m ρ c main_v3 (by decide)).trans <| (KHost.g2_keep_v3 (W5 m ρ c)).trans <|
  (W5_of_ne m ρ c main_v3 (by decide)).trans <| (KHost.g1_keep_v3 (W2 m ρ c)).trans (v3_at2 m ρ c)

theorem v25_at10 (c : Dev nD) : W10 (F := Ideal) m ρ c (Proc.devRef .tc main_v25) = coef m c :=
  (W10_of_ne m ρ c main_v25 (by decide)).trans <|
  (W9_of_ne m ρ c main_v25 (by decide)).trans <| (KHost.g2_keep_v25 (W5 m ρ c)).trans <|
  (W5_of_ne m ρ c main_v25 (by decide)).trans <| (KHost.g1_keep_v25 (W2 m ρ c)).trans (v25_at2 m ρ c)

/-! ## Stretch 4: the aggregation of the second projection, the bias as a row -/

theorem v54_at12 (c : Dev nD) :
    W12 (F := Ideal) m ρ c (Proc.devRef .tc main_v54) = aggK128 (F := Ideal) (H2 m c) (coef m c) (src m c) (dst m c) := by
  have h := KHost.g4_agg (F := Ideal) (W10 m ρ c)
  rw [out3 m ρ c, v25_at10 m ρ c, v1_at10 m ρ c, v3_at10 m ρ c] at h
  exact h

theorem v55_at12 (c : Dev nD) :
    W12 (F := Ideal) m ρ c (Proc.devRef .tc main_v55) = shapeCast S1x128 (inp m c main_arg7) Facts₀.shapeCasts_S128_S1x128 := by
  have h := KHost.g4_b (F := Ideal) (W10 m ρ c)
  rw [arg7_at10 m ρ c] at h
  exact h

theorem v47_at12 (c : Dev nD) : W12 (F := Ideal) m ρ c (Proc.devRef .tc main_v47) = H2 m c :=
  (KHost.g4_keep_v47 (W10 m ρ c)).trans (out3 m ρ c)

theorem v27_at12 (c : Dev nD) : W12 (F := Ideal) m ρ c (Proc.devRef .tc main_v27) = selfs m c :=
  (KHost.g4_keep_v27 (W10 m ρ c)).trans <| (W10_of_ne m ρ c main_v27 (by decide)).trans <|
  (W9_of_ne m ρ c main_v27 (by decide)).trans <| (KHost.g2_keep_v27 (W5 m ρ c)).trans (v27_at5 m ρ c)

/-! ## Region 4: layer 2 combined -/

theorem out4 (c : Dev nD) : W13 (F := Ideal) m ρ c (Proc.devRef .tc main_v56) = L2 m c := by
  have h := (W13_arr m ρ c 4).trans
    (RegComb.final4 (V12 m ρ) c (invs m c) (inp m c main_arg7) (v27_at12 m ρ c) (v55_at12 m ρ c))
  rw [show V12 m ρ c (Pipeline.arrRef spec4 0) = aggK128 (F := Ideal) (H2 m c) (coef m c) (src m c) (dst m c) from v54_at12 m ρ c,
      show V12 m ρ c (Pipeline.arrRef spec4 1) = H2 m c from v47_at12 m ρ c] at h
  exact h

/-- The column invs · invs is an input window of region 4: it leaves the region as it entered. -/
theorem v27_at13 (c : Dev nD) : W13 (F := Ideal) m ρ c (Proc.devRef .tc main_v27) = selfs m c :=
  (W13_arr m ρ c 2).trans <| ((dat4 (V12 m ρ) c).arrAt_in 2 rfl _).trans <|
  (A_eq4 (V12 m ρ) c 2).trans (v27_at12 m ρ c)

/-! ## Stretch 5: the column statistics of layer 2, scale and shift as rows -/

theorem v60_at16 (c : Dev nD) :
    W16 (F := Ideal) m ρ c (Proc.devRef .tc main_v60) = shapeCast S1x128 (meanOf (F := Ideal) (L2 m c)) Facts₀.shapeCasts_S128_S1x128 := by
  have h := KHost.g5_mean (F := Ideal) (W13 m ρ c)
  rw [out4 m ρ c] at h
  exact h

theorem v62_at16 (c : Dev nD) :
    W16 (F := Ideal) m ρ c (Proc.devRef .tc main_v62) = shapeCast S1x128 (varOf (F := Ideal) (L2 m c)) Facts₀.shapeCasts_S128_S1x128 := by
  have h := KHost.g5_var (F := Ideal) (W13 m ρ c)
  rw [out4 m ρ c] at h
  exact h

theorem v63_at16 (c : Dev nD) :
    W16 (F := Ideal) m ρ c (Proc.devRef .tc main_v63) = shapeCast S1x128 (inp m c main_arg8) Facts₀.shapeCasts_S128_S1x128 := by
  have h := KHost.g5_g (F := Ideal) (W13 m ρ c)
  rw [arg8_at13 m ρ c] at h
  exact h

theorem v64_at16 (c : Dev nD) :
    W16 (F := Ideal) m ρ c (Proc.devRef .tc main_v64) = shapeCast S1x128 (inp m c main_arg9) Facts₀.shapeCasts_S128_S1x128 := by
  have h := KHost.g5_bt (F := Ideal) (W13 m ρ c)
  rw [arg9_at13 m ρ c] at h
  exact h

theorem v56_at16 (c : Dev nD) : W16 (F := Ideal) m ρ c (Proc.devRef .tc main_v56) = L2 m c :=
  (KHost.g5_keep_v56 (W13 m ρ c)).trans (out4 m ρ c)

/-! ## Region 5: layer 2 normalised -/

theorem out5 (c : Dev nD) : W17 (F := Ideal) m ρ c (Proc.devRef .tc main_v65) = B2 m c := by
  have h := (W17_arr m ρ c 5).trans
    (RegBn.final5 (V16 m ρ) c (meanOf (F := Ideal) (L2 m c)) (varOf (F := Ideal) (L2 m c)) (inp m c main_arg8) (inp m c main_arg9)
      (v60_at16 m ρ c) (v62_at16 m ρ c) (v63_at16 m ρ c) (v64_at16 m ρ c))
  rw [show V16 m ρ c (Pipeline.arrRef spec5 0) = L2 m c from v56_at16 m ρ c] at h
  exact h

/-! ## Region 6: the third projection -/

theorem out6 (c : Dev nD) : W18 (F := Ideal) m ρ c (Proc.devRef .tc main_v66) = H3 m c := by
  have h := (W18_arr m ρ c 2).trans (RegLin.final6 (V17 m ρ) c)
  rw [show V17 m ρ c (Pipeline.arrRef spec6 0) = B2 m c from out5 m ρ c,
      show V17 m ρ c (Pipeline.arrRef spec6 1) = inp m c main_arg10 from arg10_at17 m ρ c] at h
  exact h

/-! ## The graph data after region 6: kept by stretches 4 and 5 and by regions 4 to 6 -/

theorem v1_at18 (c : Dev nD) : W18 (F := Ideal) m ρ c (Proc.devRef .tc main_v1) = src m c :=
  (W18_of_ne m ρ c main_v1 (by decide)).trans <|
  (W17_of_ne m ρ c main_v1 (by decide)).trans <| (KHost.g5_keep_v1 (W13 m ρ c)).trans <|
  (W13_of_ne m ρ c main_v1 (by decide)).trans <| (KHost.g4_keep_v1 (W10 m ρ c)).trans (v1_at10 m ρ c)

theorem v3_at18 (c : Dev nD) : W18 (F := Ideal) m ρ c (Proc.devRef .tc main_v3) = dst m c :=
  (W18_of_ne m ρ c main_v3 (by decide)).trans <|
  (W17_of_ne m ρ c main_v3 (by decide)).trans <| (KHost.g5_keep_v3 (W13 m ρ c)).trans <|
  (W13_of_ne m ρ c main_v3 (by decide)).trans <| (KHost.g4_keep_v3 (W10 m ρ c)).trans (v3_at10 m ρ c)

theorem v25_at18 (c : Dev nD) : W18 (F := Ideal) m ρ c (Proc.devRef .tc main_v25) = coef m c :=
  (W18_of_ne m ρ c main_v25 (by decide)).trans <|
  (W17_of_ne m ρ c main_v25 (by decide)).trans <| (KHost.g5_keep_v25 (W13 m ρ c)).trans <|
  (W13_of_ne m ρ c main_v25 (by decide)).trans <| (KHost.g4_keep_v25 (W10 m ρ c)).trans (v25_at10 m ρ c)

/-! ## Stretch 7: the aggregation of the third projection, the bias as a row -/

theorem v73_at20 (c : Dev nD) :
    W20 (F := Ideal) m ρ c (Proc.devRef .tc main_v73) = aggK64 (F := Ideal) (H3 m c) (coef m c) (src m c) (dst m c) := by
  have h := KHost.g7_agg (F := Ideal) (W18 m ρ c)
  rw [out6 m ρ c, v25_at18 m ρ c, v1_at18 m ρ c, v3_at18 m ρ c] at h
  exact h

theorem v74_at20 (c : Dev nD) :
    W20 (F := Ideal) m ρ c (Proc.devRef .tc main_v74) = shapeCast S1x64 (inp m c main_arg11) Facts₀.shapeCasts_S64_S1x64 := by
  have h := KHost.g7_b (F := Ideal) (W18 m ρ c)
  rw [arg11_at18 m ρ c] at h
  exact h

theorem v66_at20 (c : Dev nD) : W20 (F := Ideal) m ρ c (Proc.devRef .tc main_v66) = H3 m c :=
  (KHost.g7_keep_v66 (W18 m ρ c)).trans (out6 m ρ c)

theorem v27_at20 (c : Dev nD) : W20 (F := Ideal) m ρ c (Proc.devRef .tc main_v27) = selfs m c :=
  (KHost.g7_keep_v27 (W18 m ρ c)).trans <| (W18_of_ne m ρ c main_v27 (by decide)).trans <|
  (W17_of_ne m ρ c main_v27 (by decide)).trans <| (KHost.g5_keep_v27 (W13 m ρ c)).trans (v27_at13 m ρ c)

/-! ## Region 7: layer 3 combined, the result -/

theorem W21_out (c : Dev nD) :
    W21 (F := Ideal) m ρ c (Proc.devRef .tc main_v75)
      = Cert.Gcn.netK (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h := (W21_arr m ρ c 4).trans
    (RegComb.final7 (V20 m ρ) c (invs m c) (inp m c main_arg11) (v27_at20 m ρ c) (v74_at20 m ρ c))
  rw [show V20 m ρ c (Pipeline.arrRef spec7 0) = aggK64 (F := Ideal) (H3 m c) (coef m c) (src m c) (dst m c) from v73_at20 m ρ c,
      show V20 m ρ c (Pipeline.arrRef spec7 1) = H3 m c from v66_at20 m ρ c] at h
  exact h

end Cert.Gcn.KChain

end
-- ==== Proof.Take.lean ====
/-
  Where every source id lies in [-50000, 50000), its wrapped value is a row of the table, the guard of the guarded row gather is
  all ones, the guarded gather is the plain gather, and the network with the guarded gather is the network. The range is what the
  precondition's last conjunct says of row 0 of the edge table.
-/
import proofs.«425463_j10161892623141_1_alg».proof.Proof.TakeSpec
import proofs.«425463_j10161892623141_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.WordArith
import Idealize.ShloMosaic.Lib.Affine
import Idealize.ShloMosaic.PureOps.Reduce

noncomputable section

namespace Cert.Gcn.Take

open Idealize.ShloMosaic

variable [Cert.KernelIdeal.Facts] [Cert.ReferenceIdeal.Facts] [Cert.Pre_finite_inputs.Facts]

/-- Every edge's wrapped source id is a row of the table: the guard is all ones. -/
def InRange (ei : IVec Cert.ReferenceIdeal.S2x800000 32) : Prop :=
  Cert.Gcn.rowOk (Cert.Gcn.srcOf ei) = fun _ => 1#1

/-! ## The range of the source ids, read off the precondition -/

/-- A reduction by `and` from 1 over one-bit words that are all 1 is 1 (the converse of reading an element off a
    reduction that is 1): the fold meets `1 &&& 1` at every step. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih => rw [List.foldl_cons, hx a]; exact ih

/-- The precondition's last conjunct, at edge `e`: -50000 ≤ id and id < 50000 as signed 32-bit compares
    (the word 4294917296 is -50000). The conjunction is a chain of `and`s; its last member is an `and`-reduction over
    all edges of the `and` of the two compares. -/
theorem src_bounds (a0 : FVec Ideal Cert.Pre_finite_inputs.S50000x128 .f32) (ei : IVec Cert.Pre_finite_inputs.S2x800000 32)
    (a2 : FVec Ideal Cert.Pre_finite_inputs.S128x128 .f32) (a3 a4 a5 : FVec Ideal Cert.Pre_finite_inputs.S128 .f32)
    (a6 : FVec Ideal Cert.Pre_finite_inputs.S128x128 .f32) (a7 a8 a9 : FVec Ideal Cert.Pre_finite_inputs.S128 .f32)
    (a10 : FVec Ideal Cert.Pre_finite_inputs.S128x64 .f32) (a11 : FVec Ideal Cert.Pre_finite_inputs.S64 .f32)
    (hpre : Cert.Pre_finite_inputs.fn (F := Ideal) a0 ei a2 a3 a4 a5 a6 a7 a8 a9 a10 a11 = fun _ => 1#1)
    (e : Cert.ReferenceIdeal.S800000.Idx) :
    IntOp.cmpi .sge (Cert.Gcn.srcOf ei e) 4294917296#32 = 1#1 ∧ IntOp.cmpi .slt (Cert.Gcn.srcOf ei e) 50000#32 = 1#1 := by
  -- a rank-0 array has one index
  haveI : Subsingleton Cert.Pre_finite_inputs.S_.Idx := ⟨fun a b => funext fun d => d.elim0⟩
  have h0 := congrFun hpre ValueIdx.ix0
  dsimp only [Cert.Pre_finite_inputs.fn, Cert.Pre_finite_inputs.fn_part1, Cert.Pre_finite_inputs.fn_part2,
    Cert.Pre_finite_inputs.fn_part3] at h0
  -- the last member of the chain of `and`s, then the element of the all-edges reduction, then its two compares
  have h1 := (IntOp.andi_eq_one.1 h0).2
  have h2 := Host.reduce_andi_all _ _ _ _ _ h1 e
  exact IntOp.andi_eq_one.1 h2

/-- One id: for -50000 ≤ s < 50000 (signed), the wrapped id `if s < 0 then s + 50000 else s` lies in [0, 49999].
    Below zero the sum s + 50000 is in [0, 49999], so the 32-bit addition does not wrap; from zero up the id is kept. -/
theorem wrap_in_range (s : BitVec 32) (h1 : IntOp.cmpi .sge s 4294917296#32 = 1#1) (h2 : IntOp.cmpi .slt s 50000#32 = 1#1) :
    IntOp.cmpi .sge (Scalar.select (IntOp.cmpi .slt s 0#32) (IntOp.addi s 50000#32) s) 0#32 = 1#1 ∧
    IntOp.cmpi .sle (Scalar.select (IntOp.cmpi .slt s 0#32) (IntOp.addi s 50000#32) s) 49999#32 = 1#1 := by
  have e0 : (0#32 : BitVec 32).toInt = 0 := by decide
  have eN : (4294917296#32 : BitVec 32).toInt = -50000 := by decide
  have eP : (50000#32 : BitVec 32).toInt = 50000 := by decide
  have eQ : (49999#32 : BitVec 32).toInt = 49999 := by decide
  rw [IntOp.cmpi_sge, eN] at h1
  rw [IntOp.cmpi_slt, eP] at h2
  rw [IntOp.cmpi_sge, IntOp.cmpi_sle, e0, eQ]
  by_cases hneg : s.toInt < 0
  · have hc : IntOp.cmpi .slt s 0#32 = 1#1 := IntOp.cmpi_slt.2 (by rw [e0]; exact hneg)
    rw [hc, ValueIdx.select_one]
    have ha : (s + 50000#32).toInt = s.toInt + (50000#32 : BitVec 32).toInt :=
      WordArith.toInt_add_of_bounds s 50000#32 (by rw [eP]; omega) (by rw [eP]; omega)
    rw [eP] at ha
    show 0 ≤ (s + 50000#32).toInt ∧ (s + 50000#32).toInt ≤ 49999
    omega
  · have hc : IntOp.cmpi .slt s 0#32 = 0#1 :=
      ValueIdx.eq_zero_of_ne_one fun h => hneg (by have := IntOp.cmpi_slt.1 h; rwa [e0] at this)
    rw [hc, ValueIdx.select_zero]
    omega

/-- With every id in [-50000, 50000) the guard is all ones: at each edge it is the `and`-reduction, from 1, over the one
    entry of that edge's row of the column of `and`s of the two compares on the wrapped id, and each such `and` is 1. The
    broadcasts of the constants read the constants, and the column reads the wrapped id at the edge. -/
theorem rowOk_eq_one (src : IVec Cert.ReferenceIdeal.S800000 32)
    (hs : ∀ k, IntOp.cmpi .sge (src k) 4294917296#32 = 1#1 ∧ IntOp.cmpi .slt (src k) 50000#32 = 1#1) :
    Cert.Gcn.rowOk src = fun _ => 1#1 := by
  funext e
  unfold Cert.Gcn.rowOk
  refine reduce_andi_of_all _ _ _ _ _ (fun i => ?_) rfl
  exact IntOp.andi_eq_one.2 (wrap_in_range (src _) (hs _).1 (hs _).2)

/-- The precondition's last conjunct bounds every source id by -50000 ≤ id < 50000; such an id, wrapped, is in [0, 49999]. -/
theorem inRange_of_pre (a0 : FVec Ideal Cert.Pre_finite_inputs.S50000x128 .f32) (ei : IVec Cert.Pre_finite_inputs.S2x800000 32)
    (a2 : FVec Ideal Cert.Pre_finite_inputs.S128x128 .f32) (a3 a4 a5 : FVec Ideal Cert.Pre_finite_inputs.S128 .f32)
    (a6 : FVec Ideal Cert.Pre_finite_inputs.S128x128 .f32) (a7 a8 a9 : FVec Ideal Cert.Pre_finite_inputs.S128 .f32)
    (a10 : FVec Ideal Cert.Pre_finite_inputs.S128x64 .f32) (a11 : FVec Ideal Cert.Pre_finite_inputs.S64 .f32)
    (hpre : Cert.Pre_finite_inputs.fn (F := Ideal) a0 ei a2 a3 a4 a5 a6 a7 a8 a9 a10 a11 = fun _ => 1#1) :
    InRange ei :=
  rowOk_eq_one (Cert.Gcn.srcOf ei) (src_bounds a0 ei a2 a3 a4 a5 a6 a7 a8 a9 a10 a11 hpre)

/-! ## The guarded gather under an all-ones guard, and the two networks -/

theorem take128_eq (h : FVec Ideal Cert.ReferenceIdeal.S50000x128 .f32) (src : IVec Cert.ReferenceIdeal.S800000 32)
    (hr : Cert.Gcn.rowOk src = fun _ => 1#1) :
    Cert.Gcn.take128 (F := Ideal) h src
      = Host.gather Cert.ReferenceIdeal.gather_S50000x128_S800000x1_S800000x128_1_0_n_n_0_1_1128 h (Cert.Gcn.colIdx (Cert.Gcn.wrapId src)) := by
  -- the guard is all ones, so its broadcast reads 1 at every index, and a select on the bit 1 is its first operand
  unfold Cert.Gcn.take128
  rw [hr]
  funext i
  exact ValueIdx.select_one _ _

theorem take64_eq (h : FVec Ideal Cert.ReferenceIdeal.S50000x64 .f32) (src : IVec Cert.ReferenceIdeal.S800000 32)
    (hr : Cert.Gcn.rowOk src = fun _ => 1#1) :
    Cert.Gcn.take64 (F := Ideal) h src
      = Host.gather Cert.ReferenceIdeal.gather_S50000x64_S800000x1_S800000x64_1_0_n_n_0_1_164 h (Cert.Gcn.colIdx (Cert.Gcn.wrapId src)) := by
  unfold Cert.Gcn.take64
  rw [hr]
  funext i
  exact ValueIdx.select_one _ _

/-- With every source id in range the kernel program's network is the reference's. -/
theorem netK_eq_net (x : FVec Ideal Cert.ReferenceIdeal.S50000x128 .f32) (ei : IVec Cert.ReferenceIdeal.S2x800000 32)
    (W1 : FVec Ideal Cert.ReferenceIdeal.S128x128 .f32) (b1 g1 bt1 : FVec Ideal Cert.ReferenceIdeal.S128 .f32)
    (W2 : FVec Ideal Cert.ReferenceIdeal.S128x128 .f32) (b2 g2 bt2 : FVec Ideal Cert.ReferenceIdeal.S128 .f32)
    (W3 : FVec Ideal Cert.ReferenceIdeal.S128x64 .f32) (b3 : FVec Ideal Cert.ReferenceIdeal.S64 .f32) (hr : InRange ei) :
    Cert.Gcn.netK (F := Ideal) x ei W1 b1 g1 bt1 W2 b2 g2 bt2 W3 b3 = Cert.Gcn.net (F := Ideal) x ei W1 b1 g1 bt1 W2 b2 g2 bt2 W3 b3 := by
  -- each guarded gather is the plain gather; with that the two networks are one term
  unfold Cert.Gcn.netK Cert.Gcn.layerK128 Cert.Gcn.layerK64 Cert.Gcn.aggK128 Cert.Gcn.aggK64
  simp only [take128_eq _ _ hr, take64_eq _ _ hr]
  rfl

end Cert.Gcn.Take

end
-- ==== Proof.RefOpsTable.lean ====
/-
  The reference program's @main as six lists of host operations, one per stage, in program order: each entry is the
  operation of one printed statement, and a call of a private function is the function's own operations over the
  call's buffer record (a nested call likewise), which is what unfolding the call gives.
-/
import proofs.«425463_j10161892623141_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- %0 … %3: the two rows of the edge table. (4 operations) -/
abbrev opsG : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)), -- %0
    StableHlo.reshape main_v0 main_v1 rfl shapeCasts_S1x800000_S800000, -- %1
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)), -- %2
    StableHlo.reshape main_v2 main_v3 rfl shapeCasts_S1x800000_S800000 ] -- %3

/-- %4 … %47: layer 1. (54 operations) -/
abbrev opsL1 : List (HloOp τ sig (Elt F)) :=
  [ StableHlo.binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)), -- %4
    StableHlo.nullary main_cst (constant S_ .f32 0x3F800000#32), -- %cst
    StableHlo.unary main_cst main_v5 (broadcastInDim S800000 ![] bcast_S_S800000 : (⟨S_, .f32⟩ : BufTy).Contents (Elt F) → (⟨S800000, .f32⟩ : BufTy).Contents (Elt F)), -- %5
    StableHlo.nullary main_cst_0 (constant S_ .f32 0x00000000#32), -- %cst_0
    StableHlo.unary main_cst_0 main_v6 (broadcastInDim S50000 ![] bcast_S_S50000 : (⟨S_, .f32⟩ : BufTy).Contents (Elt F) → (⟨S50000, .f32⟩ : BufTy).Contents (Elt F)), -- %6
    StableHlo.unary main_v3 main_v7 (broadcastInDim S800000x1 ![0] bcast_S800000_S800000x1_0 : (⟨S800000, .i32⟩ : BufTy).Contents (Elt F) → (⟨S800000x1, .i32⟩ : BufTy).Contents (Elt F)), -- %7
    StableHlo.ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- %8
    StableHlo.nullary main_cst_1 (constant S_ .f32 0x3F800000#32), -- %cst_1
    StableHlo.unary main_cst_1 main_v9 (broadcastInDim S50000 ![] bcast_S_S50000 : (⟨S_, .f32⟩ : BufTy).Contents (Elt F) → (⟨S50000, .f32⟩ : BufTy).Contents (Elt F)), -- %9
    StableHlo.binary main_v8 main_v9 main_v10 (addf : (⟨S50000, .f32⟩ : BufTy).Contents (Elt F) → (⟨S50000, .f32⟩ : BufTy).Contents (Elt F) → (⟨S50000, .f32⟩ : BufTy).Contents (Elt F)), -- %10
    StableHlo.unary main_v10 main_v11 (Host.rsqrt : (⟨S50000, .f32⟩ : BufTy).Contents (Elt F) → (⟨S50000, .f32⟩ : BufTy).Contents (Elt F)), -- %11
    StableHlo.nullary main_c (constantI S_ 32 0#32), -- %c
    StableHlo.unary main_c main_v12 (broadcastInDim S800000 ![] bcast_S_S800000 : (⟨S_, .i32⟩ : BufTy).Contents (Elt F) → (⟨S800000, .i32⟩ : BufTy).Contents (Elt F)), -- %12
    StableHlo.binary main_v1 main_v12 main_v13 (cmpi .slt : (⟨S800000, .i32⟩ : BufTy).Contents (Elt F) → (⟨S800000, .i32⟩ : BufTy).Contents (Elt F) → (⟨S800000, .i1⟩ : BufTy).Contents (Elt F)), -- %13
    StableHlo.nullary main_c_2 (constantI S_ 32 50000#32), -- %c_2
    StableHlo.unary main_c_2 main_v14 (broadcastInDim S800000 ![] bcast_S_S800000 : (⟨S_, .i32⟩ : BufTy).Contents (Elt F) → (⟨S800000, .i32⟩ : BufTy).Contents (Elt F)), -- %14
    StableHlo.binary main_v1 main_v14 main_v15 (addi : (⟨S800000, .i32⟩ : BufTy).Contents (Elt F) → (⟨S800000, .i32⟩ : BufTy).Contents (Elt F) → (⟨S800000, .i32⟩ : BufTy).Contents (Elt F)), -- %15
    StableHlo.ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %16
    StableHlo.unary main_v16 main_v17 (broadcastInDim S800000x1 ![0] bcast_S800000_S800000x1_0 : (⟨S800000, .i32⟩ : BufTy).Contents (Elt F) → (⟨S800000x1, .i32⟩ : BufTy).Contents (Elt F)), -- %17
    StableHlo.binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- %18
    StableHlo.nullary main_c_3 (constantI S_ 32 0#32), -- %c_3
    StableHlo.unary main_c_3 main_v19 (broadcastInDim S800000 ![] bcast_S_S800000 : (⟨S_, .i32⟩ : BufTy).Contents (Elt F) → (⟨S800000, .i32⟩ : BufTy).Contents (Elt F)), -- %19
    StableHlo.binary main_v3 main_v19 main_v20 (cmpi .slt : (⟨S800000, .i32⟩ : BufTy).Contents (Elt F) → (⟨S800000, .i32⟩ : BufTy).Contents (Elt F) → (⟨S800000, .i1⟩ : BufTy).Contents (Elt F)), -- %20
    StableHlo.nullary main_c_4 (constantI S_ 32 50000#32), -- %c_4
    StableHlo.unary main_c_4 main_v21 (broadcastInDim S800000 ![] bcast_S_S800000 : (⟨S_, .i32⟩ : BufTy).Contents (Elt F) → (⟨S800000, .i32⟩ : BufTy).Contents (Elt F)), -- %21
    StableHlo.binary main_v3 main_v21 main_v22 (addi : (⟨S800000, .i32⟩ : BufTy).Contents (Elt F) → (⟨S800000, .i32⟩ : BufTy).Contents (Elt F) → (⟨S800000, .i32⟩ : BufTy).Contents (Elt F)), -- %22
    StableHlo.ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %23
    StableHlo.unary main_v23 main_v24 (broadcastInDim S800000x1 ![0] bcast_S800000_S800000x1_0 : (⟨S800000, .i32⟩ : BufTy).Contents (Elt F) → (⟨S800000x1, .i32⟩ : BufTy).Contents (Elt F)), -- %24
    StableHlo.binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- %25
    StableHlo.binary main_v18 main_v25 main_v26 (mulf : (⟨S800000, .f32⟩ : BufTy).Contents (Elt F) → (⟨S800000, .f32⟩ : BufTy).Contents (Elt F) → (⟨S800000, .f32⟩ : BufTy).Contents (Elt F)), -- %26
    StableHlo.nullary main_c_5 (constantI S_ 32 0#32), -- %c_5
    StableHlo.unary main_c_5 main_v27 (broadcastInDim S800000 ![] bcast_S_S800000 : (⟨S_, .i32⟩ : BufTy).Contents (Elt F) → (⟨S800000, .i32⟩ : BufTy).Contents (Elt F)), -- %27
    StableHlo.binary main_v1 main_v27 main_v28 (cmpi .slt : (⟨S800000, .i32⟩ : BufTy).Contents (Elt F) → (⟨S800000, .i32⟩ : BufTy).Contents (Elt F) → (⟨S800000, .i1⟩ : BufTy).Contents (Elt F)), -- %28
    StableHlo.nullary main_c_6 (constantI S_ 32 50000#32), -- %c_6
    StableHlo.unary main_c_6 main_v29 (broadcastInDim S800000 ![] bcast_S_S800000 : (⟨S_, .i32⟩ : BufTy).Contents (Elt F) → (⟨S800000, .i32⟩ : BufTy).Contents (Elt F)), -- %29
    StableHlo.binary main_v1 main_v29 main_v30 (addi : (⟨S800000, .i32⟩ : BufTy).Contents (Elt F) → (⟨S800000, .i32⟩ : BufTy).Contents (Elt F) → (⟨S800000, .i32⟩ : BufTy).Contents (Elt F)), -- %30
    StableHlo.ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %31
    StableHlo.unary main_v31 main_v32 (broadcastInDim S800000x1 ![0] bcast_S800000_S800000x1_0 : (⟨S800000, .i32⟩ : BufTy).Contents (Elt F) → (⟨S800000x1, .i32⟩ : BufTy).Contents (Elt F)), -- %32
    StableHlo.binary main_v4 main_v32 main_v33 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)), -- %33
    StableHlo.unary main_v26 main_v34 (broadcastInDim S800000x1 ![0] bcast_S800000_S800000x1_0 : (⟨S800000, .f32⟩ : BufTy).Contents (Elt F) → (⟨S800000x1, .f32⟩ : BufTy).Contents (Elt F)), -- %34
    StableHlo.unary main_v34 main_v35 (broadcastInDim S800000x128 ![0, 1] bcast_S800000x1_S800000x128_0_1 : (⟨S800000x1, .f32⟩ : BufTy).Contents (Elt F) → (⟨S800000x128, .f32⟩ : BufTy).Contents (Elt F)), -- %35
    StableHlo.binary main_v33 main_v35 main_v36 (mulf : (⟨S800000x128, .f32⟩ : BufTy).Contents (Elt F) → (⟨S800000x128, .f32⟩ : BufTy).Contents (Elt F) → (⟨S800000x128, .f32⟩ : BufTy).Contents (Elt F)), -- %36
    StableHlo.nullary main_cst_7 (constant S_ .f32 0x00000000#32), -- %cst_7
    StableHlo.unary main_cst_7 main_v37 (broadcastInDim S50000x128 ![] bcast_S_S50000x128 : (⟨S_, .f32⟩ : BufTy).Contents (Elt F) → (⟨S50000x128, .f32⟩ : BufTy).Contents (Elt F)), -- %37
    StableHlo.unary main_v3 main_v38 (broadcastInDim S800000x1 ![0] bcast_S800000_S800000x1_0 : (⟨S800000, .i32⟩ : BufTy).Contents (Elt F) → (⟨S800000x1, .i32⟩ : BufTy).Contents (Elt F)), -- %38
    StableHlo.ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)), -- %39
    StableHlo.binary main_v11 main_v11 main_v40 (mulf : (⟨S50000, .f32⟩ : BufTy).Contents (Elt F) → (⟨S50000, .f32⟩ : BufTy).Contents (Elt F) → (⟨S50000, .f32⟩ : BufTy).Contents (Elt F)), -- %40
    StableHlo.unary main_v40 main_v41 (broadcastInDim S50000x1 ![0] bcast_S50000_S50000x1_0 : (⟨S50000, .f32⟩ : BufTy).Contents (Elt F) → (⟨S50000x1, .f32⟩ : BufTy).Contents (Elt F)), -- %41
    StableHlo.unary main_v41 main_v42 (broadcastInDim S50000x128 ![0, 1] bcast_S50000x1_S50000x128_0_1 : (⟨S50000x1, .f32⟩ : BufTy).Contents (Elt F) → (⟨S50000x128, .f32⟩ : BufTy).Contents (Elt F)), -- %42
    StableHlo.binary main_v4 main_v42 main_v43 (mulf : (⟨S50000x128, .f32⟩ : BufTy).Contents (Elt F) → (⟨S50000x128, .f32⟩ : BufTy).Contents (Elt F) → (⟨S50000x128, .f32⟩ : BufTy).Contents (Elt F)), -- %43
    StableHlo.binary main_v39 main_v43 main_v44 (addf : (⟨S50000x128, .f32⟩ : BufTy).Contents (Elt F) → (⟨S50000x128, .f32⟩ : BufTy).Contents (Elt F) → (⟨S50000x128, .f32⟩ : BufTy).Contents (Elt F)), -- %44
    StableHlo.unary main_arg3 main_v45 (broadcastInDim S1x128 ![1] bcast_S128_S1x128_1 : (⟨S128, .f32⟩ : BufTy).Contents (Elt F) → (⟨S1x128, .f32⟩ : BufTy).Contents (Elt F)), -- %45
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)), -- %46
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)) ] -- %47

/-- %cst_8 … %67: the first normalisation and max(·, 0). (47 operations) -/
abbrev opsB1 : List (HloOp τ sig (Elt F)) :=
  [ StableHlo.nullary main_cst_8 (constant S_ .f32 0x00000000#32), -- %cst_8
    StableHlo.binary main_v47 main_cst_8 main_v48 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)), -- %48
    StableHlo.nullary main_cst_9 (constant S_ .f32 0x47435000#32), -- %cst_9
    StableHlo.unary main_cst_9 main_v49 (broadcastInDim S128 ![] bcast_S_S128 : (⟨S_, .f32⟩ : BufTy).Contents (Elt F) → (⟨S128, .f32⟩ : BufTy).Contents (Elt F)), -- %49
    StableHlo.binary main_v48 main_v49 main_v50 (Host.divf : (⟨S128, .f32⟩ : BufTy).Contents (Elt F) → (⟨S128, .f32⟩ : BufTy).Contents (Elt F) → (⟨S128, .f32⟩ : BufTy).Contents (Elt F)), -- %50
    StableHlo.nullary main_c_10 (constantI S_ 32 0#32), -- %c_10
    StableHlo.TRef.nullary main_call0.cst (constant S_ .f32 0x00000000#32), -- %51 = @_var · %cst
    StableHlo.TRef.binary (.of main_v47 : StableHlo.TRef sig ⟨S50000x128, .f32⟩) main_call0.cst main_call0.v0 (fun x v => Host.reduceAdd x v reducesTo_S50000x128_S128_d0 h_S_), -- %51 = @_var · %0
    StableHlo.TRef.unary main_call0.v0 main_call0.v1 (broadcastInDim S1x128 ![1] bcast_S128_S1x128_1), -- %51 = @_var · %1
    StableHlo.TRef.nullary main_call0.cst_0 (constant S_ .f32 0x47435000#32), -- %51 = @_var · %cst_0
    StableHlo.TRef.unary main_call0.cst_0 main_call0.v2 (broadcastInDim S1x128 ![] bcast_S_S1x128), -- %51 = @_var · %2
    StableHlo.TRef.binary main_call0.v1 main_call0.v2 main_call0.v3 Host.divf, -- %51 = @_var · %3
    StableHlo.TRef.unary main_call0.v3 main_call0.v4 (broadcastInDim S50000x128 ![0, 1] bcast_S1x128_S50000x128_0_1), -- %51 = @_var · %4
    StableHlo.TRef.binary (.of main_v47 : StableHlo.TRef sig ⟨S50000x128, .f32⟩) main_call0.v4 main_call0.v5 subf, -- %51 = @_var · %5
    StableHlo.TRef.binary main_call0.v5 main_call0.v5 main_call0.v6 mulf, -- %51 = @_var · %6
    StableHlo.TRef.unary (.of main_c_10 : StableHlo.TRef sig ⟨S_, .i32⟩) main_call0.v7 (sitofp .f32), -- %51 = @_var · %7
    StableHlo.TRef.nullary main_call0.cst_1 (constant S_ .f32 0x47435000#32), -- %51 = @_var · %cst_1
    StableHlo.TRef.binary main_call0.cst_1 main_call0.v7 main_call0.v8 subf, -- %51 = @_var · %8
    StableHlo.TRef.nullary main_call0.cst_2 (constant S_ .f32 0x00000000#32), -- %51 = @_var · %cst_2
    StableHlo.TRef.binary main_call0.v6 main_call0.cst_2 main_call0.v9 (fun x v => Host.reduceAdd x v reducesTo_S50000x128_S128_d0 h_S_), -- %51 = @_var · %9
    StableHlo.TRef.unary main_call0.v8 main_call0.v10 (broadcastInDim S128 ![] bcast_S_S128), -- %51 = @_var · %10
    StableHlo.TRef.binary main_call0.v9 main_call0.v10 main_call0.v11 Host.divf, -- %51 = @_var · %11
    StableHlo.TRef.nullary main_call0.cst_3 (constant S_ .f32 0x00000000#32), -- %51 = @_var · %cst_3
    StableHlo.TRef.binary main_call0.v8 main_call0.cst_3 main_call0.v12 (cmpf .ogt), -- %51 = @_var · %12
    StableHlo.TRef.nullary main_call0.cst_4 (constant S_ .f32 0x7FC00000#32), -- %51 = @_var · %cst_4
    StableHlo.TRef.unary main_call0.cst_4 main_call0.call0.v0 id, -- %51 = @_var · %13 = @_where · %0
    StableHlo.TRef.unary main_call0.call0.v0 main_call0.call0.v1 (broadcastInDim S128 ![] bcast_S_S128), -- %51 = @_var · %13 = @_where · %1
    StableHlo.TRef.ternary main_call0.v12 main_call0.v11 main_call0.call0.v1 main_call0.call0.v2 (fun p a b => select (broadcastInDim S128 ![] bcast_S_S128 p) a b), -- %51 = @_var · %13 = @_where · %2
    StableHlo.unary main_v50 main_v52 (broadcastInDim S1x128 ![1] bcast_S128_S1x128_1 : (⟨S128, .f32⟩ : BufTy).Contents (Elt F) → (⟨S1x128, .f32⟩ : BufTy).Contents (Elt F)), -- %52
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)), -- %53
    StableHlo.binary main_v47 main_v53 main_v54 (subf : (⟨S50000x128, .f32⟩ : BufTy).Contents (Elt F) → (⟨S50000x128, .f32⟩ : BufTy).Contents (Elt F) → (⟨S50000x128, .f32⟩ : BufTy).Contents (Elt F)), -- %54
    StableHlo.unary main_arg4 main_v55 (broadcastInDim S1x128 ![1] bcast_S128_S1x128_1 : (⟨S128, .f32⟩ : BufTy).Contents (Elt F) → (⟨S1x128, .f32⟩ : BufTy).Contents (Elt F)), -- %55
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)), -- %56
    StableHlo.binary main_v56 main_v54 main_v57 (mulf : (⟨S50000x128, .f32⟩ : BufTy).Contents (Elt F) → (⟨S50000x128, .f32⟩ : BufTy).Contents (Elt F) → (⟨S50000x128, .f32⟩ : BufTy).Contents (Elt F)), -- %57
    StableHlo.nullary main_cst_11 (constant S_ .f32 0x3727C5AC#32), -- %cst_11
    StableHlo.unary main_cst_11 main_v58 (broadcastInDim S128 ![] bcast_S_S128 : (⟨S_, .f32⟩ : BufTy).Contents (Elt F) → (⟨S128, .f32⟩ : BufTy).Contents (Elt F)), -- %58
    StableHlo.binary main_v51 main_v58 main_v59 (addf : (⟨S128, .f32⟩ : BufTy).Contents (Elt F) → (⟨S128, .f32⟩ : BufTy).Contents (Elt F) → (⟨S128, .f32⟩ : BufTy).Contents (Elt F)), -- %59
    StableHlo.unary main_v59 main_v60 (Host.rsqrt : (⟨S128, .f32⟩ : BufTy).Contents (Elt F) → (⟨S128, .f32⟩ : BufTy).Contents (Elt F)), -- %60
    StableHlo.unary main_v60 main_v61 (broadcastInDim S1x128 ![1] bcast_S128_S1x128_1 : (⟨S128, .f32⟩ : BufTy).Contents (Elt F) → (⟨S1x128, .f32⟩ : BufTy).Contents (Elt F)), -- %61
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)), -- %62
    StableHlo.binary main_v57 main_v62 main_v63 (mulf : (⟨S50000x128, .f32⟩ : BufTy).Contents (Elt F) → (⟨S50000x128, .f32⟩ : BufTy).Contents (Elt F) → (⟨S50000x128, .f32⟩ : BufTy).Contents (Elt F)), -- %63
    StableHlo.unary main_arg5 main_v64 (broadcastInDim S1x128 ![1] bcast_S128_S1x128_1 : (⟨S128, .f32⟩ : BufTy).Contents (Elt F) → (⟨S1x128, .f32⟩ : BufTy).Contents (Elt F)), -- %64
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)), -- %65
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)), -- %66
    StableHlo.TRef.nullary main_call1.cst (constant S_ .f32 0x00000000#32), -- %67 = @relu · %cst
    StableHlo.TRef.unary main_call1.cst main_call1.v0 (broadcastInDim S50000x128 ![] bcast_S_S50000x128), -- %67 = @relu · %0
    StableHlo.TRef.binary (.of main_v66 : StableHlo.TRef sig ⟨S50000x128, .f32⟩) main_call1.v0 main_call1.v1 maximumf ] -- %67 = @relu · %1

/-- %68 … %111: layer 2. (54 operations) -/
abbrev opsL2 : List (HloOp τ sig (Elt F)) :=
  [ StableHlo.binary main_v67 main_arg6 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)), -- %68
    StableHlo.nullary main_cst_12 (constant S_ .f32 0x3F800000#32), -- %cst_12
    StableHlo.unary main_cst_12 main_v69 (broadcastInDim S800000 ![] bcast_S_S800000 : (⟨S_, .f32⟩ : BufTy).Contents (Elt F) → (⟨S800000, .f32⟩ : BufTy).Contents (Elt F)), -- %69
    StableHlo.nullary main_cst_13 (constant S_ .f32 0x00000000#32), -- %cst_13
    StableHlo.unary main_cst_13 main_v70 (broadcastInDim S50000 ![] bcast_S_S50000 : (⟨S_, .f32⟩ : BufTy).Contents (Elt F) → (⟨S50000, .f32⟩ : BufTy).Contents (Elt F)), -- %70
    StableHlo.unary main_v3 main_v71 (broadcastInDim S800000x1 ![0] bcast_S800000_S800000x1_0 : (⟨S800000, .i32⟩ : BufTy).Contents (Elt F) → (⟨S800000x1, .i32⟩ : BufTy).Contents (Elt F)), -- %71
    StableHlo.ternary main_v70 main_v71 main_v69 main_v72 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- %72
    StableHlo.nullary main_cst_14 (constant S_ .f32 0x3F800000#32), -- %cst_14
    StableHlo.unary main_cst_14 main_v73 (broadcastInDim S50000 ![] bcast_S_S50000 : (⟨S_, .f32⟩ : BufTy).Contents (Elt F) → (⟨S50000, .f32⟩ : BufTy).Contents (Elt F)), -- %73
    StableHlo.binary main_v72 main_v73 main_v74 (addf : (⟨S50000, .f32⟩ : BufTy).Contents (Elt F) → (⟨S50000, .f32⟩ : BufTy).Contents (Elt F) → (⟨S50000, .f32⟩ : BufTy).Contents (Elt F)), -- %74
    StableHlo.unary main_v74 main_v75 (Host.rsqrt : (⟨S50000, .f32⟩ : BufTy).Contents (Elt F) → (⟨S50000, .f32⟩ : BufTy).Contents (Elt F)), -- %75
    StableHlo.nullary main_c_15 (constantI S_ 32 0#32), -- %c_15
    StableHlo.unary main_c_15 main_v76 (broadcastInDim S800000 ![] bcast_S_S800000 : (⟨S_, .i32⟩ : BufTy).Contents (Elt F) → (⟨S800000, .i32⟩ : BufTy).Contents (Elt F)), -- %76
    StableHlo.binary main_v1 main_v76 main_v77 (cmpi .slt : (⟨S800000, .i32⟩ : BufTy).Contents (Elt F) → (⟨S800000, .i32⟩ : BufTy).Contents (Elt F) → (⟨S800000, .i1⟩ : BufTy).Contents (Elt F)), -- %77
    StableHlo.nullary main_c_16 (constantI S_ 32 50000#32), -- %c_16
    StableHlo.unary main_c_16 main_v78 (broadcastInDim S800000 ![] bcast_S_S800000 : (⟨S_, .i32⟩ : BufTy).Contents (Elt F) → (⟨S800000, .i32⟩ : BufTy).Contents (Elt F)), -- %78
    StableHlo.binary main_v1 main_v78 main_v79 (addi : (⟨S800000, .i32⟩ : BufTy).Contents (Elt F) → (⟨S800000, .i32⟩ : BufTy).Contents (Elt F) → (⟨S800000, .i32⟩ : BufTy).Contents (Elt F)), -- %79
    StableHlo.ternary main_v77 main_v79 main_v1 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %80
    StableHlo.unary main_v80 main_v81 (broadcastInDim S800000x1 ![0] bcast_S800000_S800000x1_0 : (⟨S800000, .i32⟩ : BufTy).Contents (Elt F) → (⟨S800000x1, .i32⟩ : BufTy).Contents (Elt F)), -- %81
    StableHlo.binary main_v75 main_v81 main_v82 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- %82
    StableHlo.nullary main_c_17 (constantI S_ 32 0#32), -- %c_17
    StableHlo.unary main_c_17 main_v83 (broadcastInDim S800000 ![] bcast_S_S800000 : (⟨S_, .i32⟩ : BufTy).Contents (Elt F) → (⟨S800000, .i32⟩ : BufTy).Contents (Elt F)), -- %83
    StableHlo.binary main_v3 main_v83 main_v84 (cmpi .slt : (⟨S800000, .i32⟩ : BufTy).Contents (Elt F) → (⟨S800000, .i32⟩ : BufTy).Contents (Elt F) → (⟨S800000, .i1⟩ : BufTy).Contents (Elt F)), -- %84
    StableHlo.nullary main_c_18 (constantI S_ 32 50000#32), -- %c_18
    StableHlo.unary main_c_18 main_v85 (broadcastInDim S800000 ![] bcast_S_S800000 : (⟨S_, .i32⟩ : BufTy).Contents (Elt F) → (⟨S800000, .i32⟩ : BufTy).Contents (Elt F)), -- %85
    StableHlo.binary main_v3 main_v85 main_v86 (addi : (⟨S800000, .i32⟩ : BufTy).Contents (Elt F) → (⟨S800000, .i32⟩ : BufTy).Contents (Elt F) → (⟨S800000, .i32⟩ : BufTy).Contents (Elt F)), -- %86
    StableHlo.ternary main_v84 main_v86 main_v3 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %87
    StableHlo.unary main_v87 main_v88 (broadcastInDim S800000x1 ![0] bcast_S800000_S800000x1_0 : (⟨S800000, .i32⟩ : BufTy).Contents (Elt F) → (⟨S800000x1, .i32⟩ : BufTy).Contents (Elt F)), -- %88
    StableHlo.binary main_v75 main_v88 main_v89 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- %89
    StableHlo.binary main_v82 main_v89 main_v90 (mulf : (⟨S800000, .f32⟩ : BufTy).Contents (Elt F) → (⟨S800000, .f32⟩ : BufTy).Contents (Elt F) → (⟨S800000, .f32⟩ : BufTy).Contents (Elt F)), -- %90
    StableHlo.nullary main_c_19 (constantI S_ 32 0#32), -- %c_19
    StableHlo.unary main_c_19 main_v91 (broadcastInDim S800000 ![] bcast_S_S800000 : (⟨S_, .i32⟩ : BufTy).Contents (Elt F) → (⟨S800000, .i32⟩ : BufTy).Contents (Elt F)), -- %91
    StableHlo.binary main_v1 main_v91 main_v92 (cmpi .slt : (⟨S800000, .i32⟩ : BufTy).Contents (Elt F) → (⟨S800000, .i32⟩ : BufTy).Contents (Elt F) → (⟨S800000, .i1⟩ : BufTy).Contents (Elt F)), -- %92
    StableHlo.nullary main_c_20 (constantI S_ 32 50000#32), -- %c_20
    StableHlo.unary main_c_20 main_v93 (broadcastInDim S800000 ![] bcast_S_S800000 : (⟨S_, .i32⟩ : BufTy).Contents (Elt F) → (⟨S800000, .i32⟩ : BufTy).Contents (Elt F)), -- %93
    StableHlo.binary main_v1 main_v93 main_v94 (addi : (⟨S800000, .i32⟩ : BufTy).Contents (Elt F) → (⟨S800000, .i32⟩ : BufTy).Contents (Elt F) → (⟨S800000, .i32⟩ : BufTy).Contents (Elt F)), -- %94
    StableHlo.ternary main_v92 main_v94 main_v1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %95
    StableHlo.unary main_v95 main_v96 (broadcastInDim S800000x1 ![0] bcast_S800000_S800000x1_0 : (⟨S800000, .i32⟩ : BufTy).Contents (Elt F) → (⟨S800000x1, .i32⟩ : BufTy).Contents (Elt F)), -- %96
    StableHlo.binary main_v68 main_v96 main_v97 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)), -- %97
    StableHlo.unary main_v90 main_v98 (broadcastInDim S800000x1 ![0] bcast_S800000_S800000x1_0 : (⟨S800000, .f32⟩ : BufTy).Contents (Elt F) → (⟨S800000x1, .f32⟩ : BufTy).Contents (Elt F)), -- %98
    StableHlo.unary main_v98 main_v99 (broadcastInDim S800000x128 ![0, 1] bcast_S800000x1_S800000x128_0_1 : (⟨S800000x1, .f32⟩ : BufTy).Contents (Elt F) → (⟨S800000x128, .f32⟩ : BufTy).Contents (Elt F)), -- %99
    StableHlo.binary main_v97 main_v99 main_v100 (mulf : (⟨S800000x128, .f32⟩ : BufTy).Contents (Elt F) → (⟨S800000x128, .f32⟩ : BufTy).Contents (Elt F) → (⟨S800000x128, .f32⟩ : BufTy).Contents (Elt F)), -- %100
    StableHlo.nullary main_cst_21 (constant S_ .f32 0x00000000#32), -- %cst_21
    StableHlo.unary main_cst_21 main_v101 (broadcastInDim S50000x128 ![] bcast_S_S50000x128 : (⟨S_, .f32⟩ : BufTy).Contents (Elt F) → (⟨S50000x128, .f32⟩ : BufTy).Contents (Elt F)), -- %101
    StableHlo.unary main_v3 main_v102 (broadcastInDim S800000x1 ![0] bcast_S800000_S800000x1_0 : (⟨S800000, .i32⟩ : BufTy).Contents (Elt F) → (⟨S800000x1, .i32⟩ : BufTy).Contents (Elt F)), -- %102
    StableHlo.ternary main_v101 main_v102 main_v100 main_v103 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)), -- %103
    StableHlo.binary main_v75 main_v75 main_v104 (mulf : (⟨S50000, .f32⟩ : BufTy).Contents (Elt F) → (⟨S50000, .f32⟩ : BufTy).Contents (Elt F) → (⟨S50000, .f32⟩ : BufTy).Contents (Elt F)), -- %104
    StableHlo.unary main_v104 main_v105 (broadcastInDim S50000x1 ![0] bcast_S50000_S50000x1_0 : (⟨S50000, .f32⟩ : BufTy).Contents (Elt F) → (⟨S50000x1, .f32⟩ : BufTy).Contents (Elt F)), -- %105
    StableHlo.unary main_v105 main_v106 (broadcastInDim S50000x128 ![0, 1] bcast_S50000x1_S50000x128_0_1 : (⟨S50000x1, .f32⟩ : BufTy).Contents (Elt F) → (⟨S50000x128, .f32⟩ : BufTy).Contents (Elt F)), -- %106
    StableHlo.binary main_v68 main_v106 main_v107 (mulf : (⟨S50000x128, .f32⟩ : BufTy).Contents (Elt F) → (⟨S50000x128, .f32⟩ : BufTy).Contents (Elt F) → (⟨S50000x128, .f32⟩ : BufTy).Contents (Elt F)), -- %107
    StableHlo.binary main_v103 main_v107 main_v108 (addf : (⟨S50000x128, .f32⟩ : BufTy).Contents (Elt F) → (⟨S50000x128, .f32⟩ : BufTy).Contents (Elt F) → (⟨S50000x128, .f32⟩ : BufTy).Contents (Elt F)), -- %108
    StableHlo.unary main_arg7 main_v109 (broadcastInDim S1x128 ![1] bcast_S128_S1x128_1 : (⟨S128, .f32⟩ : BufTy).Contents (Elt F) → (⟨S1x128, .f32⟩ : BufTy).Contents (Elt F)), -- %109
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)), -- %110
    StableHlo.binary main_v108 main_v110 main_v111 (addf : (⟨S50000x128, .f32⟩ : BufTy).Contents (Elt F) → (⟨S50000x128, .f32⟩ : BufTy).Contents (Elt F) → (⟨S50000x128, .f32⟩ : BufTy).Contents (Elt F)) ] -- %111

/-- %cst_22 … %131: the second normalisation and max(·, 0). (47 operations) -/
abbrev opsB2 : List (HloOp τ sig (Elt F)) :=
  [ StableHlo.nullary main_cst_22 (constant S_ .f32 0x00000000#32), -- %cst_22
    StableHlo.binary main_v111 main_cst_22 main_v112 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)), -- %112
    StableHlo.nullary main_cst_23 (constant S_ .f32 0x47435000#32), -- %cst_23
    StableHlo.unary main_cst_23 main_v113 (broadcastInDim S128 ![] bcast_S_S128 : (⟨S_, .f32⟩ : BufTy).Contents (Elt F) → (⟨S128, .f32⟩ : BufTy).Contents (Elt F)), -- %113
    StableHlo.binary main_v112 main_v113 main_v114 (Host.divf : (⟨S128, .f32⟩ : BufTy).Contents (Elt F) → (⟨S128, .f32⟩ : BufTy).Contents (Elt F) → (⟨S128, .f32⟩ : BufTy).Contents (Elt F)), -- %114
    StableHlo.nullary main_c_24 (constantI S_ 32 0#32), -- %c_24
    StableHlo.TRef.nullary main_call2.cst (constant S_ .f32 0x00000000#32), -- %115 = @_var · %cst
    StableHlo.TRef.binary (.of main_v111 : StableHlo.TRef sig ⟨S50000x128, .f32⟩) main_call2.cst main_call2.v0 (fun x v => Host.reduceAdd x v reducesTo_S50000x128_S128_d0 h_S_), -- %115 = @_var · %0
    StableHlo.TRef.unary main_call2.v0 main_call2.v1 (broadcastInDim S1x128 ![1] bcast_S128_S1x128_1), -- %115 = @_var · %1
    StableHlo.TRef.nullary main_call2.cst_0 (constant S_ .f32 0x47435000#32), -- %115 = @_var · %cst_0
    StableHlo.TRef.unary main_call2.cst_0 main_call2.v2 (broadcastInDim S1x128 ![] bcast_S_S1x128), -- %115 = @_var · %2
    StableHlo.TRef.binary main_call2.v1 main_call2.v2 main_call2.v3 Host.divf, -- %115 = @_var · %3
    StableHlo.TRef.unary main_call2.v3 main_call2.v4 (broadcastInDim S50000x128 ![0, 1] bcast_S1x128_S50000x128_0_1), -- %115 = @_var · %4
    StableHlo.TRef.binary (.of main_v111 : StableHlo.TRef sig ⟨S50000x128, .f32⟩) main_call2.v4 main_call2.v5 subf, -- %115 = @_var · %5
    StableHlo.TRef.binary main_call2.v5 main_call2.v5 main_call2.v6 mulf, -- %115 = @_var · %6
    StableHlo.TRef.unary (.of main_c_24 : StableHlo.TRef sig ⟨S_, .i32⟩) main_call2.v7 (sitofp .f32), -- %115 = @_var · %7
    StableHlo.TRef.nullary main_call2.cst_1 (constant S_ .f32 0x47435000#32), -- %115 = @_var · %cst_1
    StableHlo.TRef.binary main_call2.cst_1 main_call2.v7 main_call2.v8 subf, -- %115 = @_var · %8
    StableHlo.TRef.nullary main_call2.cst_2 (constant S_ .f32 0x00000000#32), -- %115 = @_var · %cst_2
    StableHlo.TRef.binary main_call2.v6 main_call2.cst_2 main_call2.v9 (fun x v => Host.reduceAdd x v reducesTo_S50000x128_S128_d0 h_S_), -- %115 = @_var · %9
    StableHlo.TRef.unary main_call2.v8 main_call2.v10 (broadcastInDim S128 ![] bcast_S_S128), -- %115 = @_var · %10
    StableHlo.TRef.binary main_call2.v9 main_call2.v10 main_call2.v11 Host.divf, -- %115 = @_var · %11
    StableHlo.TRef.nullary main_call2.cst_3 (constant S_ .f32 0x00000000#32), -- %115 = @_var · %cst_3
    StableHlo.TRef.binary main_call2.v8 main_call2.cst_3 main_call2.v12 (cmpf .ogt), -- %115 = @_var · %12
    StableHlo.TRef.nullary main_call2.cst_4 (constant S_ .f32 0x7FC00000#32), -- %115 = @_var · %cst_4
    StableHlo.TRef.unary main_call2.cst_4 main_call2.call0.v0 id, -- %115 = @_var · %13 = @_where · %0
    StableHlo.TRef.unary main_call2.call0.v0 main_call2.call0.v1 (broadcastInDim S128 ![] bcast_S_S128), -- %115 = @_var · %13 = @_where · %1
    StableHlo.TRef.ternary main_call2.v12 main_call2.v11 main_call2.call0.v1 main_call2.call0.v2 (fun p a b => select (broadcastInDim S128 ![] bcast_S_S128 p) a b), -- %115 = @_var · %13 = @_where · %2
    StableHlo.unary main_v114 main_v116 (broadcastInDim S1x128 ![1] bcast_S128_S1x128_1 : (⟨S128, .f32⟩ : BufTy).Contents (Elt F) → (⟨S1x128, .f32⟩ : BufTy).Contents (Elt F)), -- %116
    StableHlo.unary main_v116 main_v117 (broadcastInDim S50000x128 ![0, 1] bcast_S1x128_S50000x128_0_1 : (⟨S1x128, .f32⟩ : BufTy).Contents (Elt F) → (⟨S50000x128, .f32⟩ : BufTy).Contents (Elt F)), -- %117
    StableHlo.binary main_v111 main_v117 main_v118 (subf : (⟨S50000x128, .f32⟩ : BufTy).Contents (Elt F) → (⟨S50000x128, .f32⟩ : BufTy).Contents (Elt F) → (⟨S50000x128, .f32⟩ : BufTy).Contents (Elt F)), -- %118
    StableHlo.unary main_arg8 main_v119 (broadcastInDim S1x128 ![1] bcast_S128_S1x128_1 : (⟨S128, .f32⟩ : BufTy).Contents (Elt F) → (⟨S1x128, .f32⟩ : BufTy).Contents (Elt F)), -- %119
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)), -- %120
    StableHlo.binary main_v120 main_v118 main_v121 (mulf : (⟨S50000x128, .f32⟩ : BufTy).Contents (Elt F) → (⟨S50000x128, .f32⟩ : BufTy).Contents (Elt F) → (⟨S50000x128, .f32⟩ : BufTy).Contents (Elt F)), -- %121
    StableHlo.nullary main_cst_25 (constant S_ .f32 0x3727C5AC#32), -- %cst_25
    StableHlo.unary main_cst_25 main_v122 (broadcastInDim S128 ![] bcast_S_S128 : (⟨S_, .f32⟩ : BufTy).Contents (Elt F) → (⟨S128, .f32⟩ : BufTy).Contents (Elt F)), -- %122
    StableHlo.binary main_v115 main_v122 main_v123 (addf : (⟨S128, .f32⟩ : BufTy).Contents (Elt F) → (⟨S128, .f32⟩ : BufTy).Contents (Elt F) → (⟨S128, .f32⟩ : BufTy).Contents (Elt F)), -- %123
    StableHlo.unary main_v123 main_v124 (Host.rsqrt : (⟨S128, .f32⟩ : BufTy).Contents (Elt F) → (⟨S128, .f32⟩ : BufTy).Contents (Elt F)), -- %124
    StableHlo.unary main_v124 main_v125 (broadcastInDim S1x128 ![1] bcast_S128_S1x128_1 : (⟨S128, .f32⟩ : BufTy).Contents (Elt F) → (⟨S1x128, .f32⟩ : BufTy).Contents (Elt F)), -- %125
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)), -- %126
    StableHlo.binary main_v121 main_v126 main_v127 (mulf : (⟨S50000x128, .f32⟩ : BufTy).Contents (Elt F) → (⟨S50000x128, .f32⟩ : BufTy).Contents (Elt F) → (⟨S50000x128, .f32⟩ : BufTy).Contents (Elt F)), -- %127
    StableHlo.unary main_arg9 main_v128 (broadcastInDim S1x128 ![1] bcast_S128_S1x128_1 : (⟨S128, .f32⟩ : BufTy).Contents (Elt F) → (⟨S1x128, .f32⟩ : BufTy).Contents (Elt F)), -- %128
    StableHlo.unary main_v128 main_v129 (broadcastInDim S50000x128 ![0, 1] bcast_S1x128_S50000x128_0_1 : (⟨S1x128, .f32⟩ : BufTy).Contents (Elt F) → (⟨S50000x128, .f32⟩ : BufTy).Contents (Elt F)), -- %129
    StableHlo.binary main_v127 main_v129 main_v130 (addf : (⟨S50000x128, .f32⟩ : BufTy).Contents (Elt F) → (⟨S50000x128, .f32⟩ : BufTy).Contents (Elt F) → (⟨S50000x128, .f32⟩ : BufTy).Contents (Elt F)), -- %130
    StableHlo.TRef.nullary main_call3.cst (constant S_ .f32 0x00000000#32), -- %131 = @relu · %cst
    StableHlo.TRef.unary main_call3.cst main_call3.v0 (broadcastInDim S50000x128 ![] bcast_S_S50000x128), -- %131 = @relu · %0
    StableHlo.TRef.binary (.of main_v130 : StableHlo.TRef sig ⟨S50000x128, .f32⟩) main_call3.v0 main_call3.v1 maximumf ] -- %131 = @relu · %1

/-- %132 … %175: layer 3. (54 operations) -/
abbrev opsL3 : List (HloOp τ sig (Elt F)) :=
  [ StableHlo.binary main_v131 main_arg10 main_v132 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)), -- %132
    StableHlo.nullary main_cst_26 (constant S_ .f32 0x3F800000#32), -- %cst_26
    StableHlo.unary main_cst_26 main_v133 (broadcastInDim S800000 ![] bcast_S_S800000 : (⟨S_, .f32⟩ : BufTy).Contents (Elt F) → (⟨S800000, .f32⟩ : BufTy).Contents (Elt F)), -- %133
    StableHlo.nullary main_cst_27 (constant S_ .f32 0x00000000#32), -- %cst_27
    StableHlo.unary main_cst_27 main_v134 (broadcastInDim S50000 ![] bcast_S_S50000 : (⟨S_, .f32⟩ : BufTy).Contents (Elt F) → (⟨S50000, .f32⟩ : BufTy).Contents (Elt F)), -- %134
    StableHlo.unary main_v3 main_v135 (broadcastInDim S800000x1 ![0] bcast_S800000_S800000x1_0 : (⟨S800000, .i32⟩ : BufTy).Contents (Elt F) → (⟨S800000x1, .i32⟩ : BufTy).Contents (Elt F)), -- %135
    StableHlo.ternary main_v134 main_v135 main_v133 main_v136 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)), -- %136
    StableHlo.nullary main_cst_28 (constant S_ .f32 0x3F800000#32), -- %cst_28
    StableHlo.unary main_cst_28 main_v137 (broadcastInDim S50000 ![] bcast_S_S50000 : (⟨S_, .f32⟩ : BufTy).Contents (Elt F) → (⟨S50000, .f32⟩ : BufTy).Contents (Elt F)), -- %137
    StableHlo.binary main_v136 main_v137 main_v138 (addf : (⟨S50000, .f32⟩ : BufTy).Contents (Elt F) → (⟨S50000, .f32⟩ : BufTy).Contents (Elt F) → (⟨S50000, .f32⟩ : BufTy).Contents (Elt F)), -- %138
    StableHlo.unary main_v138 main_v139 (Host.rsqrt : (⟨S50000, .f32⟩ : BufTy).Contents (Elt F) → (⟨S50000, .f32⟩ : BufTy).Contents (Elt F)), -- %139
    StableHlo.nullary main_c_29 (constantI S_ 32 0#32), -- %c_29
    StableHlo.unary main_c_29 main_v140 (broadcastInDim S800000 ![] bcast_S_S800000 : (⟨S_, .i32⟩ : BufTy).Contents (Elt F) → (⟨S800000, .i32⟩ : BufTy).Contents (Elt F)), -- %140
    StableHlo.binary main_v1 main_v140 main_v141 (cmpi .slt : (⟨S800000, .i32⟩ : BufTy).Contents (Elt F) → (⟨S800000, .i32⟩ : BufTy).Contents (Elt F) → (⟨S800000, .i1⟩ : BufTy).Contents (Elt F)), -- %141
    StableHlo.nullary main_c_30 (constantI S_ 32 50000#32), -- %c_30
    StableHlo.unary main_c_30 main_v142 (broadcastInDim S800000 ![] bcast_S_S800000 : (⟨S_, .i32⟩ : BufTy).Contents (Elt F) → (⟨S800000, .i32⟩ : BufTy).Contents (Elt F)), -- %142
    StableHlo.binary main_v1 main_v142 main_v143 (addi : (⟨S800000, .i32⟩ : BufTy).Contents (Elt F) → (⟨S800000, .i32⟩ : BufTy).Contents (Elt F) → (⟨S800000, .i32⟩ : BufTy).Contents (Elt F)), -- %143
    StableHlo.ternary main_v141 main_v143 main_v1 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %144
    StableHlo.unary main_v144 main_v145 (broadcastInDim S800000x1 ![0] bcast_S800000_S800000x1_0 : (⟨S800000, .i32⟩ : BufTy).Contents (Elt F) → (⟨S800000x1, .i32⟩ : BufTy).Contents (Elt F)), -- %145
    StableHlo.binary main_v139 main_v145 main_v146 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- %146
    StableHlo.nullary main_c_31 (constantI S_ 32 0#32), -- %c_31
    StableHlo.unary main_c_31 main_v147 (broadcastInDim S800000 ![] bcast_S_S800000 : (⟨S_, .i32⟩ : BufTy).Contents (Elt F) → (⟨S800000, .i32⟩ : BufTy).Contents (Elt F)), -- %147
    StableHlo.binary main_v3 main_v147 main_v148 (cmpi .slt : (⟨S800000, .i32⟩ : BufTy).Contents (Elt F) → (⟨S800000, .i32⟩ : BufTy).Contents (Elt F) → (⟨S800000, .i1⟩ : BufTy).Contents (Elt F)), -- %148
    StableHlo.nullary main_c_32 (constantI S_ 32 50000#32), -- %c_32
    StableHlo.unary main_c_32 main_v149 (broadcastInDim S800000 ![] bcast_S_S800000 : (⟨S_, .i32⟩ : BufTy).Contents (Elt F) → (⟨S800000, .i32⟩ : BufTy).Contents (Elt F)), -- %149
    StableHlo.binary main_v3 main_v149 main_v150 (addi : (⟨S800000, .i32⟩ : BufTy).Contents (Elt F) → (⟨S800000, .i32⟩ : BufTy).Contents (Elt F) → (⟨S800000, .i32⟩ : BufTy).Contents (Elt F)), -- %150
    StableHlo.ternary main_v148 main_v150 main_v3 main_v151 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %151
    StableHlo.unary main_v151 main_v152 (broadcastInDim S800000x1 ![0] bcast_S800000_S800000x1_0 : (⟨S800000, .i32⟩ : BufTy).Contents (Elt F) → (⟨S800000x1, .i32⟩ : BufTy).Contents (Elt F)), -- %152
    StableHlo.binary main_v139 main_v152 main_v153 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)), -- %153
    StableHlo.binary main_v146 main_v153 main_v154 (mulf : (⟨S800000, .f32⟩ : BufTy).Contents (Elt F) → (⟨S800000, .f32⟩ : BufTy).Contents (Elt F) → (⟨S800000, .f32⟩ : BufTy).Contents (Elt F)), -- %154
    StableHlo.nullary main_c_33 (constantI S_ 32 0#32), -- %c_33
    StableHlo.unary main_c_33 main_v155 (broadcastInDim S800000 ![] bcast_S_S800000 : (⟨S_, .i32⟩ : BufTy).Contents (Elt F) → (⟨S800000, .i32⟩ : BufTy).Contents (Elt F)), -- %155
    StableHlo.binary main_v1 main_v155 main_v156 (cmpi .slt : (⟨S800000, .i32⟩ : BufTy).Contents (Elt F) → (⟨S800000, .i32⟩ : BufTy).Contents (Elt F) → (⟨S800000, .i1⟩ : BufTy).Contents (Elt F)), -- %156
    StableHlo.nullary main_c_34 (constantI S_ 32 50000#32), -- %c_34
    StableHlo.unary main_c_34 main_v157 (broadcastInDim S800000 ![] bcast_S_S800000 : (⟨S_, .i32⟩ : BufTy).Contents (Elt F) → (⟨S800000, .i32⟩ : BufTy).Contents (Elt F)), -- %157
    StableHlo.binary main_v1 main_v157 main_v158 (addi : (⟨S800000, .i32⟩ : BufTy).Contents (Elt F) → (⟨S800000, .i32⟩ : BufTy).Contents (Elt F) → (⟨S800000, .i32⟩ : BufTy).Contents (Elt F)), -- %158
    StableHlo.ternary main_v156 main_v158 main_v1 main_v159 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)), -- %159
    StableHlo.unary main_v159 main_v160 (broadcastInDim S800000x1 ![0] bcast_S800000_S800000x1_0 : (⟨S800000, .i32⟩ : BufTy).Contents (Elt F) → (⟨S800000x1, .i32⟩ : BufTy).Contents (Elt F)), -- %160
    StableHlo.binary main_v132 main_v160 main_v161 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)), -- %161
    StableHlo.unary main_v154 main_v162 (broadcastInDim S800000x1 ![0] bcast_S800000_S800000x1_0 : (⟨S800000, .f32⟩ : BufTy).Contents (Elt F) → (⟨S800000x1, .f32⟩ : BufTy).Contents (Elt F)), -- %162
    StableHlo.unary main_v162 main_v163 (broadcastInDim S800000x64 ![0, 1] bcast_S800000x1_S800000x64_0_1 : (⟨S800000x1, .f32⟩ : BufTy).Contents (Elt F) → (⟨S800000x64, .f32⟩ : BufTy).Contents (Elt F)), -- %163
    StableHlo.binary main_v161 main_v163 main_v164 (mulf : (⟨S800000x64, .f32⟩ : BufTy).Contents (Elt F) → (⟨S800000x64, .f32⟩ : BufTy).Contents (Elt F) → (⟨S800000x64, .f32⟩ : BufTy).Contents (Elt F)), -- %164
    StableHlo.nullary main_cst_35 (constant S_ .f32 0x00000000#32), -- %cst_35
    StableHlo.unary main_cst_35 main_v165 (broadcastInDim S50000x64 ![] bcast_S_S50000x64 : (⟨S_, .f32⟩ : BufTy).Contents (Elt F) → (⟨S50000x64, .f32⟩ : BufTy).Contents (Elt F)), -- %165
    StableHlo.unary main_v3 main_v166 (broadcastInDim S800000x1 ![0] bcast_S800000_S800000x1_0 : (⟨S800000, .i32⟩ : BufTy).Contents (Elt F) → (⟨S800000x1, .i32⟩ : BufTy).Contents (Elt F)), -- %166
    StableHlo.ternary main_v165 main_v166 main_v164 main_v167 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)), -- %167
    StableHlo.binary main_v139 main_v139 main_v168 (mulf : (⟨S50000, .f32⟩ : BufTy).Contents (Elt F) → (⟨S50000, .f32⟩ : BufTy).Contents (Elt F) → (⟨S50000, .f32⟩ : BufTy).Contents (Elt F)), -- %168
    StableHlo.unary main_v168 main_v169 (broadcastInDim S50000x1 ![0] bcast_S50000_S50000x1_0 : (⟨S50000, .f32⟩ : BufTy).Contents (Elt F) → (⟨S50000x1, .f32⟩ : BufTy).Contents (Elt F)), -- %169
    StableHlo.unary main_v169 main_v170 (broadcastInDim S50000x64 ![0, 1] bcast_S50000x1_S50000x64_0_1 : (⟨S50000x1, .f32⟩ : BufTy).Contents (Elt F) → (⟨S50000x64, .f32⟩ : BufTy).Contents (Elt F)), -- %170
    StableHlo.binary main_v132 main_v170 main_v171 (mulf : (⟨S50000x64, .f32⟩ : BufTy).Contents (Elt F) → (⟨S50000x64, .f32⟩ : BufTy).Contents (Elt F) → (⟨S50000x64, .f32⟩ : BufTy).Contents (Elt F)), -- %171
    StableHlo.binary main_v167 main_v171 main_v172 (addf : (⟨S50000x64, .f32⟩ : BufTy).Contents (Elt F) → (⟨S50000x64, .f32⟩ : BufTy).Contents (Elt F) → (⟨S50000x64, .f32⟩ : BufTy).Contents (Elt F)), -- %172
    StableHlo.unary main_arg11 main_v173 (broadcastInDim S1x64 ![1] bcast_S64_S1x64_1 : (⟨S64, .f32⟩ : BufTy).Contents (Elt F) → (⟨S1x64, .f32⟩ : BufTy).Contents (Elt F)), -- %173
    StableHlo.unary main_v173 main_v174 (broadcastInDim S50000x64 ![0, 1] bcast_S1x64_S50000x64_0_1 : (⟨S1x64, .f32⟩ : BufTy).Contents (Elt F) → (⟨S50000x64, .f32⟩ : BufTy).Contents (Elt F)), -- %174
    StableHlo.binary main_v172 main_v174 main_v175 (addf : (⟨S50000x64, .f32⟩ : BufTy).Contents (Elt F) → (⟨S50000x64, .f32⟩ : BufTy).Contents (Elt F) → (⟨S50000x64, .f32⟩ : BufTy).Contents (Elt F)) ] -- %175

end Cert.ReferenceIdeal.RefRun

end
-- ==== Proof.RefOps.lean ====
/-
  The reference program's @main as a list of host operations, cut into its six stages (the graph's two id rows; layer 1; the first
  normalisation; layer 2; the second normalisation; layer 3), the private functions it calls laid out at their call sites, and its
  run: every weakly fair execution terminates with every buffer at the list's fold over the launch contents.
-/
import proofs.«425463_j10161892623141_1_alg».proof.Proof.RefOpsTable

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the six stage lists (opsG, opsL1, opsB1, opsL2, opsB2, opsL3 of the table module) joined. -/
abbrev ops : List (HloOp τ sig (Elt F)) := opsG ++ opsL1 ++ opsB1 ++ opsL2 ++ opsB2 ++ opsL3

/-! ## @main is that straight line

Sequencing in the program monad computes: a step followed by a continuation is the step with the continuation pushed under its own,
and a return followed by a continuation is the continuation. So @main — four windows run in order, each a chain of steps, a call being
the callee's chain over the call's record — and `seq` of the joined lists both evaluate to one chain of 260 steps ending in the
return, step by step the same operation: the equation holds by computation (the bound on recursion raised for the chain's depth). -/

set_option maxRecDepth 100000 in
theorem main_eq (c : Dev nD) : main (F := F) c = seq ops := rfl

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and picks none of its results

A property of every operation of the six lists is one of every operation of their join (`List.forall_append`); on one literal list it
is the conjunction over its entries (`List.forall_cons`), each conjunct a fact about the builder that made the entry: what a
builder touches is its operands and its result, all TensorCore references (`*_bufs_sub`; a typed-reference builder unfolds to the
untyped one at the references carried), and none of the five builders used here writes a buffer fresh (the field's default, the
empty set). -/

private theorem forall_ops {p : HloOp τ sig (Elt F) → Prop} (hG : opsG.Forall p) (hL1 : opsL1.Forall p) (hB1 : opsB1.Forall p)
    (hL2 : opsL2.Forall p) (hB2 : opsB2.Forall p) (hL3 : opsL3.Forall p) : (ops : List (HloOp τ sig (Elt F))).Forall p :=
  List.forall_append.mpr ⟨List.forall_append.mpr ⟨List.forall_append.mpr ⟨List.forall_append.mpr ⟨List.forall_append.mpr
    ⟨hG, hL1⟩, hB1⟩, hL2⟩, hB2⟩, hL3⟩

section Fresh
variable {x a b c y : Ref sig .tc}
private theorem nullary_fresh (v : y.ty.Contents (Elt F)) (hy) : (nullary (τ := τ) y v hy).fresh = ∅ := rfl
private theorem unary_fresh (f : x.ty.Contents (Elt F) → y.ty.Contents (Elt F)) (hx hy) : (unary (τ := τ) x y f hx hy).fresh = ∅ := rfl
private theorem binary_fresh (f : a.ty.Contents (Elt F) → b.ty.Contents (Elt F) → y.ty.Contents (Elt F)) (ha hb hy) :
    (binary (τ := τ) a b y f ha hb hy).fresh = ∅ := rfl
private theorem ternary_fresh (f : c.ty.Contents (Elt F) → a.ty.Contents (Elt F) → b.ty.Contents (Elt F) → y.ty.Contents (Elt F))
    (hc ha hb hy) : (ternary (τ := τ) c a b y f hc ha hb hy).fresh = ∅ := rfl
private theorem reshape_fresh (he hn hx hy) : (reshape (τ := τ) (Val := Elt F) x y he hn hx hy).fresh = ∅ := rfl
end Fresh

theorem ops_sub : (ops : List (HloOp τ sig (Elt F))).Forall fun op => op.bufs ⊆ tcRefs τ sig := by
  apply forall_ops <;>
    simp only [List.forall_cons, List.Forall, nullary_bufs_sub, unary_bufs_sub, binary_bufs_sub, ternary_bufs_sub, reshape_bufs_sub,
      and_self]

theorem ops_fresh : ∀ op ∈ (ops : List (HloOp τ sig (Elt F))), op.fresh = ∅ := by
  refine List.forall_iff_forall_mem.mp ?_
  apply forall_ops <;>
    simp only [List.forall_cons, List.Forall, nullary_fresh, unary_fresh, binary_fresh, ternary_fresh, reshape_fresh, and_self]

/-! ## The run -/

/-- At the compiled mesh, for any float values, from any memory with zero counters: every weakly fair execution of @main on the
    TensorCores terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValue.lean ====
/-
  What the reference program computes: its result buffer after the run is the network of the twelve argument arrays, and the
  arguments end as launched.

  The run leaves every buffer at the fold of the program's operations over the launch contents. The fold is read stage by stage:
  at its result buffer each stage's fold is the stage's named function of the buffers it reads (the fold unrolled, each operation's
  result at its own buffer, every other buffer left as it was), and a buffer no operation of a stage writes passes through the stage
  unchanged. Chaining the six stages gives the network of the arguments.
-/
import proofs.«425463_j10161892623141_1_alg».proof.Proof.Spec
import proofs.«425463_j10161892623141_1_alg».proof.Proof.RefOps

noncomputable section

namespace Cert.Gcn.RefValue

open Cert.ReferenceIdeal Cert.ReferenceIdeal.RefRun Idealize.ShloMosaic Idealize.ShloMosaic.TcCoe Idealize.SL.Sem Idealize.ShloMosaic.StableHlo

variable {F : FTy → Type} [FloatOps F]

/-! ## What each stage computes at its result buffer -/

/-- The first row of the edge table, flattened: the source ids. -/
theorem g_src (X : Valuation τ sig (Elt F)) :
    after (opsG (F := F)) X (main_v1 : DevRef τ sig) = srcOf (X (main_arg1 : DevRef τ sig)) := by
  after_results
  rfl

/-- The second row of the edge table, flattened: the destination ids. -/
theorem g_dst (X : Valuation τ sig (Elt F)) :
    after (opsG (F := F)) X (main_v3 : DevRef τ sig) = dstOf (X (main_arg1 : DevRef τ sig)) := by
  after_results
  rfl

set_option maxHeartbeats 1000000 in
/-- Layer 1 of the features, its weight and bias, over the id rows. -/
theorem l1_out (X : Valuation τ sig (Elt F)) :
    after (opsL1 (F := F)) X (main_v47 : DevRef τ sig)
      = layer128 (X (main_arg0 : DevRef τ sig)) (X (main_arg2 : DevRef τ sig)) (X (main_arg3 : DevRef τ sig))
          (X (main_v1 : DevRef τ sig)) (X (main_v3 : DevRef τ sig)) := by
  after_results_simp
  rfl

set_option maxHeartbeats 1000000 in
/-- The first normalisation (column statistics of layer 1's result, its scale and shift) and max(·, 0). -/
theorem b1_out (X : Valuation τ sig (Elt F)) :
    after (opsB1 (F := F)) X (main_v67 : DevRef τ sig)
      = bn128 (X (main_v47 : DevRef τ sig)) (X (main_arg4 : DevRef τ sig)) (X (main_arg5 : DevRef τ sig)) := by
  after_results_simp
  rfl

set_option maxHeartbeats 1000000 in
/-- Layer 2. -/
theorem l2_out (X : Valuation τ sig (Elt F)) :
    after (opsL2 (F := F)) X (main_v111 : DevRef τ sig)
      = layer128 (X (main_v67 : DevRef τ sig)) (X (main_arg6 : DevRef τ sig)) (X (main_arg7 : DevRef τ sig))
          (X (main_v1 : DevRef τ sig)) (X (main_v3 : DevRef τ sig)) := by
  after_results_simp
  rfl

set_option maxHeartbeats 1000000 in
/-- The second normalisation and max(·, 0). -/
theorem b2_out (X : Valuation τ sig (Elt F)) :
    after (opsB2 (F := F)) X (main_v131 : DevRef τ sig)
      = bn128 (X (main_v111 : DevRef τ sig)) (X (main_arg8 : DevRef τ sig)) (X (main_arg9 : DevRef τ sig)) := by
  after_results_simp
  rfl

set_option maxHeartbeats 1000000 in
/-- Layer 3, at width 64. -/
theorem l3_out (X : Valuation τ sig (Elt F)) :
    after (opsL3 (F := F)) X (main_v175 : DevRef τ sig)
      = layer64 (X (main_v131 : DevRef τ sig)) (X (main_arg10 : DevRef τ sig)) (X (main_arg11 : DevRef τ sig))
          (X (main_v1 : DevRef τ sig)) (X (main_v3 : DevRef τ sig)) := by
  after_results_simp
  rfl

/-! ## What each stage writes, and that every other buffer passes through it -/

/-- The buffers that the two id rows's operations write. -/
abbrev wG : List (Ref sig .tc) :=
  [ main_v0, main_v1, main_v2, main_v3 ]

set_option maxHeartbeats 1000000 in
theorem opsG_writes : (opsG : List (HloOp τ sig (Elt F))).Forall fun op => op.writes ⊆ (wG.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer the two id rows does not write keeps its contents through it. -/
theorem opsG_keep (X : Valuation τ sig (Elt F)) {r : Ref sig .tc} (h : r ∉ wG) :
    after (opsG (F := F)) X (r : DevRef τ sig) = X (r : DevRef τ sig) :=
  after_of_writes_sub opsG X opsG_writes h

/-- The buffers that layer 1's operations write. -/
abbrev wL1 : List (Ref sig .tc) :=
  [ main_v4, main_cst, main_v5, main_cst_0, main_v6, main_v7, main_v8, main_cst_1, main_v9, main_v10, main_v11, main_c, main_v12, main_v13, main_c_2,
    main_v14, main_v15, main_v16, main_v17, main_v18, main_c_3, main_v19, main_v20, main_c_4, main_v21, main_v22, main_v23, main_v24, main_v25, main_v26,
    main_c_5, main_v27, main_v28, main_c_6, main_v29, main_v30, main_v31, main_v32, main_v33, main_v34, main_v35, main_v36, main_cst_7, main_v37, main_v38,
    main_v39, main_v40, main_v41, main_v42, main_v43, main_v44, main_v45, main_v46, main_v47 ]

set_option maxHeartbeats 1000000 in
theorem opsL1_writes : (opsL1 : List (HloOp τ sig (Elt F))).Forall fun op => op.writes ⊆ (wL1.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer layer 1 does not write keeps its contents through it. -/
theorem opsL1_keep (X : Valuation τ sig (Elt F)) {r : Ref sig .tc} (h : r ∉ wL1) :
    after (opsL1 (F := F)) X (r : DevRef τ sig) = X (r : DevRef τ sig) :=
  after_of_writes_sub opsL1 X opsL1_writes h

/-- The buffers that the first normalisation's operations write. -/
abbrev wB1 : List (Ref sig .tc) :=
  [ main_cst_8, main_v48, main_cst_9, main_v49, main_v50, main_c_10, main_call0_cst, main_call0_v0, main_call0_v1, main_call0_cst_0, main_call0_v2,
    main_call0_v3, main_call0_v4, main_call0_v5, main_call0_v6, main_call0_v7, main_call0_cst_1, main_call0_v8, main_call0_cst_2, main_call0_v9,
    main_call0_v10, main_call0_v11, main_call0_cst_3, main_call0_v12, main_call0_cst_4, main_call0_call0_v0, main_call0_call0_v1, main_v51, main_v52,
    main_v53, main_v54, main_v55, main_v56, main_v57, main_cst_11, main_v58, main_v59, main_v60, main_v61, main_v62, main_v63, main_v64, main_v65,
    main_v66, main_call1_cst, main_call1_v0, main_v67 ]

set_option maxHeartbeats 1000000 in
theorem opsB1_writes : (opsB1 : List (HloOp τ sig (Elt F))).Forall fun op => op.writes ⊆ (wB1.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer the first normalisation does not write keeps its contents through it. -/
theorem opsB1_keep (X : Valuation τ sig (Elt F)) {r : Ref sig .tc} (h : r ∉ wB1) :
    after (opsB1 (F := F)) X (r : DevRef τ sig) = X (r : DevRef τ sig) :=
  after_of_writes_sub opsB1 X opsB1_writes h

/-- The buffers that layer 2's operations write. -/
abbrev wL2 : List (Ref sig .tc) :=
  [ main_v68, main_cst_12, main_v69, main_cst_13, main_v70, main_v71, main_v72, main_cst_14, main_v73, main_v74, main_v75, main_c_15, main_v76, main_v77,
    main_c_16, main_v78, main_v79, main_v80, main_v81, main_v82, main_c_17, main_v83, main_v84, main_c_18, main_v85, main_v86, main_v87, main_v88,
    main_v89, main_v90, main_c_19, main_v91, main_v92, main_c_20, main_v93, main_v94, main_v95, main_v96, main_v97, main_v98, main_v99, main_v100,
    main_cst_21, main_v101, main_v102, main_v103, main_v104, main_v105, main_v106, main_v107, main_v108, main_v109, main_v110, main_v111 ]

set_option maxHeartbeats 1000000 in
theorem opsL2_writes : (opsL2 : List (HloOp τ sig (Elt F))).Forall fun op => op.writes ⊆ (wL2.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer layer 2 does not write keeps its contents through it. -/
theorem opsL2_keep (X : Valuation τ sig (Elt F)) {r : Ref sig .tc} (h : r ∉ wL2) :
    after (opsL2 (F := F)) X (r : DevRef τ sig) = X (r : DevRef τ sig) :=
  after_of_writes_sub opsL2 X opsL2_writes h

/-- The buffers that the second normalisation's operations write. -/
abbrev wB2 : List (Ref sig .tc) :=
  [ main_cst_22, main_v112, main_cst_23, main_v113, main_v114, main_c_24, main_call2_cst, main_call2_v0, main_call2_v1, main_call2_cst_0, main_call2_v2,
    main_call2_v3, main_call2_v4, main_call2_v5, main_call2_v6, main_call2_v7, main_call2_cst_1, main_call2_v8, main_call2_cst_2, main_call2_v9,
    main_call2_v10, main_call2_v11, main_call2_cst_3, main_call2_v12, main_call2_cst_4, main_call2_call0_v0, main_call2_call0_v1, main_v115, main_v116,
    main_v117, main_v118, main_v119, main_v120, main_v121, main_cst_25, main_v122, main_v123, main_v124, main_v125, main_v126, main_v127, main_v128,
    main_v129, main_v130, main_call3_cst, main_call3_v0, main_v131 ]

set_option maxHeartbeats 1000000 in
theorem opsB2_writes : (opsB2 : List (HloOp τ sig (Elt F))).Forall fun op => op.writes ⊆ (wB2.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer the second normalisation does not write keeps its contents through it. -/
theorem opsB2_keep (X : Valuation τ sig (Elt F)) {r : Ref sig .tc} (h : r ∉ wB2) :
    after (opsB2 (F := F)) X (r : DevRef τ sig) = X (r : DevRef τ sig) :=
  after_of_writes_sub opsB2 X opsB2_writes h

/-- The buffers that layer 3's operations write. -/
abbrev wL3 : List (Ref sig .tc) :=
  [ main_v132, main_cst_26, main_v133, main_cst_27, main_v134, main_v135, main_v136, main_cst_28, main_v137, main_v138, main_v139, main_c_29, main_v140,
    main_v141, main_c_30, main_v142, main_v143, main_v144, main_v145, main_v146, main_c_31, main_v147, main_v148, main_c_32, main_v149, main_v150,
    main_v151, main_v152, main_v153, main_v154, main_c_33, main_v155, main_v156, main_c_34, main_v157, main_v158, main_v159, main_v160, main_v161,
    main_v162, main_v163, main_v164, main_cst_35, main_v165, main_v166, main_v167, main_v168, main_v169, main_v170, main_v171, main_v172, main_v173,
    main_v174, main_v175 ]

set_option maxHeartbeats 1000000 in
theorem opsL3_writes : (opsL3 : List (HloOp τ sig (Elt F))).Forall fun op => op.writes ⊆ (wL3.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A buffer layer 3 does not write keeps its contents through it. -/
theorem opsL3_keep (X : Valuation τ sig (Elt F)) {r : Ref sig .tc} (h : r ∉ wL3) :
    after (opsL3 (F := F)) X (r : DevRef τ sig) = X (r : DevRef τ sig) :=
  after_of_writes_sub opsL3 X opsL3_writes h

/-! ## The six stages in a row -/

/-- The fold over two lines in a row is the second line's fold from where the first line's ends. -/
theorem after_app (l₁ l₂ : List (HloOp τ sig (Elt F))) (X : Valuation τ sig (Elt F)) :
    after (l₁ ++ l₂) X = after l₂ (after l₁ X) := by
  induction l₁ generalizing X with
  | nil => rfl
  | cons op l ih => rw [List.cons_append, after_cons, after_cons, ih]

/-- The fold over the whole program is the stages' folds, each from where the one before ends. -/
theorem ops_eq (X : Valuation τ sig (Elt F)) :
    after (ops (F := F)) X = after opsL3 (after opsB2 (after opsL2 (after opsB1 (after opsL1 (after opsG X))))) := by
  simp only [ops, after_app]

/-- A buffer no stage writes ends as it began. -/
theorem ops_keep (X : Valuation τ sig (Elt F)) {r : Ref sig .tc} (hG : r ∉ wG) (h1 : r ∉ wL1) (h2 : r ∉ wB1) (h3 : r ∉ wL2)
    (h4 : r ∉ wB2) (h5 : r ∉ wL3) : after (ops (F := F)) X (r : DevRef τ sig) = X (r : DevRef τ sig) := by
  rw [ops_eq, opsL3_keep _ h5, opsB2_keep _ h4, opsL2_keep _ h3, opsB1_keep _ h2, opsL1_keep _ h1, opsG_keep _ hG]

/-- The result buffer after the whole program: each stage's function of the stage before, the id rows and the later arguments
    carried unchanged through the stages between. -/
theorem out_eq (X : Valuation τ sig (Elt F)) :
    after (ops (F := F)) X (main_v175 : DevRef τ sig)
      = net (X (main_arg0 : DevRef τ sig)) (X (main_arg1 : DevRef τ sig)) (X (main_arg2 : DevRef τ sig)) (X (main_arg3 : DevRef τ sig))
          (X (main_arg4 : DevRef τ sig)) (X (main_arg5 : DevRef τ sig)) (X (main_arg6 : DevRef τ sig)) (X (main_arg7 : DevRef τ sig))
          (X (main_arg8 : DevRef τ sig)) (X (main_arg9 : DevRef τ sig)) (X (main_arg10 : DevRef τ sig)) (X (main_arg11 : DevRef τ sig)) := by
  rw [ops_eq, l3_out, b2_out,
    opsB2_keep _ (r := main_arg10) (by decide), opsB2_keep _ (r := main_arg11) (by decide), opsB2_keep _ (r := main_v1) (by decide), opsB2_keep _ (r := main_v3) (by decide),
    l2_out,
    opsL2_keep _ (r := main_arg8) (by decide), opsL2_keep _ (r := main_arg9) (by decide), opsL2_keep _ (r := main_arg10) (by decide), opsL2_keep _ (r := main_arg11) (by decide), opsL2_keep _ (r := main_v1) (by decide), opsL2_keep _ (r := main_v3) (by decide),
    b1_out,
    opsB1_keep _ (r := main_arg6) (by decide), opsB1_keep _ (r := main_arg7) (by decide), opsB1_keep _ (r := main_arg8) (by decide), opsB1_keep _ (r := main_arg9) (by decide), opsB1_keep _ (r := main_arg10) (by decide), opsB1_keep _ (r := main_arg11) (by decide), opsB1_keep _ (r := main_v1) (by decide), opsB1_keep _ (r := main_v3) (by decide),
    l1_out,
    opsL1_keep _ (r := main_arg4) (by decide), opsL1_keep _ (r := main_arg5) (by decide), opsL1_keep _ (r := main_arg6) (by decide), opsL1_keep _ (r := main_arg7) (by decide), opsL1_keep _ (r := main_arg8) (by decide), opsL1_keep _ (r := main_arg9) (by decide), opsL1_keep _ (r := main_arg10) (by decide), opsL1_keep _ (r := main_arg11) (by decide), opsL1_keep _ (r := main_v1) (by decide), opsL1_keep _ (r := main_v3) (by decide),
    g_src, g_dst,
    opsG_keep _ (r := main_arg0) (by decide), opsG_keep _ (r := main_arg2) (by decide), opsG_keep _ (r := main_arg3) (by decide), opsG_keep _ (r := main_arg4) (by decide), opsG_keep _ (r := main_arg5) (by decide), opsG_keep _ (r := main_arg6) (by decide), opsG_keep _ (r := main_arg7) (by decide), opsG_keep _ (r := main_arg8) (by decide), opsG_keep _ (r := main_arg9) (by decide), opsG_keep _ (r := main_arg10) (by decide), opsG_keep _ (r := main_arg11) (by decide),
    net]

/-! ## The run -/

/-- On every device, for any float values, from any memory with zero counters: every weakly fair execution of @main terminates
    with the result buffer at the network of the arguments' launch contents, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175)
        = Cert.Gcn.net (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨(h c main_v175).trans (out_eq (launchContents m c)),
      (h c main_arg0).trans (ops_keep (launchContents m c) (by decide) (by decide) (by decide) (by decide) (by decide) (by decide)),
      (h c main_arg1).trans (ops_keep (launchContents m c) (by decide) (by decide) (by decide) (by decide) (by decide) (by decide)),
      (h c main_arg2).trans (ops_keep (launchContents m c) (by decide) (by decide) (by decide) (by decide) (by decide) (by decide)),
      (h c main_arg3).trans (ops_keep (launchContents m c) (by decide) (by decide) (by decide) (by decide) (by decide) (by decide)),
      (h c main_arg4).trans (ops_keep (launchContents m c) (by decide) (by decide) (by decide) (by decide) (by decide) (by decide)),
      (h c main_arg5).trans (ops_keep (launchContents m c) (by decide) (by decide) (by decide) (by decide) (by decide) (by decide)),
      (h c main_arg6).trans (ops_keep (launchContents m c) (by decide) (by decide) (by decide) (by decide) (by decide) (by decide)),
      (h c main_arg7).trans (ops_keep (launchContents m c) (by decide) (by decide) (by decide) (by decide) (by decide) (by decide)),
      (h c main_arg8).trans (ops_keep (launchContents m c) (by decide) (by decide) (by decide) (by decide) (by decide) (by decide)),
      (h c main_arg9).trans (ops_keep (launchContents m c) (by decide) (by decide) (by decide) (by decide) (by decide) (by decide)),
      (h c main_arg10).trans (ops_keep (launchContents m c) (by decide) (by decide) (by decide) (by decide) (by decide) (by decide)),
      (h c main_arg11).trans (ops_keep (launchContents m c) (by decide) (by decide) (by decide) (by decide) (by decide) (by decide))⟩)
    (Cert.ReferenceIdeal.RefRun.run_all m ρ)

end Cert.Gcn.RefValue

end
-- ==== Proof.lean ====
/-
  The certificate of a three-layer graph-convolution network (row blocks of 5000 on the TensorCore for the dense stages, the
  gathers and scatter-adds on the host) against its jnp reference, over the extended reals.

  Both programs compute, layer by layer,  out = Σ_edges h[src]·coef into row dst + h·invs² + b  with h = X·W,
  invs = (1 + in-degree)^(-1/2), coef = invs[src]·invs[dst], and between the layers a batch normalisation over the rows followed
  by max(·, 0). The kernel program differs from the reference in three ways, none of which changes a value at the extended
  reals where the precondition holds: its dense stages run on row blocks (a block of X·W is the product of the block of X with
  W; the pointwise stages restrict to blocks), its matrix products round their operands to bf16 (a change of format is the
  identity there), and it gathers the rows h[src] through a guard that fills rows whose wrapped id is outside [0, 49999] —
  all ones when every source id lies in [-50000, 50000), which is the precondition's last conjunct (the reference's own row
  gather is only meaningful there). The graph quantities invs and coef, computed once by the kernel program and once per
  layer by the reference, are the same functions of the edge table.
-/
import proofs.«425463_j10161892623141_1_alg».proof.Defs
import proofs.«425463_j10161892623141_1_alg».proof.Proof.Gen.Kernel
import proofs.«425463_j10161892623141_1_alg».proof.Proof.Gen.Kernel.Frame
import proofs.«425463_j10161892623141_1_alg».proof.Proof.Gen.KernelIdeal
import proofs.«425463_j10161892623141_1_alg».proof.Proof.Gen.KernelIdeal.Frame
import proofs.«425463_j10161892623141_1_alg».proof.Proof.Gen.ReferenceIdeal
import proofs.«425463_j10161892623141_1_alg».proof.Proof.Gen.Pre_finite_inputs
import proofs.«425463_j10161892623141_1_alg».proof.Proof.KRun
import proofs.«425463_j10161892623141_1_alg».proof.Proof.KChain
import proofs.«425463_j10161892623141_1_alg».proof.Proof.Take
import proofs.«425463_j10161892623141_1_alg».proof.Proof.RefValue
import Idealize.ShloMosaic.Adequacy
import Idealize.ShloMosaic.Init

noncomputable section

namespace Cert.Proof

open Idealize.ShloMosaic Idealize.SL.Sem

/-- The kernel program as printed runs, and keeps its arguments: the generated frame. -/
theorem frame_kernel : Cert.frame_Kernel := fun m ρ _ => Cert.Kernel.Gen.frame m ρ

/-- Its idealisation runs, and keeps its arguments: the generated frame. -/
theorem frame_kernelIdeal : Cert.frame_KernelIdeal := fun m ρ _ => Cert.KernelIdeal.Gen.frame m ρ

/-- The reference runs, and keeps its arguments: its run with the result dropped. -/
theorem frame_referenceIdeal : Cert.frame_ReferenceIdeal := fun m ρ _ =>
  (θ_run Cert.ReferenceIdeal.defs _ _).mono (fun _ h c => (h c).2) (Cert.Gcn.RefValue.ref_run (F := Ideal) m ρ)

/-- The idealisation rewrote nothing. -/
theorem preserves : Cert.preserves_Kernel_KernelIdeal := trivial

/-- Both idealised programs end with the network of the argument arrays: the kernel program's run read back through its
    regions and host stretches gives the network with the guarded row gather, which is the network where every source id
    is in range (the precondition's last conjunct); the reference's run gives the network. -/
theorem algebraic : Cert.algebraic_KernelIdeal_ReferenceIdeal := by
  intro m ρ m' ρ' hpre hagree
  refine ⟨fun c => Cert.Gcn.net (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩)
      (Cert.KernelIdeal.KRun.run_out (F := Ideal) m ρ)
    exact (Cert.Gcn.KChain.W21_out m ρ c).trans
      (Cert.Gcn.Take.netK_eq_net _ _ _ _ _ _ _ _ _ _ _ _ (Cert.Gcn.Take.inRange_of_pre _ _ _ _ _ _ _ _ _ _ _ _ (hpre c)))
  · refine (θ_run Cert.ReferenceIdeal.defs _ _).mono (fun r h c => ⟨(h c).1.trans ?_, (h c).2⟩)
      (Cert.Gcn.RefValue.ref_run (F := Ideal) m' ρ')
    obtain ⟨h0, h1, h2, h3, h4, h5, h6, h7, h8, h9, h10, h11⟩ := hagree c
    rw [h0, h1, h2, h3, h4, h5, h6, h7, h8, h9, h10, h11]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
